-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S512x512 : Shape := ⟨2, ![512, 512]⟩
abbrev S512 : Shape := ⟨1, ![512]⟩
abbrev S1024x512 : Shape := ⟨2, ![1024, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S1024x512 : S_.BroadcastsInDim S1024x512 (![] : Fin 0 → Fin S1024x512.rank)
  reducesTo_S1024x512_S_d0_1 : S1024x512.ReducesTo [0, 1] S_

variable [Facts]

def fn_part1 {F : FTy → Type} [FloatOps F] (main_arg5 : FVec F S512 .f32) (main_arg6 : FVec F S1024x512 .f32) (main_arg7 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S1024x512 .f32 := Host.absf main_arg6
  let main_cst_8 : FVec F S_ .f32 := constant S_ .f32 0x7F800000#32
  let main_v25 : FVec F S1024x512 .f32 := broadcastInDim S1024x512 ![] bcast_S_S1024x512 main_cst_8
  let main_v26 : IVec S1024x512 1 := cmpf .olt main_v24 main_v25
  let main_c_9 : IVec S_ 1 := constantI S_ 1 1#1
  let main_v27 : IVec S_ 1 := (fun x v => Host.reduce IntOp.andi x v reducesTo_S1024x512_S_d0_1 h_S_) main_v26 main_c_9
  let main_v28 : IVec S_ 1 := andi main_v23 main_v27
  let main_v29 : FVec F S512 .f32 := Host.absf main_arg7
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S8192x512 .f32) (main_arg1 : IVec S8192x8192 32) (main_arg2 : FVec F S512x512 .f32) (main_arg3 : FVec F S512 .f32) (main_arg4 : FVec F S512x512 .f32) (main_arg5 : FVec F S512 .f32) (main_arg6 : FVec F S1024x512 .f32) (main_arg7 : FVec F S512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg4
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg5 main_arg6 main_arg7 main_v13 main_v16
-- ==== Kernel.lean ====
abbrev S8192x512 : Shape := ⟨2, ![8192, 512]⟩
abbrev S8192x8192 : Shape := ⟨2, ![8192, 8192]⟩
abbrev S512x512 : Shape := ⟨2, ![512, 512]⟩
abbrev S512 : Shape := ⟨1, ![512]⟩
abbrev S1024x512 : Shape := ⟨2, ![1024, 512]⟩
abbrev S_ : Shape := ⟨0, ![]⟩
abbrev S8192x1 : Shape := ⟨2, ![8192, 1]⟩
abbrev S8192x127 : Shape := ⟨2, ![8192, 127]⟩
abbrev S8192x640 : Shape := ⟨2, ![8192, 640]⟩
abbrev S512x2048 : Shape := ⟨2, ![512, 2048]⟩
abbrev S512x640 : Shape := ⟨2, ![512, 640]⟩
abbrev S2048x640 : Shape := ⟨2, ![2048, 640]⟩
abbrev S512x1 : Shape := ⟨2, ![512, 1]⟩
abbrev S1x512 : Shape := ⟨2, ![1, 512]⟩

abbrev nBuf : Space → Nat
  | .hbm => 15
  | .vmem => 12
  | .smem => 0
  | _ => 0

abbrev bufTy : (tb : Table) → Fin (tcTables nBuf tb) → BufTy
  | .hbm, ⟨0, _⟩ => ⟨S8192x512, .f32⟩
  | .hbm, ⟨1, _⟩ => ⟨S8192x8192, .i32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S1024x512, .f32⟩
  | .hbm, ⟨7, _⟩ => ⟨S512, .f32⟩
  | .hbm, ⟨8, _⟩ => ⟨S8192x512, .bf16⟩
  | .hbm, ⟨9, _⟩ => ⟨S_, .bf16⟩
  | .hbm, ⟨10, _⟩ => ⟨S8192x1, .bf16⟩
  | .hbm, ⟨11, _⟩ => ⟨S_, .bf16⟩
  | .hbm, ⟨12, _⟩ => ⟨S8192x127, .bf16⟩
  | .hbm, ⟨13, _⟩ => ⟨S8192x640, .bf16⟩
  | .hbm, ⟨14, _⟩ => ⟨S8192x512, .f32⟩
  | .local _ .vmem, ⟨0, _⟩ => ⟨S512x2048, .i32⟩
  | .local _ .vmem, ⟨1, _⟩ => ⟨S512x2048, .i32⟩
  | .local _ .vmem, ⟨2, _⟩ => ⟨S8192x640, .bf16⟩
  | .local _ .vmem, ⟨3, _⟩ => ⟨S512x512, .f32⟩
  | .local _ .vmem, ⟨4, _⟩ => ⟨S512, .f32⟩
  | .local _ .vmem, ⟨5, _⟩ => ⟨S512x512, .f32⟩
  | .local _ .vmem, ⟨6, _⟩ => ⟨S512, .f32⟩
  | .local _ .vmem, ⟨7, _⟩ => ⟨S1024x512, .f32⟩
  | .local _ .vmem, ⟨8, _⟩ => ⟨S512, .f32⟩
  | .local _ .vmem, ⟨9, _⟩ => ⟨S512x512, .f32⟩
  | .local _ .vmem, ⟨10, _⟩ => ⟨S512x512, .f32⟩
  | .local _ .vmem, ⟨11, _⟩ => ⟨S512x640, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c2048_i32 : BitVec 32 := 2048#32
  let v3 : BitVec 32 := Scalar.muli arg1 c2048_i32
  v3
def k0_off1 (i : grid0.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v11 : Index := Scalar.indexCast v4
  let c0_3 : Index := 0#32
  ![v11.toNat, 0]
def k0_cond2 (i : grid0.Coords) : BitVec 1 :=
  let arg1 : BitVec 32 := BitVec.ofNat 32 (i 1).val
  let c3_i32 : BitVec 32 := 3#32
  let v20 : BitVec 1 := Scalar.cmpi .eq arg1 c3_i32
  let v21 : BitVec 32 := Scalar.extui v20
  let c0_i32_8 : BitVec 32 := 0#32
  let v22 : BitVec 1 := Scalar.cmpi .ne v21 c0_i32_8
  v22

def k0_mult2 (i : grid0.Coords) : BitVec 32 :=
  let arg0 : BitVec 32 := BitVec.ofNat 32 (i 0).val
  let c512_i32 : BitVec 32 := 512#32
  let v23 : BitVec 32 := Scalar.muli arg0 c512_i32
  v23
def k0_off2 (i : grid0.Coords) : Fin 2 → Nat :=
  let arg0 : BitVec 32 := BitVec.ofNat 32 (i 0).val
  let c512_i32 : BitVec 32 := 512#32
  let v23 : BitVec 32 := Scalar.muli arg0 c512_i32
  let v24 : BitVec 32 := v23
  let v33 : Index := Scalar.indexCast v24
  let c0_12 : Index := 0#32
  ![v33.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8192x640 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  bitsLt_bf16_f32 : FTy.bits .bf16 < FTy.bits .f32
  bcast_S_S8192x1 : S_.BroadcastsInDim S8192x1 (![] : Fin 0 → Fin S8192x1.rank)
  bcast_S_S8192x127 : S_.BroadcastsInDim S8192x127 (![] : Fin 0 → Fin S8192x127.rank)
  concatenates_S8192x512_S8192x1_S8192x127_S8192x640_d1 : Shape.Concatenates [S8192x512, S8192x1, S8192x127] S8192x640 1
  inb_S512x640_S512x640_0_0 : ∀ a, (![0, 0] : Fin 2 → Nat) a + S512x640.size a ≤ S512x640.size a
  h_S512x640 : 0 < S512x640.numel
  shapeCasts_S512x640_S512x640 : S512x640.ShapeCasts S512x640
  inb_S512x2048_S512x2048_0_0 : ∀ a, (![0, 0] : Fin 2 → Nat) a + S512x2048.size a ≤ S512x2048.size a
  h_S512x2048 : 0 < S512x2048.numel
  natLt_1_32 : 1 < 32
  h_S2048x640 : 0 < S2048x640.numel
  shapeCasts_S2048x640_S2048x640 : S2048x640.ShapeCasts S2048x640
  slices_S512x640_o0_0_S512x512 : S512x640.Slices ![0, 0] S512x512
  slices_S512x640_o0_512_S512x1 : S512x640.Slices ![0, 512] S512x1
  broadcasts_S512x1_S512x512 : S512x1.Broadcasts S512x512
  h_S512x512 : 0 < S512x512.numel
  shapeCasts_S512x512_S512x512 : S512x512.ShapeCasts S512x512
  inb_S512x512_S512x512_0_0 : ∀ a, (![0, 0] : Fin 2 → Nat) a + S512x512.size a ≤ S512x512.size a
  inb_S512_S512_0 : ∀ a, (![0] : Fin 1 → Nat) a + S512.size a ≤ S512.size a
  h_S512 : 0 < S512.numel
  shapeCasts_S512_S1x512 : S512.ShapeCasts S1x512
  broadcasts_S1x512_S512x512 : S1x512.Broadcasts S512x512
  inb_S1024x512_S512x512_0_0 : ∀ a, (![0, 0] : Fin 2 → Nat) a + S512x512.size a ≤ S1024x512.size a
  inb_S1024x512_S512x512_512_0 : ∀ a, (![512, 0] : Fin 2 → Nat) a + S512x512.size a ≤ S1024x512.size a
  dot_S512x2048_S2048x640_S512x640_1_0_0_1_n_n_wf : DotDims.WF S512x2048 S2048x640 S512x640 [1] [0] [0] [1] [] []
  dot_S512x512_S512x512_S512x512_1_0_0_1_n_n_wf : DotDims.WF S512x512 S512x512 S512x512 [1] [0] [0] [1] [] []
  hrank0 : 0 < grid0.rank
  k0_mult1_dvd : ∀ i : grid0.Coords, 2048 ∣ (k0_mult1 i).toNat
  k0_off1_inb : ∀ i : grid0.Coords, ∀ a, (k0_off1 i) a + S2048x640.size a ≤ S8192x640.size a
  k0_mult2_dvd : ∀ i : grid0.Coords, ∀ (k0_h2 : k0_cond2 i = 1#1), 512 ∣ (k0_mult2 i).toNat
  k0_off2_inb : ∀ i : grid0.Coords, ∀ (k0_h2 : k0_cond2 i = 1#1), ∀ a, (k0_off2 i) a + S512x512.size a ≤ S8192x640.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x8192.size a
  hwx0_0 : ∀ i : grid0.Coords, EltTy.bits .i32 = 32 ∨ (Rect.block (s := S8192x8192) S512x2048.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x640.size a ≤ S8192x640.size a
  hwx0_1 : ∀ i : grid0.Coords, EltTy.bits .bf16 = 32 ∨ (Rect.block (s := S8192x640) S8192x640.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S1024x512.size a
  hwx0_6 : ∀ i : grid0.Coords, EltTy.bits .f32 = 32 ∨ (Rect.block (s := S1024x512) S1024x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512.size a ≤ S512.size a
  hwx0_7 : ∀ i : grid0.Coords, EltTy.bits .f32 = 32 ∨ (Rect.block (s := S512) S512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S8192x512.size a
  hwx0_8 : ∀ i : grid0.Coords, EltTy.bits .f32 = 32 ∨ (Rect.block (s := S8192x512) S512x512.size (cc0_transform_8 i) (hinb0_8 i)).WholeWords (EltTy.packing .f32)

variable [Facts₀]

def dot_S512x2048_S2048x640_S512x640_1_0_0_1_n_n : DotDims S512x2048 S2048x640 S512x640 where
  lhsContracting := [1]
  rhsContracting := [0]
  lhsNonContracting := [0]
  rhsNonContracting := [1]
  lhsBatch := []
  rhsBatch := []
  wf := dot_S512x2048_S2048x640_S512x640_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg1) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S8192x640.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1024x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S512x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

class Facts : Prop extends Facts₀ where

variable [Facts]
-- ==== ReferenceIdeal.lean ====
abbrev S8192x512 : Shape := ⟨2, ![8192, 512]⟩
abbrev S8192x8192 : Shape := ⟨2, ![8192, 8192]⟩
abbrev S512x512 : Shape := ⟨2, ![512, 512]⟩
abbrev S512 : Shape := ⟨1, ![512]⟩
abbrev S1024x512 : Shape := ⟨2, ![1024, 512]⟩
abbrev S_ : Shape := ⟨0, ![]⟩
abbrev S8192 : Shape := ⟨1, ![8192]⟩
abbrev S8192x1 : Shape := ⟨2, ![8192, 1]⟩
abbrev S1x512 : Shape := ⟨2, ![1, 512]⟩
abbrev S8192x1024 : Shape := ⟨2, ![8192, 1024]⟩

abbrev nBuf : Space → Nat
  | .hbm => 37
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .i32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S1024x512, .f32⟩
  | .hbm, ⟨7, _⟩ => ⟨S512, .f32⟩
  | .hbm, ⟨8, _⟩ => ⟨S_, .i32⟩
  | .hbm, ⟨9, _⟩ => ⟨S8192x8192, .i32⟩
  | .hbm, ⟨10, _⟩ => ⟨S8192x8192, .i1⟩
  | .hbm, ⟨11, _⟩ => ⟨S8192x8192, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S8192x512, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S1x512, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S1x512, .f32⟩
  | .hbm, ⟨27, _⟩ => ⟨S8192x512, .f32⟩
  | .hbm, ⟨28, _⟩ => ⟨S8192x512, .f32⟩
  | .hbm, ⟨29, _⟩ => ⟨S8192x1024, .f32⟩
  | .hbm, ⟨30, _⟩ => ⟨S8192x512, .f32⟩
  | .hbm, ⟨31, _⟩ => ⟨S1x512, .f32⟩
  | .hbm, ⟨32, _⟩ => ⟨S8192x512, .f32⟩
  | .hbm, ⟨33, _⟩ => ⟨S8192x512, .f32⟩
  | .hbm, ⟨34, _⟩ => ⟨S_, .f32⟩
  | .hbm, ⟨35, _⟩ => ⟨S8192x512, .f32⟩
  | .hbm, ⟨36, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call0_cst : Ref sig .tc := ⟨.hbm, 34, rfl⟩
abbrev main_call0_v0 : Ref sig .tc := ⟨.hbm, 35, rfl⟩
abbrev main_v23 : Ref sig .tc := ⟨.hbm, 36, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  concatenates_S8192x512_S8192x512_S8192x1024_d1 : Shape.Concatenates [S8192x512, S8192x512] S8192x1024 1
  bcast_S_S8192x512 : S_.BroadcastsInDim S8192x512 (![] : Fin 0 → Fin S8192x512.rank)
  dot_S8192x8192_S8192x512_S8192x512_1_0_0_1_n_n_wf : DotDims.WF S8192x8192 S8192x512 S8192x512 [1] [0] [0] [1] [] []
  dot_S8192x512_S512x512_S8192x512_1_0_0_1_n_n_wf : DotDims.WF S8192x512 S512x512 S8192x512 [1] [0] [0] [1] [] []
  dot_S8192x1024_S1024x512_S8192x512_1_0_0_1_n_n_wf : DotDims.WF S8192x1024 S1024x512 S8192x512 [1] [0] [0] [1] [] []

variable [Facts₀]

def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf
def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def dot_S8192x1024_S1024x512_S8192x512_1_0_0_1_n_n : DotDims S8192x1024 S1024x512 S8192x512 where
  lhsContracting := [1]
  rhsContracting := [0]
  lhsNonContracting := [0]
  rhsNonContracting := [1]
  lhsBatch := []
  rhsBatch := []
  wf := dot_S8192x1024_S1024x512_S8192x512_1_0_0_1_n_n_wf

class Facts : Prop extends Facts₀ where

variable [Facts]
-- ==== Proof.K.Runs.lean ====
/-
  What the three runs of the fused GraphSAGE kernel share.  The program is: six host lines that build the
  augmented feature matrix [x | 1 | 0] (8192 x 640), then ONE pipelined call on a 16 x 4 grid.  At grid point
  (i, k) the body adds the product of the 512 x 2048 block (i, k) of the 0/1 neighbour mask with rows
  2048 k .. 2048 k + 2047 of the augmented matrix into a 512 x 640 accumulator it keeps between points, clearing the
  accumulator first when k = 0, and when k = 3 it normalises, applies the three linear layers and stores block i
  of the result.  Here: the contents every buffer has when the call is entered (the host lines applied to the
  launch memory), the arguments unchanged by those lines, each window's block at a point, the two conditions of the
  body in closed form over the 64 points (k = 0 iff t % 4 = 0, k = 3 iff t % 4 = 3), where the output window is
  idle, and the invariant of the call with the accumulator as a memref.
-/
import proofs.«170365_j773094114149_2_alg».proof.Proof.Gen.Kernel.Launch
import proofs.«170365_j773094114149_2_alg».proof.Proof.Gen.Kernel.Skeleton
import proofs.«170365_j773094114149_2_alg».proof.Proof.Gen.Kernel.Points
import Idealize.ShloMosaic.Lib.Pipeline.FrameBody
import Idealize.ShloMosaic.Lib.Ring
import Idealize.ShloMosaic.Lib.Tactic

-- membership in a rectangle of these extents recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the call -/

/-- Core `c`'s buffers when the call is entered: the six host lines applied to the launch memory. -/
abbrev entry (c : Dev nD) (b : Ref sig .tc) : Buf (Elt F) ((c : Thread nD τ).loc b) :=
  StableHlo.after hostOps0 (fun b => m (c, b)) b

/-- The host lines allocate nothing. -/
theorem hostOps0_fresh : (hostOps0 : List (HloOp τ sig (Elt F))).Forall fun op => op.fresh = ∅ := by
  simp only [List.Forall]; repeat' constructor

/-- @main is the host lines, then the call. -/
theorem hmain (𝒱₀ : Variants) : Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps0_fresh main_chain

/-- No host line before the call writes argument 0: the call finds it as launched. -/
theorem entry_arg0 (c : Dev nD) : entry m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host line before the call writes argument 1: the call finds it as launched. -/
theorem entry_arg1 (c : Dev nD) : entry m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host line before the call writes argument 2: the call finds it as launched. -/
theorem entry_arg2 (c : Dev nD) : entry m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host line before the call writes argument 3: the call finds it as launched. -/
theorem entry_arg3 (c : Dev nD) : entry m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host line before the call writes argument 4: the call finds it as launched. -/
theorem entry_arg4 (c : Dev nD) : entry m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host line before the call writes argument 5: the call finds it as launched. -/
theorem entry_arg5 (c : Dev nD) : entry m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host line before the call writes argument 6: the call finds it as launched. -/
theorem entry_arg6 (c : Dev nD) : entry m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host line before the call writes argument 7: the call finds it as launched. -/
theorem entry_arg7 (c : Dev nD) : entry m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))

/-! ## The windows' blocks -/

/-- Window `w`'s block at point `t`, read off its array as the call finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- An input window's current staging buffer holds its block at every point, whether the pipeline fetched it there or
    kept it from the point before (the seven resident operands are fetched once, at the first point), for any proof
    data over the entry contents whose body leaves the block in place.  One statement per window: a window's block
    type computes only at a literal window. -/
theorem before_in0_of {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem before_in1_of {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem before_in2_of {c : Dev nD} (dat : Dat τ (Elt F) Unit ℕ (UR sig nD τ) ℕ cfg0 c) (hA : dat.A 2 = entry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem before_in3_of {c : Dev nD} (dat : Dat τ (Elt F) Unit ℕ (UR sig nD τ) ℕ cfg0 c) (hA : dat.A 3 = entry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem before_in4_of {c : Dev nD} (dat : Dat τ (Elt F) Unit ℕ (UR sig nD τ) ℕ cfg0 c) (hA : dat.A 4 = entry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
theorem before_in5_of {c : Dev nD} (dat : Dat τ (Elt F) Unit ℕ (UR sig nD τ) ℕ cfg0 c) (hA : dat.A 5 = entry m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)
theorem before_in6_of {c : Dev nD} (dat : Dat τ (Elt F) Unit ℕ (UR sig nD τ) ℕ cfg0 c) (hA : dat.A 6 = entry m c (Pipeline.arrRef spec0 6))
    (hafter : ∀ t, dat.after 6 t = blockAt m c 6 t) (t : Fin cfg0.N) (d) : dat.before 6 t d = blockAt m c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)
theorem before_in7_of {c : Dev nD} (dat : Dat τ (Elt F) Unit ℕ (UR sig nD τ) ℕ cfg0 c) (hA : dat.A 7 = entry m c (Pipeline.arrRef spec0 7))
    (hafter : ∀ t, dat.after 7 t = blockAt m c 7 t) (t : Fin cfg0.N) (d) : dat.before 7 t d = blockAt m c 7 t :=
  (dat.before_in_eq_fetched 7 rfl (fun _ => rfl) (fun _ _ _ => rfl) (fun t => by rw [hafter]; unfold Dat.blockOf blockAt; rw [hA]; try rfl) t d).trans
    (by unfold Dat.fetched Dat.blockOf blockAt; rw [hA]; try rfl)

/-! ## The frame claim's post from the call's -/

/-- The arguments end as launched: `x` (argument 0) is staged by no window and is kept by the call; the other seven are
    arrays of input windows, which the pipeline only reads; and no host line writes an argument. -/
theorem frame_of (dats : (p : Fin 1) → (c : Dev nD) → Dat τ (Elt F) Unit ℕ (UR sig nD τ) ℕ (cfgs p) c)
    (hA : ∀ c w, (dats 0 c).A w = entry m c (Pipeline.arrRef spec0 w))
    (h : θ_run defs (onTc (τ := τ) (main (F := F))) (s₀ m ρ) (Pipeline.FramePost cfgs dats 0 (entry m))) :
    θ_run defs (onTc (τ := τ) (main (F := F))) ⟨m, fun _ => 0, ρ⟩ (fun r => ∀ c : Dev nD,
      r.2.mem ((c.tc : Thread nD τ).loc main_v4) = (dats 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1 8,
      ((h c).2 main_arg0 (Pipeline.mem_restRefs_of main_arg0 (by decide) (by decide))).trans (entry_arg0 m c),
      ((h c).1 0).trans (((dats 0 c).arrAt_in 0 rfl _).trans ((hA c 0).trans (entry_arg1 m c))),
      ((h c).1 2).trans (((dats 0 c).arrAt_in 2 rfl _).trans ((hA c 2).trans (entry_arg2 m c))),
      ((h c).1 3).trans (((dats 0 c).arrAt_in 3 rfl _).trans ((hA c 3).trans (entry_arg3 m c))),
      ((h c).1 4).trans (((dats 0 c).arrAt_in 4 rfl _).trans ((hA c 4).trans (entry_arg4 m c))),
      ((h c).1 5).trans (((dats 0 c).arrAt_in 5 rfl _).trans ((hA c 5).trans (entry_arg5 m c))),
      ((h c).1 6).trans (((dats 0 c).arrAt_in 6 rfl _).trans ((hA c 6).trans (entry_arg6 m c))),
      ((h c).1 7).trans (((dats 0 c).arrAt_in 7 rfl _).trans ((hA c 7).trans (entry_arg7 m c)))⟩) h

/-! ## The body's two conditions -/

/-- "k = 0": the accumulator is cleared (the first `scf.if`, its scalar chain over the grid coordinates). -/
abbrev isFirst (i : grid0.Coords) : Prop := (Scalar.cmpi .ne (Scalar.extui (Scalar.cmpi .eq (BitVec.ofNat 32 (i 1).val) 0#32)) 0#32) = 1#1
/-- It holds at the points t with t % 4 = 0. -/
theorem isFirst_iff : ∀ t : Fin cfg0.N, isFirst (grid0.coords t) ↔ t.val % 4 = 0 :=
  (by decide +kernel : ∀ t : Fin grid0.N, isFirst (grid0.coords t) ↔ t.val % 4 = 0)

/-- "k = 3": the epilogue runs and the output block is stored (the second `scf.if`). -/
abbrev isLast (i : grid0.Coords) : Prop := k0_cond2 i = 1#1
/-- It holds at the points t with t % 4 = 3. -/
theorem isLast_iff : ∀ t : Fin cfg0.N, isLast (grid0.coords t) ↔ t.val % 4 = 3 :=
  (by decide +kernel : ∀ t : Fin grid0.N, isLast (grid0.coords t) ↔ t.val % 4 = 3)

/-! ## Where the output window is idle -/

/-- Away from k = 3 the body stores nothing into the output window: the configuration calls it idle there, -/
theorem out_idle : ∀ t : Fin cfg0.N, ¬isLast (grid0.coords t) → cfg0.idle 8 (grid0.coords t) = true := by decide +kernel
/-- and the pipeline does not write its block back there. -/
theorem out_noFlush : ∀ t : Fin cfg0.N, ¬isLast (grid0.coords t) → (cfg0.win 8).flush t = false := by decide +kernel
/-- At k = 3 it is live. -/
theorem out_live : ∀ t : Fin cfg0.N, isLast (grid0.coords t) → cfg0.idle 8 (grid0.coords t) = false := by decide +kernel

/-! ## The memrefs the body is called with -/

/-- One staging buffer of the output window, through which its contents are stated (either would do). -/
abbrev outView : View sig .tc .vmem S512x512 .f32 := (Memref.whole cc0_stg8_0 : Memref sig .tc .vmem S512x512 .f32).view
abbrev ms0 (t : Fin cfg0.N) : Memref sig .tc .vmem S512x2048 .i32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8192x640 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1024x512 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S512 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S512x512 .f32 := win0_8.stage (cfg0.slots t 8)
abbrev hs8 (t : Fin cfg0.N) : (ms8 t).IsWhole := hstage0_8 ((cfg0.slots t 8).cast nbuf0_8)
/-- The accumulator: a whole scoped buffer of the kernel's own, passed beside the windows. -/
abbrev accM : Memref sig .tc .vmem S512x640 .f32 := Memref.whole cc0_scratch0
/-- The accumulator as a view: what it holds between points is stated through it. -/
abbrev accView : View sig .tc .vmem S512x640 .f32 := accM.view

/-- The call's invariant with the accumulator as a memref owned at some contents, and the generator register. -/
theorem inv_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.Kernel.Fr

end
-- ==== Proof.K.RunFirst.lean ====
/-
  The body's run at the points with k = 0: the accumulator, at whatever it held, is cleared and then receives the first partial product; nothing is stored into the output window.
-/
import proofs.«170365_j773094114149_2_alg».proof.Proof.K.Runs

-- membership in a rectangle of these extents recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large)
set_option maxHeartbeats 1000000 in
/-- The body at a point where k = 0, on whole staging memrefs holding the input blocks `x·`: it runs to its continuation with the inputs
    as they were, the accumulator holding the listed pieces (last store first), and the output window's buffer handed back untouched.
    The pieces are found by running the body's memory operations in order over its named payloads. -/
noncomputable def runFirst (c : Dev nD) (i : grid0.Coords) (arg2 : Memref sig .tc .vmem S512x2048 .i32) (harg2 : arg2.IsWhole) (arg3 : Memref sig .tc .vmem S8192x640 .bf16) (harg3 : arg3.IsWhole) (arg4 : Memref sig .tc .vmem S512x512 .f32) (harg4 : arg4.IsWhole) (arg5 : Memref sig .tc .vmem S512 .f32) (harg5 : arg5.IsWhole) (arg6 : Memref sig .tc .vmem S512x512 .f32) (harg6 : arg6.IsWhole) (arg7 : Memref sig .tc .vmem S512 .f32) (harg7 : arg7.IsWhole) (arg8 : Memref sig .tc .vmem S1024x512 .f32) (harg8 : arg8.IsWhole) (arg9 : Memref sig .tc .vmem S512 .f32) (harg9 : arg9.IsWhole) (arg10 : Memref sig .tc .vmem S512x512 .f32) (harg10 : arg10.IsWhole) (arg11 : Memref sig .tc .vmem S512x640 .f32) (harg11 : arg11.IsWhole) (hc0 : isFirst i) (hc1 : ¬isLast i)
    (x0 : Vec F S512x2048 .i32) (x1 : Vec F S8192x640 .bf16) (x2 : Vec F S512x512 .f32) (x3 : Vec F S512 .f32) (x4 : Vec F S512x512 .f32) (x5 : Vec F S512 .f32) (x6 : Vec F S1024x512 .f32) (x7 : Vec F S512 .f32) :
    Σ' (L8 : List (View.Piece (Elt F) S512x512 .f32)), { LS : List (View.Piece (Elt F) S512x640 .f32) //
      ∀ (xi8 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ f, arg11.view.loc (c : Thread nD τ) ↦[arg11.view.set]{fullShare} arg11.view.writes (Elt F) f LS)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11) K } := by
  refine ⟨[], ?_, fun xi8 E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HS

end Cert.Kernel.Fr

end
-- ==== Proof.K.RunMid.lean ====
/-
  The body's run at the points with 0 < k < 3: the accumulator, at what the point before left, receives one more partial product; nothing is stored into the output window.
-/
import proofs.«170365_j773094114149_2_alg».proof.Proof.K.RunFirst

-- membership in a rectangle of these extents recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large)
set_option maxHeartbeats 1000000 in
/-- The body at a point where 0 < k < 3, on whole staging memrefs holding the input blocks `x·`: it runs to its continuation with the inputs
    as they were, the accumulator holding the listed pieces (last store first), and the output window's buffer handed back untouched.
    The pieces are found by running the body's memory operations in order over its named payloads. -/
noncomputable def runMid (c : Dev nD) (i : grid0.Coords) (arg2 : Memref sig .tc .vmem S512x2048 .i32) (harg2 : arg2.IsWhole) (arg3 : Memref sig .tc .vmem S8192x640 .bf16) (harg3 : arg3.IsWhole) (arg4 : Memref sig .tc .vmem S512x512 .f32) (harg4 : arg4.IsWhole) (arg5 : Memref sig .tc .vmem S512 .f32) (harg5 : arg5.IsWhole) (arg6 : Memref sig .tc .vmem S512x512 .f32) (harg6 : arg6.IsWhole) (arg7 : Memref sig .tc .vmem S512 .f32) (harg7 : arg7.IsWhole) (arg8 : Memref sig .tc .vmem S1024x512 .f32) (harg8 : arg8.IsWhole) (arg9 : Memref sig .tc .vmem S512 .f32) (harg9 : arg9.IsWhole) (arg10 : Memref sig .tc .vmem S512x512 .f32) (harg10 : arg10.IsWhole) (arg11 : Memref sig .tc .vmem S512x640 .f32) (harg11 : arg11.IsWhole) (hc0 : ¬isFirst i) (hc1 : ¬isLast i)
    (x0 : Vec F S512x2048 .i32) (x1 : Vec F S8192x640 .bf16) (x2 : Vec F S512x512 .f32) (x3 : Vec F S512 .f32) (x4 : Vec F S512x512 .f32) (x5 : Vec F S512 .f32) (x6 : Vec F S1024x512 .f32) (x7 : Vec F S512 .f32) (xs : Vec F S512x640 .f32) :
    Σ' (L8 : List (View.Piece (Elt F) S512x512 .f32)), { LS : List (View.Piece (Elt F) S512x640 .f32) //
      ∀ (xi8 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ f, arg11.view.loc (c : Thread nD τ) ↦[arg11.view.set]{fullShare} arg11.view.writes (Elt F) f LS)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11) K } := by
  refine ⟨[], ?_, fun xi8 E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HS

end Cert.Kernel.Fr

end
-- ==== Proof.K.RunLast.lean ====
/-
  The body's run at the points with k = 3: the accumulator receives the last partial product, is read back, normalised by the degree column and pushed through the three linear layers, and the result block is stored into the output window.
-/
import proofs.«170365_j773094114149_2_alg».proof.Proof.K.RunMid

-- membership in a rectangle of these extents recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large)
set_option maxHeartbeats 1000000 in
/-- The body at a point where k = 3, on whole staging memrefs holding the input blocks `x·`: it runs to its continuation with the inputs
    as they were, the accumulator holding the listed pieces (last store first), and the output window's buffer holding its one stored piece.
    The pieces are found by running the body's memory operations in order over its named payloads. -/
noncomputable def runLast (c : Dev nD) (i : grid0.Coords) (arg2 : Memref sig .tc .vmem S512x2048 .i32) (harg2 : arg2.IsWhole) (arg3 : Memref sig .tc .vmem S8192x640 .bf16) (harg3 : arg3.IsWhole) (arg4 : Memref sig .tc .vmem S512x512 .f32) (harg4 : arg4.IsWhole) (arg5 : Memref sig .tc .vmem S512 .f32) (harg5 : arg5.IsWhole) (arg6 : Memref sig .tc .vmem S512x512 .f32) (harg6 : arg6.IsWhole) (arg7 : Memref sig .tc .vmem S512 .f32) (harg7 : arg7.IsWhole) (arg8 : Memref sig .tc .vmem S1024x512 .f32) (harg8 : arg8.IsWhole) (arg9 : Memref sig .tc .vmem S512 .f32) (harg9 : arg9.IsWhole) (arg10 : Memref sig .tc .vmem S512x512 .f32) (harg10 : arg10.IsWhole) (arg11 : Memref sig .tc .vmem S512x640 .f32) (harg11 : arg11.IsWhole) (hc0 : ¬isFirst i) (hc1 : isLast i)
    (x0 : Vec F S512x2048 .i32) (x1 : Vec F S8192x640 .bf16) (x2 : Vec F S512x512 .f32) (x3 : Vec F S512 .f32) (x4 : Vec F S512x512 .f32) (x5 : Vec F S512 .f32) (x6 : Vec F S1024x512 .f32) (x7 : Vec F S512 .f32) (xs : Vec F S512x640 .f32) :
    Σ' (L8 : List (View.Piece (Elt F) S512x512 .f32)), { LS : List (View.Piece (Elt F) S512x640 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    iexists _; iexact HS

end Cert.Kernel.Fr

end
-- ==== Proof.K.Frame.lean ====
/-
  The pipelined call as a whole.  Per case of the body (k = 0, 0 < k < 3, k = 3): the pieces its stores leave in the
  accumulator tile it, so the accumulator's contents after the point are those pieces read back; at k = 3 the one
  stored piece tiles the output block likewise.  Point by point: what the accumulator holds after point t, by recursion
  on t (a point with k = 0 starts afresh; any other point continues from what the point before left), and what the
  output window's buffer holds (written at k = 3 only).  With these as the proof data the body meets its obligation at
  every point, and the launch theorem for one pipelined call after a stretch of host lines gives the run: every weakly
  fair execution of @main terminates, the result array ends as the blocks written back, every argument as launched.
-/
import proofs.«170365_j773094114149_2_alg».proof.Proof.K.RunLast

-- membership in a rectangle of these extents recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- Nothing is stored into the output window away from k = 3; the proof data still names a value there, which nothing reads. -/
def idleOut : Vec F S512x512 .f32 := outView.read (Elt F) outView.junk

theorem accCover_first (c : Dev nD) (i : grid0.Coords) (arg2 : Memref sig .tc .vmem S512x2048 .i32) (harg2 : arg2.IsWhole) (arg3 : Memref sig .tc .vmem S8192x640 .bf16) (harg3 : arg3.IsWhole) (arg4 : Memref sig .tc .vmem S512x512 .f32) (harg4 : arg4.IsWhole) (arg5 : Memref sig .tc .vmem S512 .f32) (harg5 : arg5.IsWhole) (arg6 : Memref sig .tc .vmem S512x512 .f32) (harg6 : arg6.IsWhole) (arg7 : Memref sig .tc .vmem S512 .f32) (harg7 : arg7.IsWhole) (arg8 : Memref sig .tc .vmem S1024x512 .f32) (harg8 : arg8.IsWhole) (arg9 : Memref sig .tc .vmem S512 .f32) (harg9 : arg9.IsWhole) (arg10 : Memref sig .tc .vmem S512x512 .f32) (harg10 : arg10.IsWhole) (arg11 : Memref sig .tc .vmem S512x640 .f32) (harg11 : arg11.IsWhole) (hc0 : isFirst i) (hc1 : ¬isLast i) (x0 : Vec F S512x2048 .i32) (x1 : Vec F S8192x640 .bf16) (x2 : Vec F S512x512 .f32) (x3 : Vec F S512 .f32) (x4 : Vec F S512x512 .f32) (x5 : Vec F S512 .f32) (x6 : Vec F S1024x512 .f32) (x7 : Vec F S512 .f32) (y : S512x640.Idx) :
    ∃ pc ∈ (runFirst c i arg2 harg2 arg3 harg3 arg4 harg4 arg5 harg5 arg6 harg6 arg7 harg7 arg8 harg8 arg9 harg9 arg10 harg10 arg11 harg11 hc0 hc1 x0 x1 x2 x3 x4 x5 x6 x7).2.1, y ∈ pc.1.set :=
  View.cover_of_tiledL (runFirst c i arg2 harg2 arg3 harg3 arg4 harg4 arg5 harg5 arg6 harg6 arg7 harg7 arg8 harg8 arg9 harg9 arg10 harg10 arg11 harg11 hc0 hc1 x0 x1 x2 x3 x4 x5 x6 x7).2.1 S512x640.size (by sl_kernel_rfl) y

/-- The accumulator after a point with k = 0. -/
def accAfter_first (c : Dev nD) (i : grid0.Coords) (arg2 : Memref sig .tc .vmem S512x2048 .i32) (harg2 : arg2.IsWhole) (arg3 : Memref sig .tc .vmem S8192x640 .bf16) (harg3 : arg3.IsWhole) (arg4 : Memref sig .tc .vmem S512x512 .f32) (harg4 : arg4.IsWhole) (arg5 : Memref sig .tc .vmem S512 .f32) (harg5 : arg5.IsWhole) (arg6 : Memref sig .tc .vmem S512x512 .f32) (harg6 : arg6.IsWhole) (arg7 : Memref sig .tc .vmem S512 .f32) (harg7 : arg7.IsWhole) (arg8 : Memref sig .tc .vmem S1024x512 .f32) (harg8 : arg8.IsWhole) (arg9 : Memref sig .tc .vmem S512 .f32) (harg9 : arg9.IsWhole) (arg10 : Memref sig .tc .vmem S512x512 .f32) (harg10 : arg10.IsWhole) (arg11 : Memref sig .tc .vmem S512x640 .f32) (harg11 : arg11.IsWhole) (hc0 : isFirst i) (hc1 : ¬isLast i) (x0 : Vec F S512x2048 .i32) (x1 : Vec F S8192x640 .bf16) (x2 : Vec F S512x512 .f32) (x3 : Vec F S512 .f32) (x4 : Vec F S512x512 .f32) (x5 : Vec F S512 .f32) (x6 : Vec F S1024x512 .f32) (x7 : Vec F S512 .f32) : Vec F S512x640 .f32 :=
  accView.read (Elt F) (accView.writes (Elt F) accView.junk (runFirst c i arg2 harg2 arg3 harg3 arg4 harg4 arg5 harg5 arg6 harg6 arg7 harg7 arg8 harg8 arg9 harg9 arg10 harg10 arg11 harg11 hc0 hc1 x0 x1 x2 x3 x4 x5 x6 x7).2.1)

theorem accCover_mid (c : Dev nD) (i : grid0.Coords) (arg2 : Memref sig .tc .vmem S512x2048 .i32) (harg2 : arg2.IsWhole) (arg3 : Memref sig .tc .vmem S8192x640 .bf16) (harg3 : arg3.IsWhole) (arg4 : Memref sig .tc .vmem S512x512 .f32) (harg4 : arg4.IsWhole) (arg5 : Memref sig .tc .vmem S512 .f32) (harg5 : arg5.IsWhole) (arg6 : Memref sig .tc .vmem S512x512 .f32) (harg6 : arg6.IsWhole) (arg7 : Memref sig .tc .vmem S512 .f32) (harg7 : arg7.IsWhole) (arg8 : Memref sig .tc .vmem S1024x512 .f32) (harg8 : arg8.IsWhole) (arg9 : Memref sig .tc .vmem S512 .f32) (harg9 : arg9.IsWhole) (arg10 : Memref sig .tc .vmem S512x512 .f32) (harg10 : arg10.IsWhole) (arg11 : Memref sig .tc .vmem S512x640 .f32) (harg11 : arg11.IsWhole) (hc0 : ¬isFirst i) (hc1 : ¬isLast i) (x0 : Vec F S512x2048 .i32) (x1 : Vec F S8192x640 .bf16) (x2 : Vec F S512x512 .f32) (x3 : Vec F S512 .f32) (x4 : Vec F S512x512 .f32) (x5 : Vec F S512 .f32) (x6 : Vec F S1024x512 .f32) (x7 : Vec F S512 .f32) (xs : Vec F S512x640 .f32) (y : S512x640.Idx) :
    ∃ pc ∈ (runMid c i arg2 harg2 arg3 harg3 arg4 harg4 arg5 harg5 arg6 harg6 arg7 harg7 arg8 harg8 arg9 harg9 arg10 harg10 arg11 harg11 hc0 hc1 x0 x1 x2 x3 x4 x5 x6 x7 xs).2.1, y ∈ pc.1.set :=
  View.cover_of_tiledL (runMid c i arg2 harg2 arg3 harg3 arg4 harg4 arg5 harg5 arg6 harg6 arg7 harg7 arg8 harg8 arg9 harg9 arg10 harg10 arg11 harg11 hc0 hc1 x0 x1 x2 x3 x4 x5 x6 x7 xs).2.1 S512x640.size (by sl_kernel_rfl) y

/-- The accumulator after a point with 0 < k < 3, from what the point before left (`xs`). -/
def accAfter_mid (c : Dev nD) (i : grid0.Coords) (arg2 : Memref sig .tc .vmem S512x2048 .i32) (harg2 : arg2.IsWhole) (arg3 : Memref sig .tc .vmem S8192x640 .bf16) (harg3 : arg3.IsWhole) (arg4 : Memref sig .tc .vmem S512x512 .f32) (harg4 : arg4.IsWhole) (arg5 : Memref sig .tc .vmem S512 .f32) (harg5 : arg5.IsWhole) (arg6 : Memref sig .tc .vmem S512x512 .f32) (harg6 : arg6.IsWhole) (arg7 : Memref sig .tc .vmem S512 .f32) (harg7 : arg7.IsWhole) (arg8 : Memref sig .tc .vmem S1024x512 .f32) (harg8 : arg8.IsWhole) (arg9 : Memref sig .tc .vmem S512 .f32) (harg9 : arg9.IsWhole) (arg10 : Memref sig .tc .vmem S512x512 .f32) (harg10 : arg10.IsWhole) (arg11 : Memref sig .tc .vmem S512x640 .f32) (harg11 : arg11.IsWhole) (hc0 : ¬isFirst i) (hc1 : ¬isLast i) (x0 : Vec F S512x2048 .i32) (x1 : Vec F S8192x640 .bf16) (x2 : Vec F S512x512 .f32) (x3 : Vec F S512 .f32) (x4 : Vec F S512x512 .f32) (x5 : Vec F S512 .f32) (x6 : Vec F S1024x512 .f32) (x7 : Vec F S512 .f32) (xs : Vec F S512x640 .f32) : Vec F S512x640 .f32 :=
  accView.read (Elt F) (accView.writes (Elt F) accView.junk (runMid c i arg2 harg2 arg3 harg3 arg4 harg4 arg5 harg5 arg6 harg6 arg7 harg7 arg8 harg8 arg9 harg9 arg10 harg10 arg11 harg11 hc0 hc1 x0 x1 x2 x3 x4 x5 x6 x7 xs).2.1)

theorem accCover_last (c : Dev nD) (i : grid0.Coords) (arg2 : Memref sig .tc .vmem S512x2048 .i32) (harg2 : arg2.IsWhole) (arg3 : Memref sig .tc .vmem S8192x640 .bf16) (harg3 : arg3.IsWhole) (arg4 : Memref sig .tc .vmem S512x512 .f32) (harg4 : arg4.IsWhole) (arg5 : Memref sig .tc .vmem S512 .f32) (harg5 : arg5.IsWhole) (arg6 : Memref sig .tc .vmem S512x512 .f32) (harg6 : arg6.IsWhole) (arg7 : Memref sig .tc .vmem S512 .f32) (harg7 : arg7.IsWhole) (arg8 : Memref sig .tc .vmem S1024x512 .f32) (harg8 : arg8.IsWhole) (arg9 : Memref sig .tc .vmem S512 .f32) (harg9 : arg9.IsWhole) (arg10 : Memref sig .tc .vmem S512x512 .f32) (harg10 : arg10.IsWhole) (arg11 : Memref sig .tc .vmem S512x640 .f32) (harg11 : arg11.IsWhole) (hc0 : ¬isFirst i) (hc1 : isLast i) (x0 : Vec F S512x2048 .i32) (x1 : Vec F S8192x640 .bf16) (x2 : Vec F S512x512 .f32) (x3 : Vec F S512 .f32) (x4 : Vec F S512x512 .f32) (x5 : Vec F S512 .f32) (x6 : Vec F S1024x512 .f32) (x7 : Vec F S512 .f32) (xs : Vec F S512x640 .f32) (y : S512x640.Idx) :
    ∃ pc ∈ (runLast c i arg2 harg2 arg3 harg3 arg4 harg4 arg5 harg5 arg6 harg6 arg7 harg7 arg8 harg8 arg9 harg9 arg10 harg10 arg11 harg11 hc0 hc1 x0 x1 x2 x3 x4 x5 x6 x7 xs).2.1, y ∈ pc.1.set :=
  View.cover_of_tiledL (runLast c i arg2 harg2 arg3 harg3 arg4 harg4 arg5 harg5 arg6 harg6 arg7 harg7 arg8 harg8 arg9 harg9 arg10 harg10 arg11 harg11 hc0 hc1 x0 x1 x2 x3 x4 x5 x6 x7 xs).2.1 S512x640.size (by sl_kernel_rfl) y

/-- The accumulator after a point with k = 3. -/
def accAfter_last (c : Dev nD) (i : grid0.Coords) (arg2 : Memref sig .tc .vmem S512x2048 .i32) (harg2 : arg2.IsWhole) (arg3 : Memref sig .tc .vmem S8192x640 .bf16) (harg3 : arg3.IsWhole) (arg4 : Memref sig .tc .vmem S512x512 .f32) (harg4 : arg4.IsWhole) (arg5 : Memref sig .tc .vmem S512 .f32) (harg5 : arg5.IsWhole) (arg6 : Memref sig .tc .vmem S512x512 .f32) (harg6 : arg6.IsWhole) (arg7 : Memref sig .tc .vmem S512 .f32) (harg7 : arg7.IsWhole) (arg8 : Memref sig .tc .vmem S1024x512 .f32) (harg8 : arg8.IsWhole) (arg9 : Memref sig .tc .vmem S512 .f32) (harg9 : arg9.IsWhole) (arg10 : Memref sig .tc .vmem S512x512 .f32) (harg10 : arg10.IsWhole) (arg11 : Memref sig .tc .vmem S512x640 .f32) (harg11 : arg11.IsWhole) (hc0 : ¬isFirst i) (hc1 : isLast i) (x0 : Vec F S512x2048 .i32) (x1 : Vec F S8192x640 .bf16) (x2 : Vec F S512x512 .f32) (x3 : Vec F S512 .f32) (x4 : Vec F S512x512 .f32) (x5 : Vec F S512 .f32) (x6 : Vec F S1024x512 .f32) (x7 : Vec F S512 .f32) (xs : Vec F S512x640 .f32) : Vec F S512x640 .f32 :=
  accView.read (Elt F) (accView.writes (Elt F) accView.junk (runLast c i arg2 harg2 arg3 harg3 arg4 harg4 arg5 harg5 arg6 harg6 arg7 harg7 arg8 harg8 arg9 harg9 arg10 harg10 arg11 harg11 hc0 hc1 x0 x1 x2 x3 x4 x5 x6 x7 xs).2.1)

theorem outCover_last (c : Dev nD) (i : grid0.Coords) (arg2 : Memref sig .tc .vmem S512x2048 .i32) (harg2 : arg2.IsWhole) (arg3 : Memref sig .tc .vmem S8192x640 .bf16) (harg3 : arg3.IsWhole) (arg4 : Memref sig .tc .vmem S512x512 .f32) (harg4 : arg4.IsWhole) (arg5 : Memref sig .tc .vmem S512 .f32) (harg5 : arg5.IsWhole) (arg6 : Memref sig .tc .vmem S512x512 .f32) (harg6 : arg6.IsWhole) (arg7 : Memref sig .tc .vmem S512 .f32) (harg7 : arg7.IsWhole) (arg8 : Memref sig .tc .vmem S1024x512 .f32) (harg8 : arg8.IsWhole) (arg9 : Memref sig .tc .vmem S512 .f32) (harg9 : arg9.IsWhole) (arg10 : Memref sig .tc .vmem S512x512 .f32) (harg10 : arg10.IsWhole) (arg11 : Memref sig .tc .vmem S512x640 .f32) (harg11 : arg11.IsWhole) (hc0 : ¬isFirst i) (hc1 : isLast i) (x0 : Vec F S512x2048 .i32) (x1 : Vec F S8192x640 .bf16) (x2 : Vec F S512x512 .f32) (x3 : Vec F S512 .f32) (x4 : Vec F S512x512 .f32) (x5 : Vec F S512 .f32) (x6 : Vec F S1024x512 .f32) (x7 : Vec F S512 .f32) (xs : Vec F S512x640 .f32) (y : S512x512.Idx) :
    ∃ pc ∈ (runLast c i arg2 harg2 arg3 harg3 arg4 harg4 arg5 harg5 arg6 harg6 arg7 harg7 arg8 harg8 arg9 harg9 arg10 harg10 arg11 harg11 hc0 hc1 x0 x1 x2 x3 x4 x5 x6 x7 xs).1, y ∈ pc.1.set :=
  View.cover_of_tiledL (runLast c i arg2 harg2 arg3 harg3 arg4 harg4 arg5 harg5 arg6 harg6 arg7 harg7 arg8 harg8 arg9 harg9 arg10 harg10 arg11 harg11 hc0 hc1 x0 x1 x2 x3 x4 x5 x6 x7 xs).1 S512x512.size (by sl_kernel_rfl) y

/-- The output window's buffer after a point with k = 3. -/
def outAfter_last (c : Dev nD) (i : grid0.Coords) (arg2 : Memref sig .tc .vmem S512x2048 .i32) (harg2 : arg2.IsWhole) (arg3 : Memref sig .tc .vmem S8192x640 .bf16) (harg3 : arg3.IsWhole) (arg4 : Memref sig .tc .vmem S512x512 .f32) (harg4 : arg4.IsWhole) (arg5 : Memref sig .tc .vmem S512 .f32) (harg5 : arg5.IsWhole) (arg6 : Memref sig .tc .vmem S512x512 .f32) (harg6 : arg6.IsWhole) (arg7 : Memref sig .tc .vmem S512 .f32) (harg7 : arg7.IsWhole) (arg8 : Memref sig .tc .vmem S1024x512 .f32) (harg8 : arg8.IsWhole) (arg9 : Memref sig .tc .vmem S512 .f32) (harg9 : arg9.IsWhole) (arg10 : Memref sig .tc .vmem S512x512 .f32) (harg10 : arg10.IsWhole) (arg11 : Memref sig .tc .vmem S512x640 .f32) (harg11 : arg11.IsWhole) (hc0 : ¬isFirst i) (hc1 : isLast i) (x0 : Vec F S512x2048 .i32) (x1 : Vec F S8192x640 .bf16) (x2 : Vec F S512x512 .f32) (x3 : Vec F S512 .f32) (x4 : Vec F S512x512 .f32) (x5 : Vec F S512 .f32) (x6 : Vec F S1024x512 .f32) (x7 : Vec F S512 .f32) (xs : Vec F S512x640 .f32) : Vec F S512x512 .f32 :=
  outView.read (Elt F) (outView.writes (Elt F) outView.junk (runLast c i arg2 harg2 arg3 harg3 arg4 harg4 arg5 harg5 arg6 harg6 arg7 harg7 arg8 harg8 arg9 harg9 arg10 harg10 arg11 harg11 hc0 hc1 x0 x1 x2 x3 x4 x5 x6 x7 xs).1)

/-! ## Point by point -/

/-- What the output window's buffer and the accumulator hold after the body at position `n`. -/
def outsAt (c : Dev nD) : (n : ℕ) → n < cfg0.N → Vec F S512x512 .f32 × Vec F S512x640 .f32
  | 0, hn => (idleOut, accAfter_first c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) accM (Memref.isWhole_whole _) ((isFirst_iff ⟨0, hn⟩).mpr (Nat.zero_mod _)) (fun h => (fun h => by (try dsimp only at h); omega) ((isLast_iff ⟨0, hn⟩).mp h)) (blockAt m c 0 ⟨0, hn⟩) (blockAt m c 1 ⟨0, hn⟩) (blockAt m c 2 ⟨0, hn⟩) (blockAt m c 3 ⟨0, hn⟩) (blockAt m c 4 ⟨0, hn⟩) (blockAt m c 5 ⟨0, hn⟩) (blockAt m c 6 ⟨0, hn⟩) (blockAt m c 7 ⟨0, hn⟩))
  | n + 1, hn =>
    if h0 : (n + 1) % 4 = 0 then
      (idleOut, accAfter_first c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) accM (Memref.isWhole_whole _) ((isFirst_iff ⟨n + 1, hn⟩).mpr h0) (fun h => (fun h => by (try dsimp only at h); omega) ((isLast_iff ⟨n + 1, hn⟩).mp h)) (blockAt m c 0 ⟨n + 1, hn⟩) (blockAt m c 1 ⟨n + 1, hn⟩) (blockAt m c 2 ⟨n + 1, hn⟩) (blockAt m c 3 ⟨n + 1, hn⟩) (blockAt m c 4 ⟨n + 1, hn⟩) (blockAt m c 5 ⟨n + 1, hn⟩) (blockAt m c 6 ⟨n + 1, hn⟩) (blockAt m c 7 ⟨n + 1, hn⟩))
    else
      if h1 : (n + 1) % 4 = 3 then
        (outAfter_last c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) accM (Memref.isWhole_whole _) (fun h => h0 ((isFirst_iff ⟨n + 1, hn⟩).mp h)) ((isLast_iff ⟨n + 1, hn⟩).mpr h1) (blockAt m c 0 ⟨n + 1, hn⟩) (blockAt m c 1 ⟨n + 1, hn⟩) (blockAt m c 2 ⟨n + 1, hn⟩) (blockAt m c 3 ⟨n + 1, hn⟩) (blockAt m c 4 ⟨n + 1, hn⟩) (blockAt m c 5 ⟨n + 1, hn⟩) (blockAt m c 6 ⟨n + 1, hn⟩) (blockAt m c 7 ⟨n + 1, hn⟩) (outsAt c n (Nat.lt_of_succ_lt hn)).2,
         accAfter_last c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) accM (Memref.isWhole_whole _) (fun h => h0 ((isFirst_iff ⟨n + 1, hn⟩).mp h)) ((isLast_iff ⟨n + 1, hn⟩).mpr h1) (blockAt m c 0 ⟨n + 1, hn⟩) (blockAt m c 1 ⟨n + 1, hn⟩) (blockAt m c 2 ⟨n + 1, hn⟩) (blockAt m c 3 ⟨n + 1, hn⟩) (blockAt m c 4 ⟨n + 1, hn⟩) (blockAt m c 5 ⟨n + 1, hn⟩) (blockAt m c 6 ⟨n + 1, hn⟩) (blockAt m c 7 ⟨n + 1, hn⟩) (outsAt c n (Nat.lt_of_succ_lt hn)).2)
      else
        (idleOut, accAfter_mid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) accM (Memref.isWhole_whole _) (fun h => h0 ((isFirst_iff ⟨n + 1, hn⟩).mp h)) (fun h => h1 ((isLast_iff ⟨n + 1, hn⟩).mp h)) (blockAt m c 0 ⟨n + 1, hn⟩) (blockAt m c 1 ⟨n + 1, hn⟩) (blockAt m c 2 ⟨n + 1, hn⟩) (blockAt m c 3 ⟨n + 1, hn⟩) (blockAt m c 4 ⟨n + 1, hn⟩) (blockAt m c 5 ⟨n + 1, hn⟩) (blockAt m c 6 ⟨n + 1, hn⟩) (blockAt m c 7 ⟨n + 1, hn⟩) (outsAt c n (Nat.lt_of_succ_lt hn)).2)

/-- At a point with k = 0. -/
theorem outsAt_first (c : Dev nD) (t : Fin cfg0.N) (h0 : t.val % 4 = 0) (h1 : ¬t.val % 4 = 3) :
    outsAt m c t.val t.isLt = (idleOut, accAfter_first c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) accM (Memref.isWhole_whole _) ((isFirst_iff t).mpr h0) (fun h => h1 ((isLast_iff t).mp h)) (blockAt m c 0 t) (blockAt m c 1 t) (blockAt m c 2 t) (blockAt m c 3 t) (blockAt m c 4 t) (blockAt m c 5 t) (blockAt m c 6 t) (blockAt m c 7 t)) := by
  obtain ⟨n, hn⟩ := t
  cases n with
  | zero => exact rfl
  | succ n => exact (dif_pos h0).trans rfl

/-- At a point with 0 < k < 3: over what the point before left. -/
theorem outsAt_mid (c : Dev nD) (t : Fin cfg0.N) (h0 : ¬t.val % 4 = 0) (h1 : ¬t.val % 4 = 3) :
    outsAt m c t.val t.isLt = (idleOut, accAfter_mid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) accM (Memref.isWhole_whole _) (fun h => h0 ((isFirst_iff t).mp h)) (fun h => h1 ((isLast_iff t).mp h)) (blockAt m c 0 t) (blockAt m c 1 t) (blockAt m c 2 t) (blockAt m c 3 t) (blockAt m c 4 t) (blockAt m c 5 t) (blockAt m c 6 t) (blockAt m c 7 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point with k = 3: over what the point before left. -/
theorem outsAt_last (c : Dev nD) (t : Fin cfg0.N) (h0 : ¬t.val % 4 = 0) (h1 : t.val % 4 = 3) :
    outsAt m c t.val t.isLt = (outAfter_last c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) accM (Memref.isWhole_whole _) (fun h => h0 ((isFirst_iff t).mp h)) ((isLast_iff t).mpr h1) (blockAt m c 0 t) (blockAt m c 1 t) (blockAt m c 2 t) (blockAt m c 3 t) (blockAt m c 4 t) (blockAt m c 5 t) (blockAt m c 6 t) (blockAt m c 7 t) (outsAt m c (t.val - 1) (Nat.lt_of_le_of_lt (Nat.sub_le _ _) t.isLt)).2,
      accAfter_last c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) accM (Memref.isWhole_whole _) (fun h => h0 ((isFirst_iff t).mp h)) ((isLast_iff t).mpr h1) (blockAt m c 0 t) (blockAt m c 1 t) (blockAt m c 2 t) (blockAt m c 3 t) (blockAt m c 4 t) (blockAt m c 5 t) (blockAt m c 6 t) (blockAt m c 7 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The call's invariant before position `n`: before the first point the accumulator holds anything; afterwards what the
    point before left in it. The generator register is at some state throughout. -/
def accInv (c : Dev nD) : (n : ℕ) → n ≤ cfg0.N → sProp 𝕄
  | 0, _ => Pipeline.ΦA spec0 c
  | n + 1, hn => iprop(iprop(owns (c : Thread nD τ) accM fullShare ((outsAt m c n hn).2)) ∗ (∃ r, prngReg c r))

theorem accInv_zero (c : Dev nD) (n : ℕ) (h : n ≤ cfg0.N) (hz : n = 0) : accInv m c n h = Pipeline.ΦA spec0 c := by
  subst hz; rfl

theorem accInv_succ (c : Dev nD) (n : ℕ) (hn : n < cfg0.N) :
    accInv m c (n + 1) hn = iprop(iprop(owns (c : Thread nD τ) accM fullShare ((outsAt m c n hn).2)) ∗ (∃ r, prngReg c r)) := rfl

theorem accInv_pos (c : Dev nD) (n : ℕ) (h : n ≤ cfg0.N) (hz : n ≠ 0) :
    accInv m c n h = iprop(iprop(owns (c : Thread nD τ) accM fullShare ((outsAt m c (n - 1) (by omega)).2)) ∗ (∃ r, prngReg c r)) := by
  cases n with
  | zero => exact absurd rfl hz
  | succ n => rfl

/-! ## The proof data -/

/-- The arrays as the call finds them; after the body each input's buffer at its block, the output's at `outsAt`;
    the invariant `accInv`; nothing owed; full shares. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => blockAt m c 7 t
    | ⟨8, _⟩ => (outsAt m c t.val t.isLt).1
    | ⟨_ + 9, h⟩ => absurd h (Nat.not_lt.2 (Nat.le_add_left _ _))
  Φ t := accInv m c t.val (Nat.le_of_lt_succ t.isLt)
  q _ := fullShare
  owed _ := 0

theorem A_eq (c : Dev nD) (w : Fin cfg0.W) : (dats m 0 c).A w = entry m c (Pipeline.arrRef spec0 w) := by
  dsimp only [dats]

theorem inv_castSucc (c : Dev nD) (t : Fin cfg0.N) :
    (dats m 0 c).Φ t.castSucc = accInv m c t.val (Nat.le_of_lt t.isLt) := by
  dsimp only [dats]; simp only [Fin.coe_castSucc]

theorem after0 (c : Dev nD) (t : Fin cfg0.N) : (dats m 0 c).after 0 t = blockAt m c 0 t := by dsimp only [dats]
theorem after1 (c : Dev nD) (t : Fin cfg0.N) : (dats m 0 c).after 1 t = blockAt m c 1 t := by dsimp only [dats]
theorem after2 (c : Dev nD) (t : Fin cfg0.N) : (dats m 0 c).after 2 t = blockAt m c 2 t := by dsimp only [dats]
theorem after3 (c : Dev nD) (t : Fin cfg0.N) : (dats m 0 c).after 3 t = blockAt m c 3 t := by dsimp only [dats]
theorem after4 (c : Dev nD) (t : Fin cfg0.N) : (dats m 0 c).after 4 t = blockAt m c 4 t := by dsimp only [dats]
theorem after5 (c : Dev nD) (t : Fin cfg0.N) : (dats m 0 c).after 5 t = blockAt m c 5 t := by dsimp only [dats]
theorem after6 (c : Dev nD) (t : Fin cfg0.N) : (dats m 0 c).after 6 t = blockAt m c 6 t := by dsimp only [dats]
theorem after7 (c : Dev nD) (t : Fin cfg0.N) : (dats m 0 c).after 7 t = blockAt m c 7 t := by dsimp only [dats]
theorem after8 (c : Dev nD) (t : Fin cfg0.N) : (dats m 0 c).after 8 t = (outsAt m c t.val t.isLt).1 := by dsimp only [dats]

theorem before0 (c : Dev nD) (t : Fin cfg0.N) (d) : (dats m 0 c).before 0 t d = blockAt m c 0 t :=
  before_in0_of m (dats m 0 c) (A_eq m c 0) (after0 m c) t d
theorem before1 (c : Dev nD) (t : Fin cfg0.N) (d) : (dats m 0 c).before 1 t d = blockAt m c 1 t :=
  before_in1_of m (dats m 0 c) (A_eq m c 1) (after1 m c) t d
theorem before2 (c : Dev nD) (t : Fin cfg0.N) (d) : (dats m 0 c).before 2 t d = blockAt m c 2 t :=
  before_in2_of m (dats m 0 c) (A_eq m c 2) (after2 m c) t d
theorem before3 (c : Dev nD) (t : Fin cfg0.N) (d) : (dats m 0 c).before 3 t d = blockAt m c 3 t :=
  before_in3_of m (dats m 0 c) (A_eq m c 3) (after3 m c) t d
theorem before4 (c : Dev nD) (t : Fin cfg0.N) (d) : (dats m 0 c).before 4 t d = blockAt m c 4 t :=
  before_in4_of m (dats m 0 c) (A_eq m c 4) (after4 m c) t d
theorem before5 (c : Dev nD) (t : Fin cfg0.N) (d) : (dats m 0 c).before 5 t d = blockAt m c 5 t :=
  before_in5_of m (dats m 0 c) (A_eq m c 5) (after5 m c) t d
theorem before6 (c : Dev nD) (t : Fin cfg0.N) (d) : (dats m 0 c).before 6 t d = blockAt m c 6 t :=
  before_in6_of m (dats m 0 c) (A_eq m c 6) (after6 m c) t d
theorem before7 (c : Dev nD) (t : Fin cfg0.N) (d) : (dats m 0 c).before 7 t d = blockAt m c 7 t :=
  before_in7_of m (dats m 0 c) (A_eq m c 7) (after7 m c) t d

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl
theorem live5 : ∀ t : Fin cfg0.N, cfg0.idle 5 (grid0.coords t) = false := fun _ => rfl
theorem live6 : ∀ t : Fin cfg0.N, cfg0.idle 6 (grid0.coords t) = false := fun _ => rfl
theorem live7 : ∀ t : Fin cfg0.N, cfg0.idle 7 (grid0.coords t) = false := fun _ => rfl

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 4800000 in
/-- The body at any point: the inputs' memrefs hold their blocks; the closed forms say which case the point is in; the
    invariant hands the body the accumulator at what the point before left (at anything before the first point) and takes
    it back at this point's contents; away from k = 3 the output window's buffer is handed back untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).owesAt () t.succ = (dats m 0 c).owesAt () t.castSucc from rfl]
  rw [show (dats m 0 c).Φ t.succ = accInv m c (t.val + 1) t.isLt from rfl, accInv_succ]
  have hN : t.val < 64 := lt_of_lt_of_eq t.isLt (show cfg0.N = 64 from N_0)
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  rw [show (dats m 0 c).leavesExact 6 t = owns (c : Thread nD τ) (ms6 t) fullShare ((dats m 0 c).after 6 t) from by
    unfold Dat.leavesExact; rw [live6 t], after6]
  rw [show (dats m 0 c).leavesExact 7 t = owns (c : Thread nD τ) (ms7 t) fullShare ((dats m 0 c).after 7 t) from by
    unfold Dat.leavesExact; rw [live7 t], after7]
  by_cases h0 : t.val % 4 = 0
  · have h1 : ¬t.val % 4 = 3 := by omega
    rw [Dat.leavesExact_idle (dats m 0 c) 8 t (out_idle t (fun h => h1 ((isLast_iff t).mp h))) (out_noFlush t (fun h => h1 ((isLast_iff t).mp h)))]
    rw [outsAt_first m c t h0 h1]
    unfold accAfter_first; (try dsimp only)
    by_cases hz : t.val = 0
    ·
        rw [inv_castSucc m c t, accInv_zero m c _ _ hz, inv_eq]
        iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((runFirst c (grid0.coords t) _ _ _ _ _ _ _ _ _ _ _ _ _ _ _ _ _ _ _ _ ((isFirst_iff t).mpr h0) (fun h => h1 ((isLast_iff t).mp h)) (blockAt m c 0 t) (blockAt m c 1 t) (blockAt m c 2 t) (blockAt m c 3 t) (blockAt m c 4 t) (blockAt m c 5 t) (blockAt m c 6 t) (blockAt m c 7 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS]; · iexact HS
        iintro ⟨H0, H1, H2, H3, H4, H5, H6, H7, H8, ⟨%es, HS⟩⟩
        isplitl [HS Hg]
        · isplitl [HS]
          · unfold owns; iexists _; isplitr
            swap; · iexact HS
            ipureintro; exact View.read_writes_of_cover _ _ _ _ _ (accCover_first c _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8
    ·
        rw [inv_castSucc m c t, accInv_pos m c _ _ hz]
        iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((runFirst c (grid0.coords t) _ _ _ _ _ _ _ _ _ _ _ _ _ _ _ _ _ _ _ _ ((isFirst_iff t).mpr h0) (fun h => h1 ((isLast_iff t).mp h)) (blockAt m c 0 t) (blockAt m c 1 t) (blockAt m c 2 t) (blockAt m c 3 t) (blockAt m c 4 t) (blockAt m c 5 t) (blockAt m c 6 t) (blockAt m c 7 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS]; · iexists _; iexact HS
        iintro ⟨H0, H1, H2, H3, H4, H5, H6, H7, H8, ⟨%es, HS⟩⟩
        isplitl [HS Hg]
        · isplitl [HS]
          · unfold owns; iexists _; isplitr
            swap; · iexact HS
            ipureintro; exact View.read_writes_of_cover _ _ _ _ _ (accCover_first c _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8
  · have hz : t.val ≠ 0 := fun e => h0 (by rw [e])
    by_cases h1 : t.val % 4 = 3
    · rw [show (dats m 0 c).leavesExact 8 t = owns (c : Thread nD τ) (ms8 t) fullShare ((dats m 0 c).after 8 t) from by
        unfold Dat.leavesExact; rw [out_live t ((isLast_iff t).mpr h1)], after8]
      rw [outsAt_last m c t h0 h1]
      unfold outAfter_last accAfter_last; (try dsimp only)
      ·
        rw [inv_castSucc m c t, accInv_pos m c _ _ hz]
        iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((runLast c (grid0.coords t) _ _ _ _ _ _ _ _ _ _ _ _ _ _ _ _ _ _ _ _ (fun h => h0 ((isFirst_iff t).mp h)) ((isLast_iff t).mpr h1) (blockAt m c 0 t) (blockAt m c 1 t) (blockAt m c 2 t) (blockAt m c 3 t) (blockAt m c 4 t) (blockAt m c 5 t) (blockAt m c 6 t) (blockAt m c 7 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [HS]; · iexact HS
        iintro ⟨H0, H1, H2, H3, H4, H5, H6, H7, ⟨%e8, H8⟩, ⟨%es, HS⟩⟩
        isplitl [HS Hg]
        · isplitl [HS]
          · unfold owns; iexists _; isplitr
            swap; · iexact HS
            ipureintro; exact View.read_writes_of_cover _ _ _ _ _ (accCover_last c _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        unfold owns; iexists _; isplitr
        swap; · iexact H8
        ipureintro; exact View.read_writes_of_cover _ _ _ _ _ (outCover_last c _ _ _ _ _ _ _ _ _ _ _ _ _ _ _ _ _ _ _ _ _ _ _ _ _ _ _ _ _ _ _ _)
    · rw [Dat.leavesExact_idle (dats m 0 c) 8 t (out_idle t (fun h => h1 ((isLast_iff t).mp h))) (out_noFlush t (fun h => h1 ((isLast_iff t).mp h)))]
      rw [outsAt_mid m c t h0 h1]
      unfold accAfter_mid; (try dsimp only)
      ·
        rw [inv_castSucc m c t, accInv_pos m c _ _ hz]
        iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((runMid c (grid0.coords t) _ _ _ _ _ _ _ _ _ _ _ _ _ _ _ _ _ _ _ _ (fun h => h0 ((isFirst_iff t).mp h)) (fun h => h1 ((isLast_iff t).mp h)) (blockAt m c 0 t) (blockAt m c 1 t) (blockAt m c 2 t) (blockAt m c 3 t) (blockAt m c 4 t) (blockAt m c 5 t) (blockAt m c 6 t) (blockAt m c 7 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS]; · iexact HS
        iintro ⟨H0, H1, H2, H3, H4, H5, H6, H7, H8, ⟨%es, HS⟩⟩
        isplitl [HS Hg]
        · isplitl [HS]
          · unfold owns; iexists _; isplitr
            swap; · iexact HS
            ipureintro; exact View.read_writes_of_cover _ _ _ _ _ (accCover_mid c _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the call is the invariant before the first point. -/
theorem hin (c : Dev nD) : Pipeline.ΦA spec0 c ⊢ (dats m 0 c).Φ 0 := by
  rw [show (dats m 0 c).Φ 0 = accInv m c 0 (Nat.zero_le _) from rfl, accInv_zero m c 0 _ rfl]
  try exact Idealize.SL.BI.Entails.refl _

/-- After any point the invariant gives the accumulator back at some contents. -/
theorem inv_out (c : Dev nD) (t : Fin (cfg0.N + 1)) (ht : t.val ≠ 0) : (dats m 0 c).Φ t ⊢ Pipeline.ΦA spec0 c := by
  rw [show (dats m 0 c).Φ t = accInv m c t.val (Nat.le_of_lt_succ t.isLt) from rfl, accInv_pos m c _ _ ht, inv_eq]
  iintro ⟨HS, Hg⟩
  isplitl [HS]
  · iexists _; iexact HS
  iexact Hg

theorem hout (c : Dev nD) : (dats m 0 c).Φ (Fin.last cfg0.N) ⊢ Pipeline.ΦA spec0 c :=
  inv_out m c _ (by rw [Fin.val_last]; have : cfg0.N = 64 := N_0; omega)

/-! ## The run -/

set_option backward.isDefEq.respectTransparency.types false in
/-- Every weakly fair execution of @main terminates; every final state has each array of the call at what the
    proof data's blocks give and every other unscoped buffer as the host lines left it. -/
theorem run_main : θ_run defs (onTc (τ := τ) (main (F := F))) (s₀ m ρ) (Pipeline.FramePost cfgs (dats m) 0 (entry m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := entry m)
    (hmain := hmain m Variants.none) (hA := A_eq m) (hin := hin m) (hout := hout m)

/-- The run with the result array named and the arguments as launched. -/
theorem run_named : θ_run defs (onTc (τ := τ) (main (F := F))) ⟨m, fun _ => 0, ρ⟩ (fun r => ∀ c : Dev nD,
      r.2.mem ((c.tc : Thread nD τ).loc main_v4) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The frame: @main runs to the end, faults nowhere, and leaves its arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (run_named m ρ)

end Cert.Kernel.Fr

end
-- ==== Proof.KI.Runs.lean ====
/-
  What the three runs of the fused GraphSAGE kernel share.  The program is: six host lines that build the
  augmented feature matrix [x | 1 | 0] (8192 x 640), then ONE pipelined call on a 16 x 4 grid.  At grid point
  (i, k) the body adds the product of the 512 x 2048 block (i, k) of the 0/1 neighbour mask with rows
  2048 k .. 2048 k + 2047 of the augmented matrix into a 512 x 640 accumulator it keeps between points, clearing the
  accumulator first when k = 0, and when k = 3 it normalises, applies the three linear layers and stores block i
  of the result.  Here: the contents every buffer has when the call is entered (the host lines applied to the
  launch memory), the arguments unchanged by those lines, each window's block at a point, the two conditions of the
  body in closed form over the 64 points (k = 0 iff t % 4 = 0, k = 3 iff t % 4 = 3), where the output window is
  idle, and the invariant of the call with the accumulator as a memref.
-/
import proofs.«170365_j773094114149_2_alg».proof.Proof.Gen.KernelIdeal.Launch
import proofs.«170365_j773094114149_2_alg».proof.Proof.Gen.KernelIdeal.Skeleton
import proofs.«170365_j773094114149_2_alg».proof.Proof.Gen.KernelIdeal.Points
import Idealize.ShloMosaic.Lib.Pipeline.FrameBody
import Idealize.ShloMosaic.Lib.Ring
import Idealize.ShloMosaic.Lib.Tactic

-- membership in a rectangle of these extents recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the call -/

/-- Core `c`'s buffers when the call is entered: the six host lines applied to the launch memory. -/
abbrev entry (c : Dev nD) (b : Ref sig .tc) : Buf (Elt F) ((c : Thread nD τ).loc b) :=
  StableHlo.after hostOps0 (fun b => m (c, b)) b

/-- The host lines allocate nothing. -/
theorem hostOps0_fresh : (hostOps0 : List (HloOp τ sig (Elt F))).Forall fun op => op.fresh = ∅ := by
  simp only [List.Forall]; repeat' constructor

/-- @main is the host lines, then the call. -/
theorem hmain (𝒱₀ : Variants) : Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps0_fresh main_chain

/-- No host line before the call writes argument 0: the call finds it as launched. -/
theorem entry_arg0 (c : Dev nD) : entry m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host line before the call writes argument 1: the call finds it as launched. -/
theorem entry_arg1 (c : Dev nD) : entry m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host line before the call writes argument 2: the call finds it as launched. -/
theorem entry_arg2 (c : Dev nD) : entry m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host line before the call writes argument 3: the call finds it as launched. -/
theorem entry_arg3 (c : Dev nD) : entry m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host line before the call writes argument 4: the call finds it as launched. -/
theorem entry_arg4 (c : Dev nD) : entry m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host line before the call writes argument 5: the call finds it as launched. -/
theorem entry_arg5 (c : Dev nD) : entry m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host line before the call writes argument 6: the call finds it as launched. -/
theorem entry_arg6 (c : Dev nD) : entry m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host line before the call writes argument 7: the call finds it as launched. -/
theorem entry_arg7 (c : Dev nD) : entry m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))

/-! ## The windows' blocks -/

/-- Window `w`'s block at point `t`, read off its array as the call finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- An input window's current staging buffer holds its block at every point, whether the pipeline fetched it there or
    kept it from the point before (the seven resident operands are fetched once, at the first point), for any proof
    data over the entry contents whose body leaves the block in place.  One statement per window: a window's block
    type computes only at a literal window. -/
theorem before_in0_of {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem before_in1_of {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem before_in2_of {c : Dev nD} (dat : Dat τ (Elt F) Unit ℕ (UR sig nD τ) ℕ cfg0 c) (hA : dat.A 2 = entry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem before_in3_of {c : Dev nD} (dat : Dat τ (Elt F) Unit ℕ (UR sig nD τ) ℕ cfg0 c) (hA : dat.A 3 = entry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem before_in4_of {c : Dev nD} (dat : Dat τ (Elt F) Unit ℕ (UR sig nD τ) ℕ cfg0 c) (hA : dat.A 4 = entry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
theorem before_in5_of {c : Dev nD} (dat : Dat τ (Elt F) Unit ℕ (UR sig nD τ) ℕ cfg0 c) (hA : dat.A 5 = entry m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)
theorem before_in6_of {c : Dev nD} (dat : Dat τ (Elt F) Unit ℕ (UR sig nD τ) ℕ cfg0 c) (hA : dat.A 6 = entry m c (Pipeline.arrRef spec0 6))
    (hafter : ∀ t, dat.after 6 t = blockAt m c 6 t) (t : Fin cfg0.N) (d) : dat.before 6 t d = blockAt m c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)
theorem before_in7_of {c : Dev nD} (dat : Dat τ (Elt F) Unit ℕ (UR sig nD τ) ℕ cfg0 c) (hA : dat.A 7 = entry m c (Pipeline.arrRef spec0 7))
    (hafter : ∀ t, dat.after 7 t = blockAt m c 7 t) (t : Fin cfg0.N) (d) : dat.before 7 t d = blockAt m c 7 t :=
  (dat.before_in_eq_fetched 7 rfl (fun _ => rfl) (fun _ _ _ => rfl) (fun t => by rw [hafter]; unfold Dat.blockOf blockAt; rw [hA]; try rfl) t d).trans
    (by unfold Dat.fetched Dat.blockOf blockAt; rw [hA]; try rfl)

/-! ## The frame claim's post from the call's -/

/-- The arguments end as launched: `x` (argument 0) is staged by no window and is kept by the call; the other seven are
    arrays of input windows, which the pipeline only reads; and no host line writes an argument. -/
theorem frame_of (dats : (p : Fin 1) → (c : Dev nD) → Dat τ (Elt F) Unit ℕ (UR sig nD τ) ℕ (cfgs p) c)
    (hA : ∀ c w, (dats 0 c).A w = entry m c (Pipeline.arrRef spec0 w))
    (h : θ_run defs (onTc (τ := τ) (main (F := F))) (s₀ m ρ) (Pipeline.FramePost cfgs dats 0 (entry m))) :
    θ_run defs (onTc (τ := τ) (main (F := F))) ⟨m, fun _ => 0, ρ⟩ (fun r => ∀ c : Dev nD,
      r.2.mem ((c.tc : Thread nD τ).loc main_v4) = (dats 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1 8,
      ((h c).2 main_arg0 (Pipeline.mem_restRefs_of main_arg0 (by decide) (by decide))).trans (entry_arg0 m c),
      ((h c).1 0).trans (((dats 0 c).arrAt_in 0 rfl _).trans ((hA c 0).trans (entry_arg1 m c))),
      ((h c).1 2).trans (((dats 0 c).arrAt_in 2 rfl _).trans ((hA c 2).trans (entry_arg2 m c))),
      ((h c).1 3).trans (((dats 0 c).arrAt_in 3 rfl _).trans ((hA c 3).trans (entry_arg3 m c))),
      ((h c).1 4).trans (((dats 0 c).arrAt_in 4 rfl _).trans ((hA c 4).trans (entry_arg4 m c))),
      ((h c).1 5).trans (((dats 0 c).arrAt_in 5 rfl _).trans ((hA c 5).trans (entry_arg5 m c))),
      ((h c).1 6).trans (((dats 0 c).arrAt_in 6 rfl _).trans ((hA c 6).trans (entry_arg6 m c))),
      ((h c).1 7).trans (((dats 0 c).arrAt_in 7 rfl _).trans ((hA c 7).trans (entry_arg7 m c)))⟩) h

/-! ## The body's two conditions -/

/-- "k = 0": the accumulator is cleared (the first `scf.if`, its scalar chain over the grid coordinates). -/
abbrev isFirst (i : grid0.Coords) : Prop := (Scalar.cmpi .ne (Scalar.extui (Scalar.cmpi .eq (BitVec.ofNat 32 (i 1).val) 0#32)) 0#32) = 1#1
/-- It holds at the points t with t % 4 = 0. -/
theorem isFirst_iff : ∀ t : Fin cfg0.N, isFirst (grid0.coords t) ↔ t.val % 4 = 0 :=
  (by decide +kernel : ∀ t : Fin grid0.N, isFirst (grid0.coords t) ↔ t.val % 4 = 0)

/-- "k = 3": the epilogue runs and the output block is stored (the second `scf.if`). -/
abbrev isLast (i : grid0.Coords) : Prop := k0_cond2 i = 1#1
/-- It holds at the points t with t % 4 = 3. -/
theorem isLast_iff : ∀ t : Fin cfg0.N, isLast (grid0.coords t) ↔ t.val % 4 = 3 :=
  (by decide +kernel : ∀ t : Fin grid0.N, isLast (grid0.coords t) ↔ t.val % 4 = 3)

/-! ## Where the output window is idle -/

/-- Away from k = 3 the body stores nothing into the output window: the configuration calls it idle there, -/
theorem out_idle : ∀ t : Fin cfg0.N, ¬isLast (grid0.coords t) → cfg0.idle 8 (grid0.coords t) = true := by decide +kernel
/-- and the pipeline does not write its block back there. -/
theorem out_noFlush : ∀ t : Fin cfg0.N, ¬isLast (grid0.coords t) → (cfg0.win 8).flush t = false := by decide +kernel
/-- At k = 3 it is live. -/
theorem out_live : ∀ t : Fin cfg0.N, isLast (grid0.coords t) → cfg0.idle 8 (grid0.coords t) = false := by decide +kernel

/-! ## The memrefs the body is called with -/

/-- One staging buffer of the output window, through which its contents are stated (either would do). -/
abbrev outView : View sig .tc .vmem S512x512 .f32 := (Memref.whole cc0_stg8_0 : Memref sig .tc .vmem S512x512 .f32).view
abbrev ms0 (t : Fin cfg0.N) : Memref sig .tc .vmem S512x2048 .i32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8192x640 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1024x512 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S512 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S512x512 .f32 := win0_8.stage (cfg0.slots t 8)
abbrev hs8 (t : Fin cfg0.N) : (ms8 t).IsWhole := hstage0_8 ((cfg0.slots t 8).cast nbuf0_8)
/-- The accumulator: a whole scoped buffer of the kernel's own, passed beside the windows. -/
abbrev accM : Memref sig .tc .vmem S512x640 .f32 := Memref.whole cc0_scratch0
/-- The accumulator as a view: what it holds between points is stated through it. -/
abbrev accView : View sig .tc .vmem S512x640 .f32 := accM.view

/-- The call's invariant with the accumulator as a memref owned at some contents, and the generator register. -/
theorem inv_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.KernelIdeal.Fr

end
-- ==== Proof.KI.RunFirst.lean ====
/-
  The body's run at the points with k = 0: the accumulator, at whatever it held, is cleared and then receives the first partial product; nothing is stored into the output window.
-/
import proofs.«170365_j773094114149_2_alg».proof.Proof.KI.Runs

-- membership in a rectangle of these extents recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large)
set_option maxHeartbeats 1000000 in
/-- The body at a point where k = 0, on whole staging memrefs holding the input blocks `x·`: it runs to its continuation with the inputs
    as they were, the accumulator holding the listed pieces (last store first), and the output window's buffer handed back untouched.
    The pieces are found by running the body's memory operations in order over its named payloads. -/
noncomputable def runFirst (c : Dev nD) (i : grid0.Coords) (arg2 : Memref sig .tc .vmem S512x2048 .i32) (harg2 : arg2.IsWhole) (arg3 : Memref sig .tc .vmem S8192x640 .bf16) (harg3 : arg3.IsWhole) (arg4 : Memref sig .tc .vmem S512x512 .f32) (harg4 : arg4.IsWhole) (arg5 : Memref sig .tc .vmem S512 .f32) (harg5 : arg5.IsWhole) (arg6 : Memref sig .tc .vmem S512x512 .f32) (harg6 : arg6.IsWhole) (arg7 : Memref sig .tc .vmem S512 .f32) (harg7 : arg7.IsWhole) (arg8 : Memref sig .tc .vmem S1024x512 .f32) (harg8 : arg8.IsWhole) (arg9 : Memref sig .tc .vmem S512 .f32) (harg9 : arg9.IsWhole) (arg10 : Memref sig .tc .vmem S512x512 .f32) (harg10 : arg10.IsWhole) (arg11 : Memref sig .tc .vmem S512x640 .f32) (harg11 : arg11.IsWhole) (hc0 : isFirst i) (hc1 : ¬isLast i)
    (x0 : Vec F S512x2048 .i32) (x1 : Vec F S8192x640 .bf16) (x2 : Vec F S512x512 .f32) (x3 : Vec F S512 .f32) (x4 : Vec F S512x512 .f32) (x5 : Vec F S512 .f32) (x6 : Vec F S1024x512 .f32) (x7 : Vec F S512 .f32) :
    Σ' (L8 : List (View.Piece (Elt F) S512x512 .f32)), { LS : List (View.Piece (Elt F) S512x640 .f32) //
      ∀ (xi8 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ f, arg11.view.loc (c : Thread nD τ) ↦[arg11.view.set]{fullShare} arg11.view.writes (Elt F) f LS)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11) K } := by
  refine ⟨[], ?_, fun xi8 E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HS

end Cert.KernelIdeal.Fr

end
-- ==== Proof.KI.RunMid.lean ====
/-
  The body's run at the points with 0 < k < 3: the accumulator, at what the point before left, receives one more partial product; nothing is stored into the output window.
-/
import proofs.«170365_j773094114149_2_alg».proof.Proof.KI.RunFirst

-- membership in a rectangle of these extents recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large)
set_option maxHeartbeats 1000000 in
/-- The body at a point where 0 < k < 3, on whole staging memrefs holding the input blocks `x·`: it runs to its continuation with the inputs
    as they were, the accumulator holding the listed pieces (last store first), and the output window's buffer handed back untouched.
    The pieces are found by running the body's memory operations in order over its named payloads. -/
noncomputable def runMid (c : Dev nD) (i : grid0.Coords) (arg2 : Memref sig .tc .vmem S512x2048 .i32) (harg2 : arg2.IsWhole) (arg3 : Memref sig .tc .vmem S8192x640 .bf16) (harg3 : arg3.IsWhole) (arg4 : Memref sig .tc .vmem S512x512 .f32) (harg4 : arg4.IsWhole) (arg5 : Memref sig .tc .vmem S512 .f32) (harg5 : arg5.IsWhole) (arg6 : Memref sig .tc .vmem S512x512 .f32) (harg6 : arg6.IsWhole) (arg7 : Memref sig .tc .vmem S512 .f32) (harg7 : arg7.IsWhole) (arg8 : Memref sig .tc .vmem S1024x512 .f32) (harg8 : arg8.IsWhole) (arg9 : Memref sig .tc .vmem S512 .f32) (harg9 : arg9.IsWhole) (arg10 : Memref sig .tc .vmem S512x512 .f32) (harg10 : arg10.IsWhole) (arg11 : Memref sig .tc .vmem S512x640 .f32) (harg11 : arg11.IsWhole) (hc0 : ¬isFirst i) (hc1 : ¬isLast i)
    (x0 : Vec F S512x2048 .i32) (x1 : Vec F S8192x640 .bf16) (x2 : Vec F S512x512 .f32) (x3 : Vec F S512 .f32) (x4 : Vec F S512x512 .f32) (x5 : Vec F S512 .f32) (x6 : Vec F S1024x512 .f32) (x7 : Vec F S512 .f32) (xs : Vec F S512x640 .f32) :
    Σ' (L8 : List (View.Piece (Elt F) S512x512 .f32)), { LS : List (View.Piece (Elt F) S512x640 .f32) //
      ∀ (xi8 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ f, arg11.view.loc (c : Thread nD τ) ↦[arg11.view.set]{fullShare} arg11.view.writes (Elt F) f LS)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11) K } := by
  refine ⟨[], ?_, fun xi8 E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HS

end Cert.KernelIdeal.Fr

end
-- ==== Proof.KI.RunLast.lean ====
/-
  The body's run at the points with k = 3: the accumulator receives the last partial product, is read back, normalised by the degree column and pushed through the three linear layers, and the result block is stored into the output window.
-/
import proofs.«170365_j773094114149_2_alg».proof.Proof.KI.RunMid

-- membership in a rectangle of these extents recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large)
set_option maxHeartbeats 1000000 in
/-- The body at a point where k = 3, on whole staging memrefs holding the input blocks `x·`: it runs to its continuation with the inputs
    as they were, the accumulator holding the listed pieces (last store first), and the output window's buffer holding its one stored piece.
    The pieces are found by running the body's memory operations in order over its named payloads. -/
noncomputable def runLast (c : Dev nD) (i : grid0.Coords) (arg2 : Memref sig .tc .vmem S512x2048 .i32) (harg2 : arg2.IsWhole) (arg3 : Memref sig .tc .vmem S8192x640 .bf16) (harg3 : arg3.IsWhole) (arg4 : Memref sig .tc .vmem S512x512 .f32) (harg4 : arg4.IsWhole) (arg5 : Memref sig .tc .vmem S512 .f32) (harg5 : arg5.IsWhole) (arg6 : Memref sig .tc .vmem S512x512 .f32) (harg6 : arg6.IsWhole) (arg7 : Memref sig .tc .vmem S512 .f32) (harg7 : arg7.IsWhole) (arg8 : Memref sig .tc .vmem S1024x512 .f32) (harg8 : arg8.IsWhole) (arg9 : Memref sig .tc .vmem S512 .f32) (harg9 : arg9.IsWhole) (arg10 : Memref sig .tc .vmem S512x512 .f32) (harg10 : arg10.IsWhole) (arg11 : Memref sig .tc .vmem S512x640 .f32) (harg11 : arg11.IsWhole) (hc0 : ¬isFirst i) (hc1 : isLast i)
    (x0 : Vec F S512x2048 .i32) (x1 : Vec F S8192x640 .bf16) (x2 : Vec F S512x512 .f32) (x3 : Vec F S512 .f32) (x4 : Vec F S512x512 .f32) (x5 : Vec F S512 .f32) (x6 : Vec F S1024x512 .f32) (x7 : Vec F S512 .f32) (xs : Vec F S512x640 .f32) :
    Σ' (L8 : List (View.Piece (Elt F) S512x512 .f32)), { LS : List (View.Piece (Elt F) S512x640 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    iexists _; iexact HS

end Cert.KernelIdeal.Fr

end
-- ==== Proof.KI.Frame.lean ====
/-
  The pipelined call as a whole.  Per case of the body (k = 0, 0 < k < 3, k = 3): the pieces its stores leave in the
  accumulator tile it, so the accumulator's contents after the point are those pieces read back; at k = 3 the one
  stored piece tiles the output block likewise.  Point by point: what the accumulator holds after point t, by recursion
  on t (a point with k = 0 starts afresh; any other point continues from what the point before left), and what the
  output window's buffer holds (written at k = 3 only).  With these as the proof data the body meets its obligation at
  every point, and the launch theorem for one pipelined call after a stretch of host lines gives the run: every weakly
  fair execution of @main terminates, the result array ends as the blocks written back, every argument as launched.
-/
import proofs.«170365_j773094114149_2_alg».proof.Proof.KI.RunLast

-- membership in a rectangle of these extents recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- Nothing is stored into the output window away from k = 3; the proof data still names a value there, which nothing reads. -/
def idleOut : Vec F S512x512 .f32 := outView.read (Elt F) outView.junk

theorem accCover_first (c : Dev nD) (i : grid0.Coords) (arg2 : Memref sig .tc .vmem S512x2048 .i32) (harg2 : arg2.IsWhole) (arg3 : Memref sig .tc .vmem S8192x640 .bf16) (harg3 : arg3.IsWhole) (arg4 : Memref sig .tc .vmem S512x512 .f32) (harg4 : arg4.IsWhole) (arg5 : Memref sig .tc .vmem S512 .f32) (harg5 : arg5.IsWhole) (arg6 : Memref sig .tc .vmem S512x512 .f32) (harg6 : arg6.IsWhole) (arg7 : Memref sig .tc .vmem S512 .f32) (harg7 : arg7.IsWhole) (arg8 : Memref sig .tc .vmem S1024x512 .f32) (harg8 : arg8.IsWhole) (arg9 : Memref sig .tc .vmem S512 .f32) (harg9 : arg9.IsWhole) (arg10 : Memref sig .tc .vmem S512x512 .f32) (harg10 : arg10.IsWhole) (arg11 : Memref sig .tc .vmem S512x640 .f32) (harg11 : arg11.IsWhole) (hc0 : isFirst i) (hc1 : ¬isLast i) (x0 : Vec F S512x2048 .i32) (x1 : Vec F S8192x640 .bf16) (x2 : Vec F S512x512 .f32) (x3 : Vec F S512 .f32) (x4 : Vec F S512x512 .f32) (x5 : Vec F S512 .f32) (x6 : Vec F S1024x512 .f32) (x7 : Vec F S512 .f32) (y : S512x640.Idx) :
    ∃ pc ∈ (runFirst c i arg2 harg2 arg3 harg3 arg4 harg4 arg5 harg5 arg6 harg6 arg7 harg7 arg8 harg8 arg9 harg9 arg10 harg10 arg11 harg11 hc0 hc1 x0 x1 x2 x3 x4 x5 x6 x7).2.1, y ∈ pc.1.set :=
  View.cover_of_tiledL (runFirst c i arg2 harg2 arg3 harg3 arg4 harg4 arg5 harg5 arg6 harg6 arg7 harg7 arg8 harg8 arg9 harg9 arg10 harg10 arg11 harg11 hc0 hc1 x0 x1 x2 x3 x4 x5 x6 x7).2.1 S512x640.size (by sl_kernel_rfl) y

/-- The accumulator after a point with k = 0. -/
def accAfter_first (c : Dev nD) (i : grid0.Coords) (arg2 : Memref sig .tc .vmem S512x2048 .i32) (harg2 : arg2.IsWhole) (arg3 : Memref sig .tc .vmem S8192x640 .bf16) (harg3 : arg3.IsWhole) (arg4 : Memref sig .tc .vmem S512x512 .f32) (harg4 : arg4.IsWhole) (arg5 : Memref sig .tc .vmem S512 .f32) (harg5 : arg5.IsWhole) (arg6 : Memref sig .tc .vmem S512x512 .f32) (harg6 : arg6.IsWhole) (arg7 : Memref sig .tc .vmem S512 .f32) (harg7 : arg7.IsWhole) (arg8 : Memref sig .tc .vmem S1024x512 .f32) (harg8 : arg8.IsWhole) (arg9 : Memref sig .tc .vmem S512 .f32) (harg9 : arg9.IsWhole) (arg10 : Memref sig .tc .vmem S512x512 .f32) (harg10 : arg10.IsWhole) (arg11 : Memref sig .tc .vmem S512x640 .f32) (harg11 : arg11.IsWhole) (hc0 : isFirst i) (hc1 : ¬isLast i) (x0 : Vec F S512x2048 .i32) (x1 : Vec F S8192x640 .bf16) (x2 : Vec F S512x512 .f32) (x3 : Vec F S512 .f32) (x4 : Vec F S512x512 .f32) (x5 : Vec F S512 .f32) (x6 : Vec F S1024x512 .f32) (x7 : Vec F S512 .f32) : Vec F S512x640 .f32 :=
  accView.read (Elt F) (accView.writes (Elt F) accView.junk (runFirst c i arg2 harg2 arg3 harg3 arg4 harg4 arg5 harg5 arg6 harg6 arg7 harg7 arg8 harg8 arg9 harg9 arg10 harg10 arg11 harg11 hc0 hc1 x0 x1 x2 x3 x4 x5 x6 x7).2.1)

theorem accCover_mid (c : Dev nD) (i : grid0.Coords) (arg2 : Memref sig .tc .vmem S512x2048 .i32) (harg2 : arg2.IsWhole) (arg3 : Memref sig .tc .vmem S8192x640 .bf16) (harg3 : arg3.IsWhole) (arg4 : Memref sig .tc .vmem S512x512 .f32) (harg4 : arg4.IsWhole) (arg5 : Memref sig .tc .vmem S512 .f32) (harg5 : arg5.IsWhole) (arg6 : Memref sig .tc .vmem S512x512 .f32) (harg6 : arg6.IsWhole) (arg7 : Memref sig .tc .vmem S512 .f32) (harg7 : arg7.IsWhole) (arg8 : Memref sig .tc .vmem S1024x512 .f32) (harg8 : arg8.IsWhole) (arg9 : Memref sig .tc .vmem S512 .f32) (harg9 : arg9.IsWhole) (arg10 : Memref sig .tc .vmem S512x512 .f32) (harg10 : arg10.IsWhole) (arg11 : Memref sig .tc .vmem S512x640 .f32) (harg11 : arg11.IsWhole) (hc0 : ¬isFirst i) (hc1 : ¬isLast i) (x0 : Vec F S512x2048 .i32) (x1 : Vec F S8192x640 .bf16) (x2 : Vec F S512x512 .f32) (x3 : Vec F S512 .f32) (x4 : Vec F S512x512 .f32) (x5 : Vec F S512 .f32) (x6 : Vec F S1024x512 .f32) (x7 : Vec F S512 .f32) (xs : Vec F S512x640 .f32) (y : S512x640.Idx) :
    ∃ pc ∈ (runMid c i arg2 harg2 arg3 harg3 arg4 harg4 arg5 harg5 arg6 harg6 arg7 harg7 arg8 harg8 arg9 harg9 arg10 harg10 arg11 harg11 hc0 hc1 x0 x1 x2 x3 x4 x5 x6 x7 xs).2.1, y ∈ pc.1.set :=
  View.cover_of_tiledL (runMid c i arg2 harg2 arg3 harg3 arg4 harg4 arg5 harg5 arg6 harg6 arg7 harg7 arg8 harg8 arg9 harg9 arg10 harg10 arg11 harg11 hc0 hc1 x0 x1 x2 x3 x4 x5 x6 x7 xs).2.1 S512x640.size (by sl_kernel_rfl) y

/-- The accumulator after a point with 0 < k < 3, from what the point before left (`xs`). -/
def accAfter_mid (c : Dev nD) (i : grid0.Coords) (arg2 : Memref sig .tc .vmem S512x2048 .i32) (harg2 : arg2.IsWhole) (arg3 : Memref sig .tc .vmem S8192x640 .bf16) (harg3 : arg3.IsWhole) (arg4 : Memref sig .tc .vmem S512x512 .f32) (harg4 : arg4.IsWhole) (arg5 : Memref sig .tc .vmem S512 .f32) (harg5 : arg5.IsWhole) (arg6 : Memref sig .tc .vmem S512x512 .f32) (harg6 : arg6.IsWhole) (arg7 : Memref sig .tc .vmem S512 .f32) (harg7 : arg7.IsWhole) (arg8 : Memref sig .tc .vmem S1024x512 .f32) (harg8 : arg8.IsWhole) (arg9 : Memref sig .tc .vmem S512 .f32) (harg9 : arg9.IsWhole) (arg10 : Memref sig .tc .vmem S512x512 .f32) (harg10 : arg10.IsWhole) (arg11 : Memref sig .tc .vmem S512x640 .f32) (harg11 : arg11.IsWhole) (hc0 : ¬isFirst i) (hc1 : ¬isLast i) (x0 : Vec F S512x2048 .i32) (x1 : Vec F S8192x640 .bf16) (x2 : Vec F S512x512 .f32) (x3 : Vec F S512 .f32) (x4 : Vec F S512x512 .f32) (x5 : Vec F S512 .f32) (x6 : Vec F S1024x512 .f32) (x7 : Vec F S512 .f32) (xs : Vec F S512x640 .f32) : Vec F S512x640 .f32 :=
  accView.read (Elt F) (accView.writes (Elt F) accView.junk (runMid c i arg2 harg2 arg3 harg3 arg4 harg4 arg5 harg5 arg6 harg6 arg7 harg7 arg8 harg8 arg9 harg9 arg10 harg10 arg11 harg11 hc0 hc1 x0 x1 x2 x3 x4 x5 x6 x7 xs).2.1)

theorem accCover_last (c : Dev nD) (i : grid0.Coords) (arg2 : Memref sig .tc .vmem S512x2048 .i32) (harg2 : arg2.IsWhole) (arg3 : Memref sig .tc .vmem S8192x640 .bf16) (harg3 : arg3.IsWhole) (arg4 : Memref sig .tc .vmem S512x512 .f32) (harg4 : arg4.IsWhole) (arg5 : Memref sig .tc .vmem S512 .f32) (harg5 : arg5.IsWhole) (arg6 : Memref sig .tc .vmem S512x512 .f32) (harg6 : arg6.IsWhole) (arg7 : Memref sig .tc .vmem S512 .f32) (harg7 : arg7.IsWhole) (arg8 : Memref sig .tc .vmem S1024x512 .f32) (harg8 : arg8.IsWhole) (arg9 : Memref sig .tc .vmem S512 .f32) (harg9 : arg9.IsWhole) (arg10 : Memref sig .tc .vmem S512x512 .f32) (harg10 : arg10.IsWhole) (arg11 : Memref sig .tc .vmem S512x640 .f32) (harg11 : arg11.IsWhole) (hc0 : ¬isFirst i) (hc1 : isLast i) (x0 : Vec F S512x2048 .i32) (x1 : Vec F S8192x640 .bf16) (x2 : Vec F S512x512 .f32) (x3 : Vec F S512 .f32) (x4 : Vec F S512x512 .f32) (x5 : Vec F S512 .f32) (x6 : Vec F S1024x512 .f32) (x7 : Vec F S512 .f32) (xs : Vec F S512x640 .f32) (y : S512x640.Idx) :
    ∃ pc ∈ (runLast c i arg2 harg2 arg3 harg3 arg4 harg4 arg5 harg5 arg6 harg6 arg7 harg7 arg8 harg8 arg9 harg9 arg10 harg10 arg11 harg11 hc0 hc1 x0 x1 x2 x3 x4 x5 x6 x7 xs).2.1, y ∈ pc.1.set :=
  View.cover_of_tiledL (runLast c i arg2 harg2 arg3 harg3 arg4 harg4 arg5 harg5 arg6 harg6 arg7 harg7 arg8 harg8 arg9 harg9 arg10 harg10 arg11 harg11 hc0 hc1 x0 x1 x2 x3 x4 x5 x6 x7 xs).2.1 S512x640.size (by sl_kernel_rfl) y

/-- The accumulator after a point with k = 3. -/
def accAfter_last (c : Dev nD) (i : grid0.Coords) (arg2 : Memref sig .tc .vmem S512x2048 .i32) (harg2 : arg2.IsWhole) (arg3 : Memref sig .tc .vmem S8192x640 .bf16) (harg3 : arg3.IsWhole) (arg4 : Memref sig .tc .vmem S512x512 .f32) (harg4 : arg4.IsWhole) (arg5 : Memref sig .tc .vmem S512 .f32) (harg5 : arg5.IsWhole) (arg6 : Memref sig .tc .vmem S512x512 .f32) (harg6 : arg6.IsWhole) (arg7 : Memref sig .tc .vmem S512 .f32) (harg7 : arg7.IsWhole) (arg8 : Memref sig .tc .vmem S1024x512 .f32) (harg8 : arg8.IsWhole) (arg9 : Memref sig .tc .vmem S512 .f32) (harg9 : arg9.IsWhole) (arg10 : Memref sig .tc .vmem S512x512 .f32) (harg10 : arg10.IsWhole) (arg11 : Memref sig .tc .vmem S512x640 .f32) (harg11 : arg11.IsWhole) (hc0 : ¬isFirst i) (hc1 : isLast i) (x0 : Vec F S512x2048 .i32) (x1 : Vec F S8192x640 .bf16) (x2 : Vec F S512x512 .f32) (x3 : Vec F S512 .f32) (x4 : Vec F S512x512 .f32) (x5 : Vec F S512 .f32) (x6 : Vec F S1024x512 .f32) (x7 : Vec F S512 .f32) (xs : Vec F S512x640 .f32) : Vec F S512x640 .f32 :=
  accView.read (Elt F) (accView.writes (Elt F) accView.junk (runLast c i arg2 harg2 arg3 harg3 arg4 harg4 arg5 harg5 arg6 harg6 arg7 harg7 arg8 harg8 arg9 harg9 arg10 harg10 arg11 harg11 hc0 hc1 x0 x1 x2 x3 x4 x5 x6 x7 xs).2.1)

theorem outCover_last (c : Dev nD) (i : grid0.Coords) (arg2 : Memref sig .tc .vmem S512x2048 .i32) (harg2 : arg2.IsWhole) (arg3 : Memref sig .tc .vmem S8192x640 .bf16) (harg3 : arg3.IsWhole) (arg4 : Memref sig .tc .vmem S512x512 .f32) (harg4 : arg4.IsWhole) (arg5 : Memref sig .tc .vmem S512 .f32) (harg5 : arg5.IsWhole) (arg6 : Memref sig .tc .vmem S512x512 .f32) (harg6 : arg6.IsWhole) (arg7 : Memref sig .tc .vmem S512 .f32) (harg7 : arg7.IsWhole) (arg8 : Memref sig .tc .vmem S1024x512 .f32) (harg8 : arg8.IsWhole) (arg9 : Memref sig .tc .vmem S512 .f32) (harg9 : arg9.IsWhole) (arg10 : Memref sig .tc .vmem S512x512 .f32) (harg10 : arg10.IsWhole) (arg11 : Memref sig .tc .vmem S512x640 .f32) (harg11 : arg11.IsWhole) (hc0 : ¬isFirst i) (hc1 : isLast i) (x0 : Vec F S512x2048 .i32) (x1 : Vec F S8192x640 .bf16) (x2 : Vec F S512x512 .f32) (x3 : Vec F S512 .f32) (x4 : Vec F S512x512 .f32) (x5 : Vec F S512 .f32) (x6 : Vec F S1024x512 .f32) (x7 : Vec F S512 .f32) (xs : Vec F S512x640 .f32) (y : S512x512.Idx) :
    ∃ pc ∈ (runLast c i arg2 harg2 arg3 harg3 arg4 harg4 arg5 harg5 arg6 harg6 arg7 harg7 arg8 harg8 arg9 harg9 arg10 harg10 arg11 harg11 hc0 hc1 x0 x1 x2 x3 x4 x5 x6 x7 xs).1, y ∈ pc.1.set :=
  View.cover_of_tiledL (runLast c i arg2 harg2 arg3 harg3 arg4 harg4 arg5 harg5 arg6 harg6 arg7 harg7 arg8 harg8 arg9 harg9 arg10 harg10 arg11 harg11 hc0 hc1 x0 x1 x2 x3 x4 x5 x6 x7 xs).1 S512x512.size (by sl_kernel_rfl) y

/-- The output window's buffer after a point with k = 3. -/
def outAfter_last (c : Dev nD) (i : grid0.Coords) (arg2 : Memref sig .tc .vmem S512x2048 .i32) (harg2 : arg2.IsWhole) (arg3 : Memref sig .tc .vmem S8192x640 .bf16) (harg3 : arg3.IsWhole) (arg4 : Memref sig .tc .vmem S512x512 .f32) (harg4 : arg4.IsWhole) (arg5 : Memref sig .tc .vmem S512 .f32) (harg5 : arg5.IsWhole) (arg6 : Memref sig .tc .vmem S512x512 .f32) (harg6 : arg6.IsWhole) (arg7 : Memref sig .tc .vmem S512 .f32) (harg7 : arg7.IsWhole) (arg8 : Memref sig .tc .vmem S1024x512 .f32) (harg8 : arg8.IsWhole) (arg9 : Memref sig .tc .vmem S512 .f32) (harg9 : arg9.IsWhole) (arg10 : Memref sig .tc .vmem S512x512 .f32) (harg10 : arg10.IsWhole) (arg11 : Memref sig .tc .vmem S512x640 .f32) (harg11 : arg11.IsWhole) (hc0 : ¬isFirst i) (hc1 : isLast i) (x0 : Vec F S512x2048 .i32) (x1 : Vec F S8192x640 .bf16) (x2 : Vec F S512x512 .f32) (x3 : Vec F S512 .f32) (x4 : Vec F S512x512 .f32) (x5 : Vec F S512 .f32) (x6 : Vec F S1024x512 .f32) (x7 : Vec F S512 .f32) (xs : Vec F S512x640 .f32) : Vec F S512x512 .f32 :=
  outView.read (Elt F) (outView.writes (Elt F) outView.junk (runLast c i arg2 harg2 arg3 harg3 arg4 harg4 arg5 harg5 arg6 harg6 arg7 harg7 arg8 harg8 arg9 harg9 arg10 harg10 arg11 harg11 hc0 hc1 x0 x1 x2 x3 x4 x5 x6 x7 xs).1)

/-! ## Point by point -/

/-- What the output window's buffer and the accumulator hold after the body at position `n`. -/
def outsAt (c : Dev nD) : (n : ℕ) → n < cfg0.N → Vec F S512x512 .f32 × Vec F S512x640 .f32
  | 0, hn => (idleOut, accAfter_first c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) accM (Memref.isWhole_whole _) ((isFirst_iff ⟨0, hn⟩).mpr (Nat.zero_mod _)) (fun h => (fun h => by (try dsimp only at h); omega) ((isLast_iff ⟨0, hn⟩).mp h)) (blockAt m c 0 ⟨0, hn⟩) (blockAt m c 1 ⟨0, hn⟩) (blockAt m c 2 ⟨0, hn⟩) (blockAt m c 3 ⟨0, hn⟩) (blockAt m c 4 ⟨0, hn⟩) (blockAt m c 5 ⟨0, hn⟩) (blockAt m c 6 ⟨0, hn⟩) (blockAt m c 7 ⟨0, hn⟩))
  | n + 1, hn =>
    if h0 : (n + 1) % 4 = 0 then
      (idleOut, accAfter_first c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) accM (Memref.isWhole_whole _) ((isFirst_iff ⟨n + 1, hn⟩).mpr h0) (fun h => (fun h => by (try dsimp only at h); omega) ((isLast_iff ⟨n + 1, hn⟩).mp h)) (blockAt m c 0 ⟨n + 1, hn⟩) (blockAt m c 1 ⟨n + 1, hn⟩) (blockAt m c 2 ⟨n + 1, hn⟩) (blockAt m c 3 ⟨n + 1, hn⟩) (blockAt m c 4 ⟨n + 1, hn⟩) (blockAt m c 5 ⟨n + 1, hn⟩) (blockAt m c 6 ⟨n + 1, hn⟩) (blockAt m c 7 ⟨n + 1, hn⟩))
    else
      if h1 : (n + 1) % 4 = 3 then
        (outAfter_last c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) accM (Memref.isWhole_whole _) (fun h => h0 ((isFirst_iff ⟨n + 1, hn⟩).mp h)) ((isLast_iff ⟨n + 1, hn⟩).mpr h1) (blockAt m c 0 ⟨n + 1, hn⟩) (blockAt m c 1 ⟨n + 1, hn⟩) (blockAt m c 2 ⟨n + 1, hn⟩) (blockAt m c 3 ⟨n + 1, hn⟩) (blockAt m c 4 ⟨n + 1, hn⟩) (blockAt m c 5 ⟨n + 1, hn⟩) (blockAt m c 6 ⟨n + 1, hn⟩) (blockAt m c 7 ⟨n + 1, hn⟩) (outsAt c n (Nat.lt_of_succ_lt hn)).2,
         accAfter_last c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) accM (Memref.isWhole_whole _) (fun h => h0 ((isFirst_iff ⟨n + 1, hn⟩).mp h)) ((isLast_iff ⟨n + 1, hn⟩).mpr h1) (blockAt m c 0 ⟨n + 1, hn⟩) (blockAt m c 1 ⟨n + 1, hn⟩) (blockAt m c 2 ⟨n + 1, hn⟩) (blockAt m c 3 ⟨n + 1, hn⟩) (blockAt m c 4 ⟨n + 1, hn⟩) (blockAt m c 5 ⟨n + 1, hn⟩) (blockAt m c 6 ⟨n + 1, hn⟩) (blockAt m c 7 ⟨n + 1, hn⟩) (outsAt c n (Nat.lt_of_succ_lt hn)).2)
      else
        (idleOut, accAfter_mid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) accM (Memref.isWhole_whole _) (fun h => h0 ((isFirst_iff ⟨n + 1, hn⟩).mp h)) (fun h => h1 ((isLast_iff ⟨n + 1, hn⟩).mp h)) (blockAt m c 0 ⟨n + 1, hn⟩) (blockAt m c 1 ⟨n + 1, hn⟩) (blockAt m c 2 ⟨n + 1, hn⟩) (blockAt m c 3 ⟨n + 1, hn⟩) (blockAt m c 4 ⟨n + 1, hn⟩) (blockAt m c 5 ⟨n + 1, hn⟩) (blockAt m c 6 ⟨n + 1, hn⟩) (blockAt m c 7 ⟨n + 1, hn⟩) (outsAt c n (Nat.lt_of_succ_lt hn)).2)

/-- At a point with k = 0. -/
theorem outsAt_first (c : Dev nD) (t : Fin cfg0.N) (h0 : t.val % 4 = 0) (h1 : ¬t.val % 4 = 3) :
    outsAt m c t.val t.isLt = (idleOut, accAfter_first c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) accM (Memref.isWhole_whole _) ((isFirst_iff t).mpr h0) (fun h => h1 ((isLast_iff t).mp h)) (blockAt m c 0 t) (blockAt m c 1 t) (blockAt m c 2 t) (blockAt m c 3 t) (blockAt m c 4 t) (blockAt m c 5 t) (blockAt m c 6 t) (blockAt m c 7 t)) := by
  obtain ⟨n, hn⟩ := t
  cases n with
  | zero => exact rfl
  | succ n => exact (dif_pos h0).trans rfl

/-- At a point with 0 < k < 3: over what the point before left. -/
theorem outsAt_mid (c : Dev nD) (t : Fin cfg0.N) (h0 : ¬t.val % 4 = 0) (h1 : ¬t.val % 4 = 3) :
    outsAt m c t.val t.isLt = (idleOut, accAfter_mid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) accM (Memref.isWhole_whole _) (fun h => h0 ((isFirst_iff t).mp h)) (fun h => h1 ((isLast_iff t).mp h)) (blockAt m c 0 t) (blockAt m c 1 t) (blockAt m c 2 t) (blockAt m c 3 t) (blockAt m c 4 t) (blockAt m c 5 t) (blockAt m c 6 t) (blockAt m c 7 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point with k = 3: over what the point before left. -/
theorem outsAt_last (c : Dev nD) (t : Fin cfg0.N) (h0 : ¬t.val % 4 = 0) (h1 : t.val % 4 = 3) :
    outsAt m c t.val t.isLt = (outAfter_last c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) accM (Memref.isWhole_whole _) (fun h => h0 ((isFirst_iff t).mp h)) ((isLast_iff t).mpr h1) (blockAt m c 0 t) (blockAt m c 1 t) (blockAt m c 2 t) (blockAt m c 3 t) (blockAt m c 4 t) (blockAt m c 5 t) (blockAt m c 6 t) (blockAt m c 7 t) (outsAt m c (t.val - 1) (Nat.lt_of_le_of_lt (Nat.sub_le _ _) t.isLt)).2,
      accAfter_last c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) accM (Memref.isWhole_whole _) (fun h => h0 ((isFirst_iff t).mp h)) ((isLast_iff t).mpr h1) (blockAt m c 0 t) (blockAt m c 1 t) (blockAt m c 2 t) (blockAt m c 3 t) (blockAt m c 4 t) (blockAt m c 5 t) (blockAt m c 6 t) (blockAt m c 7 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The call's invariant before position `n`: before the first point the accumulator holds anything; afterwards what the
    point before left in it. The generator register is at some state throughout. -/
def accInv (c : Dev nD) : (n : ℕ) → n ≤ cfg0.N → sProp 𝕄
  | 0, _ => Pipeline.ΦA spec0 c
  | n + 1, hn => iprop(iprop(owns (c : Thread nD τ) accM fullShare ((outsAt m c n hn).2)) ∗ (∃ r, prngReg c r))

theorem accInv_zero (c : Dev nD) (n : ℕ) (h : n ≤ cfg0.N) (hz : n = 0) : accInv m c n h = Pipeline.ΦA spec0 c := by
  subst hz; rfl

theorem accInv_succ (c : Dev nD) (n : ℕ) (hn : n < cfg0.N) :
    accInv m c (n + 1) hn = iprop(iprop(owns (c : Thread nD τ) accM fullShare ((outsAt m c n hn).2)) ∗ (∃ r, prngReg c r)) := rfl

theorem accInv_pos (c : Dev nD) (n : ℕ) (h : n ≤ cfg0.N) (hz : n ≠ 0) :
    accInv m c n h = iprop(iprop(owns (c : Thread nD τ) accM fullShare ((outsAt m c (n - 1) (by omega)).2)) ∗ (∃ r, prngReg c r)) := by
  cases n with
  | zero => exact absurd rfl hz
  | succ n => rfl

/-! ## The proof data -/

/-- The arrays as the call finds them; after the body each input's buffer at its block, the output's at `outsAt`;
    the invariant `accInv`; nothing owed; full shares. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => blockAt m c 7 t
    | ⟨8, _⟩ => (outsAt m c t.val t.isLt).1
    | ⟨_ + 9, h⟩ => absurd h (Nat.not_lt.2 (Nat.le_add_left _ _))
  Φ t := accInv m c t.val (Nat.le_of_lt_succ t.isLt)
  q _ := fullShare
  owed _ := 0

theorem A_eq (c : Dev nD) (w : Fin cfg0.W) : (dats m 0 c).A w = entry m c (Pipeline.arrRef spec0 w) := by
  dsimp only [dats]

theorem inv_castSucc (c : Dev nD) (t : Fin cfg0.N) :
    (dats m 0 c).Φ t.castSucc = accInv m c t.val (Nat.le_of_lt t.isLt) := by
  dsimp only [dats]; simp only [Fin.coe_castSucc]

theorem after0 (c : Dev nD) (t : Fin cfg0.N) : (dats m 0 c).after 0 t = blockAt m c 0 t := by dsimp only [dats]
theorem after1 (c : Dev nD) (t : Fin cfg0.N) : (dats m 0 c).after 1 t = blockAt m c 1 t := by dsimp only [dats]
theorem after2 (c : Dev nD) (t : Fin cfg0.N) : (dats m 0 c).after 2 t = blockAt m c 2 t := by dsimp only [dats]
theorem after3 (c : Dev nD) (t : Fin cfg0.N) : (dats m 0 c).after 3 t = blockAt m c 3 t := by dsimp only [dats]
theorem after4 (c : Dev nD) (t : Fin cfg0.N) : (dats m 0 c).after 4 t = blockAt m c 4 t := by dsimp only [dats]
theorem after5 (c : Dev nD) (t : Fin cfg0.N) : (dats m 0 c).after 5 t = blockAt m c 5 t := by dsimp only [dats]
theorem after6 (c : Dev nD) (t : Fin cfg0.N) : (dats m 0 c).after 6 t = blockAt m c 6 t := by dsimp only [dats]
theorem after7 (c : Dev nD) (t : Fin cfg0.N) : (dats m 0 c).after 7 t = blockAt m c 7 t := by dsimp only [dats]
theorem after8 (c : Dev nD) (t : Fin cfg0.N) : (dats m 0 c).after 8 t = (outsAt m c t.val t.isLt).1 := by dsimp only [dats]

theorem before0 (c : Dev nD) (t : Fin cfg0.N) (d) : (dats m 0 c).before 0 t d = blockAt m c 0 t :=
  before_in0_of m (dats m 0 c) (A_eq m c 0) (after0 m c) t d
theorem before1 (c : Dev nD) (t : Fin cfg0.N) (d) : (dats m 0 c).before 1 t d = blockAt m c 1 t :=
  before_in1_of m (dats m 0 c) (A_eq m c 1) (after1 m c) t d
theorem before2 (c : Dev nD) (t : Fin cfg0.N) (d) : (dats m 0 c).before 2 t d = blockAt m c 2 t :=
  before_in2_of m (dats m 0 c) (A_eq m c 2) (after2 m c) t d
theorem before3 (c : Dev nD) (t : Fin cfg0.N) (d) : (dats m 0 c).before 3 t d = blockAt m c 3 t :=
  before_in3_of m (dats m 0 c) (A_eq m c 3) (after3 m c) t d
theorem before4 (c : Dev nD) (t : Fin cfg0.N) (d) : (dats m 0 c).before 4 t d = blockAt m c 4 t :=
  before_in4_of m (dats m 0 c) (A_eq m c 4) (after4 m c) t d
theorem before5 (c : Dev nD) (t : Fin cfg0.N) (d) : (dats m 0 c).before 5 t d = blockAt m c 5 t :=
  before_in5_of m (dats m 0 c) (A_eq m c 5) (after5 m c) t d
theorem before6 (c : Dev nD) (t : Fin cfg0.N) (d) : (dats m 0 c).before 6 t d = blockAt m c 6 t :=
  before_in6_of m (dats m 0 c) (A_eq m c 6) (after6 m c) t d
theorem before7 (c : Dev nD) (t : Fin cfg0.N) (d) : (dats m 0 c).before 7 t d = blockAt m c 7 t :=
  before_in7_of m (dats m 0 c) (A_eq m c 7) (after7 m c) t d

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl
theorem live5 : ∀ t : Fin cfg0.N, cfg0.idle 5 (grid0.coords t) = false := fun _ => rfl
theorem live6 : ∀ t : Fin cfg0.N, cfg0.idle 6 (grid0.coords t) = false := fun _ => rfl
theorem live7 : ∀ t : Fin cfg0.N, cfg0.idle 7 (grid0.coords t) = false := fun _ => rfl

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 4800000 in
/-- The body at any point: the inputs' memrefs hold their blocks; the closed forms say which case the point is in; the
    invariant hands the body the accumulator at what the point before left (at anything before the first point) and takes
    it back at this point's contents; away from k = 3 the output window's buffer is handed back untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).owesAt () t.succ = (dats m 0 c).owesAt () t.castSucc from rfl]
  rw [show (dats m 0 c).Φ t.succ = accInv m c (t.val + 1) t.isLt from rfl, accInv_succ]
  have hN : t.val < 64 := lt_of_lt_of_eq t.isLt (show cfg0.N = 64 from N_0)
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  rw [show (dats m 0 c).leavesExact 6 t = owns (c : Thread nD τ) (ms6 t) fullShare ((dats m 0 c).after 6 t) from by
    unfold Dat.leavesExact; rw [live6 t], after6]
  rw [show (dats m 0 c).leavesExact 7 t = owns (c : Thread nD τ) (ms7 t) fullShare ((dats m 0 c).after 7 t) from by
    unfold Dat.leavesExact; rw [live7 t], after7]
  by_cases h0 : t.val % 4 = 0
  · have h1 : ¬t.val % 4 = 3 := by omega
    rw [Dat.leavesExact_idle (dats m 0 c) 8 t (out_idle t (fun h => h1 ((isLast_iff t).mp h))) (out_noFlush t (fun h => h1 ((isLast_iff t).mp h)))]
    rw [outsAt_first m c t h0 h1]
    unfold accAfter_first; (try dsimp only)
    by_cases hz : t.val = 0
    ·
        rw [inv_castSucc m c t, accInv_zero m c _ _ hz, inv_eq]
        iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((runFirst c (grid0.coords t) _ _ _ _ _ _ _ _ _ _ _ _ _ _ _ _ _ _ _ _ ((isFirst_iff t).mpr h0) (fun h => h1 ((isLast_iff t).mp h)) (blockAt m c 0 t) (blockAt m c 1 t) (blockAt m c 2 t) (blockAt m c 3 t) (blockAt m c 4 t) (blockAt m c 5 t) (blockAt m c 6 t) (blockAt m c 7 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS]; · iexact HS
        iintro ⟨H0, H1, H2, H3, H4, H5, H6, H7, H8, ⟨%es, HS⟩⟩
        isplitl [HS Hg]
        · isplitl [HS]
          · unfold owns; iexists _; isplitr
            swap; · iexact HS
            ipureintro; exact View.read_writes_of_cover _ _ _ _ _ (accCover_first c _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8
    ·
        rw [inv_castSucc m c t, accInv_pos m c _ _ hz]
        iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((runFirst c (grid0.coords t) _ _ _ _ _ _ _ _ _ _ _ _ _ _ _ _ _ _ _ _ ((isFirst_iff t).mpr h0) (fun h => h1 ((isLast_iff t).mp h)) (blockAt m c 0 t) (blockAt m c 1 t) (blockAt m c 2 t) (blockAt m c 3 t) (blockAt m c 4 t) (blockAt m c 5 t) (blockAt m c 6 t) (blockAt m c 7 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS]; · iexists _; iexact HS
        iintro ⟨H0, H1, H2, H3, H4, H5, H6, H7, H8, ⟨%es, HS⟩⟩
        isplitl [HS Hg]
        · isplitl [HS]
          · unfold owns; iexists _; isplitr
            swap; · iexact HS
            ipureintro; exact View.read_writes_of_cover _ _ _ _ _ (accCover_first c _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8
  · have hz : t.val ≠ 0 := fun e => h0 (by rw [e])
    by_cases h1 : t.val % 4 = 3
    · rw [show (dats m 0 c).leavesExact 8 t = owns (c : Thread nD τ) (ms8 t) fullShare ((dats m 0 c).after 8 t) from by
        unfold Dat.leavesExact; rw [out_live t ((isLast_iff t).mpr h1)], after8]
      rw [outsAt_last m c t h0 h1]
      unfold outAfter_last accAfter_last; (try dsimp only)
      ·
        rw [inv_castSucc m c t, accInv_pos m c _ _ hz]
        iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((runLast c (grid0.coords t) _ _ _ _ _ _ _ _ _ _ _ _ _ _ _ _ _ _ _ _ (fun h => h0 ((isFirst_iff t).mp h)) ((isLast_iff t).mpr h1) (blockAt m c 0 t) (blockAt m c 1 t) (blockAt m c 2 t) (blockAt m c 3 t) (blockAt m c 4 t) (blockAt m c 5 t) (blockAt m c 6 t) (blockAt m c 7 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [HS]; · iexact HS
        iintro ⟨H0, H1, H2, H3, H4, H5, H6, H7, ⟨%e8, H8⟩, ⟨%es, HS⟩⟩
        isplitl [HS Hg]
        · isplitl [HS]
          · unfold owns; iexists _; isplitr
            swap; · iexact HS
            ipureintro; exact View.read_writes_of_cover _ _ _ _ _ (accCover_last c _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        unfold owns; iexists _; isplitr
        swap; · iexact H8
        ipureintro; exact View.read_writes_of_cover _ _ _ _ _ (outCover_last c _ _ _ _ _ _ _ _ _ _ _ _ _ _ _ _ _ _ _ _ _ _ _ _ _ _ _ _ _ _ _ _)
    · rw [Dat.leavesExact_idle (dats m 0 c) 8 t (out_idle t (fun h => h1 ((isLast_iff t).mp h))) (out_noFlush t (fun h => h1 ((isLast_iff t).mp h)))]
      rw [outsAt_mid m c t h0 h1]
      unfold accAfter_mid; (try dsimp only)
      ·
        rw [inv_castSucc m c t, accInv_pos m c _ _ hz]
        iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((runMid c (grid0.coords t) _ _ _ _ _ _ _ _ _ _ _ _ _ _ _ _ _ _ _ _ (fun h => h0 ((isFirst_iff t).mp h)) (fun h => h1 ((isLast_iff t).mp h)) (blockAt m c 0 t) (blockAt m c 1 t) (blockAt m c 2 t) (blockAt m c 3 t) (blockAt m c 4 t) (blockAt m c 5 t) (blockAt m c 6 t) (blockAt m c 7 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS]; · iexact HS
        iintro ⟨H0, H1, H2, H3, H4, H5, H6, H7, H8, ⟨%es, HS⟩⟩
        isplitl [HS Hg]
        · isplitl [HS]
          · unfold owns; iexists _; isplitr
            swap; · iexact HS
            ipureintro; exact View.read_writes_of_cover _ _ _ _ _ (accCover_mid c _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the call is the invariant before the first point. -/
theorem hin (c : Dev nD) : Pipeline.ΦA spec0 c ⊢ (dats m 0 c).Φ 0 := by
  rw [show (dats m 0 c).Φ 0 = accInv m c 0 (Nat.zero_le _) from rfl, accInv_zero m c 0 _ rfl]
  try exact Idealize.SL.BI.Entails.refl _

/-- After any point the invariant gives the accumulator back at some contents. -/
theorem inv_out (c : Dev nD) (t : Fin (cfg0.N + 1)) (ht : t.val ≠ 0) : (dats m 0 c).Φ t ⊢ Pipeline.ΦA spec0 c := by
  rw [show (dats m 0 c).Φ t = accInv m c t.val (Nat.le_of_lt_succ t.isLt) from rfl, accInv_pos m c _ _ ht, inv_eq]
  iintro ⟨HS, Hg⟩
  isplitl [HS]
  · iexists _; iexact HS
  iexact Hg

theorem hout (c : Dev nD) : (dats m 0 c).Φ (Fin.last cfg0.N) ⊢ Pipeline.ΦA spec0 c :=
  inv_out m c _ (by rw [Fin.val_last]; have : cfg0.N = 64 := N_0; omega)

/-! ## The run -/

set_option backward.isDefEq.respectTransparency.types false in
/-- Every weakly fair execution of @main terminates; every final state has each array of the call at what the
    proof data's blocks give and every other unscoped buffer as the host lines left it. -/
theorem run_main : θ_run defs (onTc (τ := τ) (main (F := F))) (s₀ m ρ) (Pipeline.FramePost cfgs (dats m) 0 (entry m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := entry m)
    (hmain := hmain m Variants.none) (hA := A_eq m) (hin := hin m) (hout := hout m)

/-- The run with the result array named and the arguments as launched. -/
theorem run_named : θ_run defs (onTc (τ := τ) (main (F := F))) ⟨m, fun _ => 0, ρ⟩ (fun r => ∀ c : Dev nD,
      r.2.mem ((c.tc : Thread nD τ).loc main_v4) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The frame: @main runs to the end, faults nowhere, and leaves its arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (run_named m ρ)

end Cert.KernelIdeal.Fr

end
-- ==== Proof.KI.Pieces.lean ====
/-
  What the three cases of the body leave, as the body's named payloads of the blocks it was handed.
  The accumulator after a point is ONE accumulation step `k0_pay2` of the mask block, of rows 2048 k .. 2048 k + 2047
  of the augmented features, and of the accumulator's previous contents — the cleared value `k0_pay1` at k = 0, what the
  point before left otherwise.  At k = 3 the stored block is the epilogue `k0_pay3 ∘ k0_pay4` of the updated accumulator,
  of rows 512 i .. 512 i + 511 of the features, of the weights and biases, the combining matrix read as its top and
  bottom halves.
-/
import proofs.«170365_j773094114149_2_alg».proof.Proof.KI.Frame
import Idealize.ShloMosaic.Lib.Pipeline.Value

-- membership in a rectangle of these extents recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem zz2 : (![0, 0] : Fin 2 → Nat) = fun _ => 0 := funext fun a => by fin_cases a <;> rfl
theorem zz1 : (![0] : Fin 1 → Nat) = fun _ => 0 := funext fun a => by fin_cases a <;> rfl

/-- Rows `2048 k ..` of the augmented features: what the body loads at grid point `i = (·, k)`. -/
abbrev chunk (x1 : Vec F S8192x640 .bf16) (i : grid0.Coords) : Vec F S2048x640 .bf16 :=
  View.ld x1 (Rect.unit (s := S8192x640) (k0_off1 i) S2048x640.size (k0_off1_inb i))
/-- Rows `512 i ..`, columns below 512, of the augmented features: the block's own features. -/
abbrev selfRows (x1 : Vec F S8192x640 .bf16) (i : grid0.Coords) (h : isLast i) : Vec F S512x512 .bf16 :=
  View.ld x1 (Rect.unit (s := S8192x640) (k0_off2 i) S512x512.size (k0_off2_inb i h))
/-- The top half of the combining matrix. -/
abbrev topHalf (x6 : Vec F S1024x512 .f32) : Vec F S512x512 .f32 :=
  View.ld x6 (Rect.unit (s := S1024x512) ![0, 0] S512x512.size inb_S1024x512_S512x512_0_0)
/-- Its bottom half. -/
abbrev lowHalf (x6 : Vec F S1024x512 .f32) : Vec F S512x512 .f32 :=
  View.ld x6 (Rect.unit (s := S1024x512) ![512, 0] S512x512.size inb_S1024x512_S512x512_512_0)

theorem accAfter_first_eq (c : Dev nD) (i : grid0.Coords) (arg2 : Memref sig .tc .vmem S512x2048 .i32) (harg2 : arg2.IsWhole) (arg3 : Memref sig .tc .vmem S8192x640 .bf16) (harg3 : arg3.IsWhole) (arg4 : Memref sig .tc .vmem S512x512 .f32) (harg4 : arg4.IsWhole) (arg5 : Memref sig .tc .vmem S512 .f32) (harg5 : arg5.IsWhole) (arg6 : Memref sig .tc .vmem S512x512 .f32) (harg6 : arg6.IsWhole) (arg7 : Memref sig .tc .vmem S512 .f32) (harg7 : arg7.IsWhole) (arg8 : Memref sig .tc .vmem S1024x512 .f32) (harg8 : arg8.IsWhole) (arg9 : Memref sig .tc .vmem S512 .f32) (harg9 : arg9.IsWhole) (arg10 : Memref sig .tc .vmem S512x512 .f32) (harg10 : arg10.IsWhole) (arg11 : Memref sig .tc .vmem S512x640 .f32) (harg11 : arg11.IsWhole) (hc0 : isFirst i) (hc1 : ¬isLast i) (x0 : Vec F S512x2048 .i32) (x1 : Vec F S8192x640 .bf16) (x2 : Vec F S512x512 .f32) (x3 : Vec F S512 .f32) (x4 : Vec F S512x512 .f32) (x5 : Vec F S512 .f32) (x6 : Vec F S1024x512 .f32) (x7 : Vec F S512 .f32) :
    accAfter_first c i arg2 harg2 arg3 harg3 arg4 harg4 arg5 harg5 arg6 harg6 arg7 harg7 arg8 harg8 arg9 harg9 arg10 harg10 arg11 harg11 hc0 hc1 x0 x1 x2 x3 x4 x5 x6 x7 = k0_pay2 x0 (chunk x1 i) (k0_pay1 (F := F)) := by
  unfold accAfter_first
  rw [View.read_writes_eq_canon _ _ _ (accCover_first c i arg2 harg2 arg3 harg3 arg4 harg4 arg5 harg5 arg6 harg6 arg7 harg7 arg8 harg8 arg9 harg9 arg10 harg10 arg11 harg11 hc0 hc1 x0 x1 x2 x3 x4 x5 x6 x7)]
  unfold runFirst; dsimp only; sl_unfold_words
  rw [View.canon_cons_unit_zero (S := S512x640) zz2, View.readCov_unit_zero (S := S512x640) _ zz2]
  simp only [View.readAt_eq_ld, Memref.IsWhole.read_unread, View.ld_unit_zero (S := S512x2048) zz2]
  try rfl

theorem accAfter_mid_eq (c : Dev nD) (i : grid0.Coords) (arg2 : Memref sig .tc .vmem S512x2048 .i32) (harg2 : arg2.IsWhole) (arg3 : Memref sig .tc .vmem S8192x640 .bf16) (harg3 : arg3.IsWhole) (arg4 : Memref sig .tc .vmem S512x512 .f32) (harg4 : arg4.IsWhole) (arg5 : Memref sig .tc .vmem S512 .f32) (harg5 : arg5.IsWhole) (arg6 : Memref sig .tc .vmem S512x512 .f32) (harg6 : arg6.IsWhole) (arg7 : Memref sig .tc .vmem S512 .f32) (harg7 : arg7.IsWhole) (arg8 : Memref sig .tc .vmem S1024x512 .f32) (harg8 : arg8.IsWhole) (arg9 : Memref sig .tc .vmem S512 .f32) (harg9 : arg9.IsWhole) (arg10 : Memref sig .tc .vmem S512x512 .f32) (harg10 : arg10.IsWhole) (arg11 : Memref sig .tc .vmem S512x640 .f32) (harg11 : arg11.IsWhole) (hc0 : ¬isFirst i) (hc1 : ¬isLast i) (x0 : Vec F S512x2048 .i32) (x1 : Vec F S8192x640 .bf16) (x2 : Vec F S512x512 .f32) (x3 : Vec F S512 .f32) (x4 : Vec F S512x512 .f32) (x5 : Vec F S512 .f32) (x6 : Vec F S1024x512 .f32) (x7 : Vec F S512 .f32) (xs : Vec F S512x640 .f32) :
    accAfter_mid c i arg2 harg2 arg3 harg3 arg4 harg4 arg5 harg5 arg6 harg6 arg7 harg7 arg8 harg8 arg9 harg9 arg10 harg10 arg11 harg11 hc0 hc1 x0 x1 x2 x3 x4 x5 x6 x7 xs = k0_pay2 x0 (chunk x1 i) xs := by
  unfold accAfter_mid
  rw [View.read_writes_eq_canon _ _ _ (accCover_mid c i arg2 harg2 arg3 harg3 arg4 harg4 arg5 harg5 arg6 harg6 arg7 harg7 arg8 harg8 arg9 harg9 arg10 harg10 arg11 harg11 hc0 hc1 x0 x1 x2 x3 x4 x5 x6 x7 xs)]
  unfold runMid; dsimp only; sl_unfold_words
  rw [View.canon_unit_zero (S := S512x640) zz2]
  simp only [View.readAt_eq_ld, Memref.IsWhole.read_unread, View.ld_unit_zero (S := S512x2048) zz2, View.ld_unit_zero (S := S512x640) zz2]
  try rfl

theorem accAfter_last_eq (c : Dev nD) (i : grid0.Coords) (arg2 : Memref sig .tc .vmem S512x2048 .i32) (harg2 : arg2.IsWhole) (arg3 : Memref sig .tc .vmem S8192x640 .bf16) (harg3 : arg3.IsWhole) (arg4 : Memref sig .tc .vmem S512x512 .f32) (harg4 : arg4.IsWhole) (arg5 : Memref sig .tc .vmem S512 .f32) (harg5 : arg5.IsWhole) (arg6 : Memref sig .tc .vmem S512x512 .f32) (harg6 : arg6.IsWhole) (arg7 : Memref sig .tc .vmem S512 .f32) (harg7 : arg7.IsWhole) (arg8 : Memref sig .tc .vmem S1024x512 .f32) (harg8 : arg8.IsWhole) (arg9 : Memref sig .tc .vmem S512 .f32) (harg9 : arg9.IsWhole) (arg10 : Memref sig .tc .vmem S512x512 .f32) (harg10 : arg10.IsWhole) (arg11 : Memref sig .tc .vmem S512x640 .f32) (harg11 : arg11.IsWhole) (hc0 : ¬isFirst i) (hc1 : isLast i) (x0 : Vec F S512x2048 .i32) (x1 : Vec F S8192x640 .bf16) (x2 : Vec F S512x512 .f32) (x3 : Vec F S512 .f32) (x4 : Vec F S512x512 .f32) (x5 : Vec F S512 .f32) (x6 : Vec F S1024x512 .f32) (x7 : Vec F S512 .f32) (xs : Vec F S512x640 .f32) :
    accAfter_last c i arg2 harg2 arg3 harg3 arg4 harg4 arg5 harg5 arg6 harg6 arg7 harg7 arg8 harg8 arg9 harg9 arg10 harg10 arg11 harg11 hc0 hc1 x0 x1 x2 x3 x4 x5 x6 x7 xs = k0_pay2 x0 (chunk x1 i) xs := by
  unfold accAfter_last
  rw [View.read_writes_eq_canon _ _ _ (accCover_last c i arg2 harg2 arg3 harg3 arg4 harg4 arg5 harg5 arg6 harg6 arg7 harg7 arg8 harg8 arg9 harg9 arg10 harg10 arg11 harg11 hc0 hc1 x0 x1 x2 x3 x4 x5 x6 x7 xs)]
  unfold runLast; dsimp only; sl_unfold_words
  rw [View.canon_unit_zero (S := S512x640) zz2]
  simp only [View.readAt_eq_ld, Memref.IsWhole.read_unread, View.ld_unit_zero (S := S512x2048) zz2, View.ld_unit_zero (S := S512x640) zz2]
  try rfl

theorem outAfter_last_eq (c : Dev nD) (i : grid0.Coords) (arg2 : Memref sig .tc .vmem S512x2048 .i32) (harg2 : arg2.IsWhole) (arg3 : Memref sig .tc .vmem S8192x640 .bf16) (harg3 : arg3.IsWhole) (arg4 : Memref sig .tc .vmem S512x512 .f32) (harg4 : arg4.IsWhole) (arg5 : Memref sig .tc .vmem S512 .f32) (harg5 : arg5.IsWhole) (arg6 : Memref sig .tc .vmem S512x512 .f32) (harg6 : arg6.IsWhole) (arg7 : Memref sig .tc .vmem S512 .f32) (harg7 : arg7.IsWhole) (arg8 : Memref sig .tc .vmem S1024x512 .f32) (harg8 : arg8.IsWhole) (arg9 : Memref sig .tc .vmem S512 .f32) (harg9 : arg9.IsWhole) (arg10 : Memref sig .tc .vmem S512x512 .f32) (harg10 : arg10.IsWhole) (arg11 : Memref sig .tc .vmem S512x640 .f32) (harg11 : arg11.IsWhole) (hc0 : ¬isFirst i) (hc1 : isLast i) (x0 : Vec F S512x2048 .i32) (x1 : Vec F S8192x640 .bf16) (x2 : Vec F S512x512 .f32) (x3 : Vec F S512 .f32) (x4 : Vec F S512x512 .f32) (x5 : Vec F S512 .f32) (x6 : Vec F S1024x512 .f32) (x7 : Vec F S512 .f32) (xs : Vec F S512x640 .f32) :
    outAfter_last c i arg2 harg2 arg3 harg3 arg4 harg4 arg5 harg5 arg6 harg6 arg7 harg7 arg8 harg8 arg9 harg9 arg10 harg10 arg11 harg11 hc0 hc1 x0 x1 x2 x3 x4 x5 x6 x7 xs
      = k0_pay3 (k0_pay4 (k0_pay2 x0 (chunk x1 i) xs) (selfRows x1 i hc1) x2 x3 x4 x5 (topHalf x6) (lowHalf x6) x7) := by
  unfold outAfter_last
  rw [View.read_writes_eq_canon _ _ _ (outCover_last c i arg2 harg2 arg3 harg3 arg4 harg4 arg5 harg5 arg6 harg6 arg7 harg7 arg8 harg8 arg9 harg9 arg10 harg10 arg11 harg11 hc0 hc1 x0 x1 x2 x3 x4 x5 x6 x7 xs)]
  unfold runLast; dsimp only; sl_unfold_words
  rw [View.canon_unit_zero (S := S512x512) zz2]
  simp only [View.readAt_eq_ld, Memref.IsWhole.read_unread, View.readCov_unit_zero (S := S512x640) _ zz2,
    View.ld_unit_zero (S := S512x2048) zz2, View.ld_unit_zero (S := S512x640) zz2, View.ld_unit_zero (S := S512x512) zz2,
    View.ld_unit_zero (S := S512) zz1]
  try rfl

end Cert.KernelIdeal.Fr

end
-- ==== Proof.KI.Blocks.lean ====
/-
  Where the blocks the body is handed sit in the arrays.  Point t of the 64 is (i, k) = (t / 4, t % 4).  The mask window's
  block is rows 512 i .. 512 i + 511, columns 2048 k .. 2048 k + 2047 of the adjacency matrix; the other seven input
  windows stage their whole arrays; the body's own loads cut rows 2048 k .. (the chunk) and rows 512 i .. (the block's own
  features) out of the augmented matrix and the two halves out of the combining matrix.
-/
import proofs.«170365_j773094114149_2_alg».proof.Proof.KI.Pieces
import Idealize.ShloMosaic.Lib.ValueIdx

-- membership in a rectangle of these extents recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- The grid coordinates and the windows' block indices, decided over the 64 points. -/
theorem grid_facts : ∀ t : Fin cfg0.N,
    ((grid0.coords t) 0).val = t.val / 4 ∧ ((grid0.coords t) 1).val = t.val % 4
    ∧ win0_0.index t (0 : Fin 2) = t.val / 4 ∧ win0_0.index t (1 : Fin 2) = t.val % 4
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = t.val / 4 ∧ win0_8.index t (1 : Fin 2) = 0 :=
  (by decide +kernel : ∀ t : Fin grid0.N, _)

/-- The body's two computed row offsets at point t. -/
theorem off_facts (t : Fin cfg0.N) : k0_off1 (grid0.coords t) = ![2048 * (t.val % 4), 0] ∧ k0_off2 (grid0.coords t) = ![512 * (t.val / 4), 0] := by
  obtain ⟨g0, g1, -⟩ := grid_facts t
  refine ⟨?_, ?_⟩
  · rw [k0_off1_eq, g1]
  · rw [k0_off2_eq, g0]

/-- The mask window's block, entry by entry. -/
theorem block0_apply (c : Dev nD) (t : Fin cfg0.N) (r : Fin 512) (j : Fin 2048) :
    (blockAt m c 0 t : S512x2048.Idx → Elt F _) (ix2 r j)
      = (entry m c main_arg1 : S8192x8192.Idx → Elt F _) (ix2 (⟨512 * (t.val / 4) + r.val, by have := t.isLt; have : cfg0.N = 64 := N_0; omega⟩ : Fin 8192) (⟨2048 * (t.val % 4) + j.val, by omega⟩ : Fin 8192)) := by
  show entry m c main_arg1 (((cfg0.win 0).blk t).view.emb (ix2 r j)) = _
  refine congrArg _ ?_
  obtain ⟨-, -, e0, e1, -⟩ := grid_facts t
  funext a; apply Fin.ext
  match a with
  | ⟨0, _⟩ => show win0_0.index t (0 : Fin 2) * 512 + 1 * r.val = 512 * (t.val / 4) + r.val; omega
  | ⟨1, _⟩ => show win0_0.index t (1 : Fin 2) * 2048 + 1 * j.val = 2048 * (t.val % 4) + j.val; omega

/-- Window 1 stages its whole array at every point. -/
theorem block1_eq (c : Dev nD) (t : Fin cfg0.N) : (blockAt m c 1 t : S8192x640.Idx → Elt F _) = (entry m c main_v3 : S8192x640.Idx → Elt F _) := by
  funext y
  show entry m c main_v3 (((cfg0.win 1).blk t).view.emb y) = entry m c main_v3 y
  refine congrArg _ ?_
  obtain ⟨-, -, -, -, e10, e11, e20, e21, e30, e40, e41, e50, e60, e61, e70, -, -⟩ := grid_facts t
  funext a; apply Fin.ext
  match a with
    | ⟨0, _⟩ => show win0_1.index t (0 : Fin 2) * 8192 + 1 * (y 0).val = (y 0).val; omega
    | ⟨1, _⟩ => show win0_1.index t (1 : Fin 2) * 640 + 1 * (y 1).val = (y 1).val; omega

/-- Window 2 stages its whole array at every point. -/
theorem block2_eq (c : Dev nD) (t : Fin cfg0.N) : (blockAt m c 2 t : S512x512.Idx → Elt F _) = (entry m c main_arg2 : S512x512.Idx → Elt F _) := by
  funext y
  show entry m c main_arg2 (((cfg0.win 2).blk t).view.emb y) = entry m c main_arg2 y
  refine congrArg _ ?_
  obtain ⟨-, -, -, -, e10, e11, e20, e21, e30, e40, e41, e50, e60, e61, e70, -, -⟩ := grid_facts t
  funext a; apply Fin.ext
  match a with
    | ⟨0, _⟩ => show win0_2.index t (0 : Fin 2) * 512 + 1 * (y 0).val = (y 0).val; omega
    | ⟨1, _⟩ => show win0_2.index t (1 : Fin 2) * 512 + 1 * (y 1).val = (y 1).val; omega

/-- Window 3 stages its whole array at every point. -/
theorem block3_eq (c : Dev nD) (t : Fin cfg0.N) : (blockAt m c 3 t : S512.Idx → Elt F _) = (entry m c main_arg3 : S512.Idx → Elt F _) := by
  funext y
  show entry m c main_arg3 (((cfg0.win 3).blk t).view.emb y) = entry m c main_arg3 y
  refine congrArg _ ?_
  obtain ⟨-, -, -, -, e10, e11, e20, e21, e30, e40, e41, e50, e60, e61, e70, -, -⟩ := grid_facts t
  funext a; apply Fin.ext
  match a with
    | ⟨0, _⟩ => show win0_3.index t (0 : Fin 1) * 512 + 1 * (y 0).val = (y 0).val; omega

/-- Window 4 stages its whole array at every point. -/
theorem block4_eq (c : Dev nD) (t : Fin cfg0.N) : (blockAt m c 4 t : S512x512.Idx → Elt F _) = (entry m c main_arg4 : S512x512.Idx → Elt F _) := by
  funext y
  show entry m c main_arg4 (((cfg0.win 4).blk t).view.emb y) = entry m c main_arg4 y
  refine congrArg _ ?_
  obtain ⟨-, -, -, -, e10, e11, e20, e21, e30, e40, e41, e50, e60, e61, e70, -, -⟩ := grid_facts t
  funext a; apply Fin.ext
  match a with
    | ⟨0, _⟩ => show win0_4.index t (0 : Fin 2) * 512 + 1 * (y 0).val = (y 0).val; omega
    | ⟨1, _⟩ => show win0_4.index t (1 : Fin 2) * 512 + 1 * (y 1).val = (y 1).val; omega

/-- Window 5 stages its whole array at every point. -/
theorem block5_eq (c : Dev nD) (t : Fin cfg0.N) : (blockAt m c 5 t : S512.Idx → Elt F _) = (entry m c main_arg5 : S512.Idx → Elt F _) := by
  funext y
  show entry m c main_arg5 (((cfg0.win 5).blk t).view.emb y) = entry m c main_arg5 y
  refine congrArg _ ?_
  obtain ⟨-, -, -, -, e10, e11, e20, e21, e30, e40, e41, e50, e60, e61, e70, -, -⟩ := grid_facts t
  funext a; apply Fin.ext
  match a with
    | ⟨0, _⟩ => show win0_5.index t (0 : Fin 1) * 512 + 1 * (y 0).val = (y 0).val; omega

/-- Window 6 stages its whole array at every point. -/
theorem block6_eq (c : Dev nD) (t : Fin cfg0.N) : (blockAt m c 6 t : S1024x512.Idx → Elt F _) = (entry m c main_arg6 : S1024x512.Idx → Elt F _) := by
  funext y
  show entry m c main_arg6 (((cfg0.win 6).blk t).view.emb y) = entry m c main_arg6 y
  refine congrArg _ ?_
  obtain ⟨-, -, -, -, e10, e11, e20, e21, e30, e40, e41, e50, e60, e61, e70, -, -⟩ := grid_facts t
  funext a; apply Fin.ext
  match a with
    | ⟨0, _⟩ => show win0_6.index t (0 : Fin 2) * 1024 + 1 * (y 0).val = (y 0).val; omega
    | ⟨1, _⟩ => show win0_6.index t (1 : Fin 2) * 512 + 1 * (y 1).val = (y 1).val; omega

/-- Window 7 stages its whole array at every point. -/
theorem block7_eq (c : Dev nD) (t : Fin cfg0.N) : (blockAt m c 7 t : S512.Idx → Elt F _) = (entry m c main_arg7 : S512.Idx → Elt F _) := by
  funext y
  show entry m c main_arg7 (((cfg0.win 7).blk t).view.emb y) = entry m c main_arg7 y
  refine congrArg _ ?_
  obtain ⟨-, -, -, -, e10, e11, e20, e21, e30, e40, e41, e50, e60, e61, e70, -, -⟩ := grid_facts t
  funext a; apply Fin.ext
  match a with
    | ⟨0, _⟩ => show win0_7.index t (0 : Fin 1) * 512 + 1 * (y 0).val = (y 0).val; omega

/-- The chunk of the augmented features loaded at point t, entry by entry. -/
theorem chunk_apply (x1 : Vec F S8192x640 .bf16) (t : Fin cfg0.N) (j : Fin 2048) (col : Fin 640) :
    chunk x1 (grid0.coords t) (ix2 j col) = x1 (ix2 (⟨2048 * (t.val % 4) + j.val, by omega⟩ : Fin 8192) col) := by
  show x1 ((Rect.unit (s := S8192x640) (k0_off1 (grid0.coords t)) S2048x640.size (k0_off1_inb (grid0.coords t))).idx (ix2 j col)) = _
  refine congrArg _ ?_
  have h := (off_facts t).1
  funext a; apply Fin.ext
  match a with
  | ⟨0, _⟩ => show (k0_off1 (grid0.coords t)) 0 + 1 * j.val = 2048 * (t.val % 4) + j.val; rw [h]; show 2048 * (t.val % 4) + 1 * j.val = _; omega
  | ⟨1, _⟩ => show (k0_off1 (grid0.coords t)) 1 + 1 * col.val = col.val; rw [h]; show 0 + 1 * col.val = _; omega

/-- The block's own rows of the augmented features, entry by entry. -/
theorem selfRows_apply (x1 : Vec F S8192x640 .bf16) (t : Fin cfg0.N) (h : isLast (grid0.coords t)) (r : Fin 512) (e : Fin 512) :
    selfRows x1 (grid0.coords t) h (ix2 r e)
      = x1 (ix2 (⟨512 * (t.val / 4) + r.val, by have := t.isLt; have : cfg0.N = 64 := N_0; omega⟩ : Fin 8192) (⟨e.val, by omega⟩ : Fin 640)) := by
  show x1 ((Rect.unit (s := S8192x640) (k0_off2 (grid0.coords t)) S512x512.size (k0_off2_inb (grid0.coords t) h)).idx (ix2 r e)) = _
  refine congrArg _ ?_
  have h2 := (off_facts t).2
  funext a; apply Fin.ext
  match a with
  | ⟨0, _⟩ => show (k0_off2 (grid0.coords t)) 0 + 1 * r.val = 512 * (t.val / 4) + r.val; rw [h2]; show 512 * (t.val / 4) + 1 * r.val = _; omega
  | ⟨1, _⟩ => show (k0_off2 (grid0.coords t)) 1 + 1 * e.val = e.val; rw [h2]; show 0 + 1 * e.val = _; omega

/-- The halves of the combining matrix, entry by entry. -/
theorem topHalf_apply (x6 : Vec F S1024x512 .f32) (d o : Fin 512) :
    topHalf x6 (ix2 d o) = x6 (ix2 (⟨d.val, by omega⟩ : Fin 1024) o) := by
  show x6 ((Rect.unit (s := S1024x512) ![0, 0] S512x512.size inb_S1024x512_S512x512_0_0).idx (ix2 d o)) = _
  refine congrArg _ ?_
  funext a; apply Fin.ext
  match a with
  | ⟨0, _⟩ => show 0 + 1 * d.val = d.val; omega
  | ⟨1, _⟩ => show 0 + 1 * o.val = o.val; omega

theorem lowHalf_apply (x6 : Vec F S1024x512 .f32) (d o : Fin 512) :
    lowHalf x6 (ix2 d o) = x6 (ix2 (⟨512 + d.val, by omega⟩ : Fin 1024) o) := by
  show x6 ((Rect.unit (s := S1024x512) ![512, 0] S512x512.size inb_S1024x512_S512x512_512_0).idx (ix2 d o)) = _
  refine congrArg _ ?_
  funext a; apply Fin.ext
  match a with
  | ⟨0, _⟩ => show 512 + 1 * d.val = 512 + d.val; omega
  | ⟨1, _⟩ => show 0 + 1 * o.val = o.val; omega

end Cert.KernelIdeal.Fr

end
-- ==== Proof.KI.Aug.lean ====
/-
  The augmented feature matrix the host lines build before the call, one entry at a time on the extended reals:
  [x | 1 | 0] — column c < 512 of row r is x[r, c] (the change of float format is the identity), column 512 is 1, the
  remaining 127 columns are 0.
-/
import proofs.«170365_j773094114149_2_alg».proof.Proof.KI.Runs
import Idealize.ShloMosaic.Lib.Pipeline.Value
import Idealize.ShloMosaic.Lib.ValueIdx
import Idealize.ShloMosaic.Lib.ValueLayout
import Idealize.ShloMosaic.Lib.StableHlo.Run
import Idealize.ShloMosaic.Lib.IdealHost

-- membership in a rectangle of these extents recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ)

/-- The augmented features as the call finds them, as a function of its index. -/
abbrev augArr (c : Dev nD) : S8192x640.Idx → EReal := entry (F := Ideal) m c main_v3
/-- The features as launched. -/
abbrev xArr (c : Dev nD) : S8192x512.Idx → EReal := m ((c : Thread nD τ).loc main_arg0)

/-- The augmented features are the concatenation along the columns of three pieces: x in the narrower float format,
    the constant one in a single column, and the constant zero in 127 columns. -/
theorem augArr_eq_concat (c : Dev nD) : (entry (F := Ideal) m c main_v3 : S8192x640.Idx → EReal) = concatenate S8192x640 1 [⟨S8192x512, truncf .bf16 (xArr m c) bitsLt_bf16_f32⟩, ⟨S8192x1, broadcastInDim S8192x1 ![] bcast_S_S8192x1 (constant (F := Ideal) S_ .bf16 0x3F80#16)⟩, ⟨S8192x127, broadcastInDim S8192x127 ![] bcast_S_S8192x127 (constant (F := Ideal) S_ .bf16 0x0000#16)⟩] concatenates_S8192x512_S8192x1_S8192x127_S8192x640_d1 := by
  dsimp only [entry, hostOps0]; after_results; rfl

/-- A column below 512 lies in the first piece, at the same row and column; the change of float format is the
    identity on the extended reals. -/
theorem aug_feat (c : Dev nD) (row : Fin 8192) (col : Fin 640) (h : col.val < 512) :
    augArr m c (ix2 row col) = xArr m c (ix2 row ⟨col.val, h⟩) := by
  show (entry (F := Ideal) m c main_v3 : S8192x640.Idx → EReal) (ix2 row col) = _
  rw [augArr_eq_concat m c]
  rw [concatenate_apply_piece (1 : Fin S8192x640.rank) _ _ (ix2 row col) 0 (by simp) S8192x512 _ rfl rfl 0 (by simp)
    (ix2 row ⟨col.val, h⟩)
    (fun b hb => by
      match b with
      | ⟨0, _⟩ => rfl
      | ⟨1, _⟩ => exact absurd rfl hb)
    (by show 0 + col.val = col.val; omega)]
  rfl

/-- Column 512 is the second piece's only column (512 columns precede it): the constant one. -/
theorem aug_one (c : Dev nD) (row : Fin 8192) (col : Fin 640) (h : col.val = 512) :
    augArr m c (ix2 row col) = 1 := by
  show (entry (F := Ideal) m c main_v3 : S8192x640.Idx → EReal) (ix2 row col) = _
  rw [augArr_eq_concat m c]
  rw [concatenate_apply_piece (1 : Fin S8192x640.rank) _ _ (ix2 row col) 1 (by simp) S8192x1 _ rfl rfl 512 (by simp)
    (ix2 row (0 : Fin 1))
    (fun b hb => by
      match b with
      | ⟨0, _⟩ => rfl
      | ⟨1, _⟩ => exact absurd rfl hb)
    (by show 512 + 0 = col.val; omega)]
  rw [broadcastInDim_scalar_apply, constant_apply, Ideal.ofBits_one_bf16]

/-- A column above 512 lies in the third piece (513 columns precede it), at column col - 513: the constant zero. -/
theorem aug_zero (c : Dev nD) (row : Fin 8192) (col : Fin 640) (h : 512 < col.val) :
    augArr m c (ix2 row col) = 0 := by
  have hc : col.val - 513 < 127 := by have := col.isLt; omega
  show (entry (F := Ideal) m c main_v3 : S8192x640.Idx → EReal) (ix2 row col) = _
  rw [augArr_eq_concat m c]
  rw [concatenate_apply_piece (1 : Fin S8192x640.rank) _ _ (ix2 row col) 2 (by simp) S8192x127 _ rfl rfl 513 (by simp)
    (ix2 row ⟨col.val - 513, hc⟩)
    (fun b hb => by
      match b with
      | ⟨0, _⟩ => rfl
      | ⟨1, _⟩ => exact absurd rfl hb)
    (by show 513 + (col.val - 513) = col.val; omega)]
  rw [broadcastInDim_scalar_apply, constant_apply, Ideal.ofBits_zero_bf16]

end Cert.KernelIdeal.Fr

end
-- ==== Proof.Spec.lean ====
/-
  The GraphSAGE layer as ONE function of the argument arrays, index by index, on the extended reals.

  With e(i, j) = 1 if the adjacency word adj[i, j] is positive (read signed) and 0 otherwise:
    deg i      = Σ_j e(i, j)
    agg i d    = (Σ_j e(i, j) · x[j, d]) / max (deg i) 1
    self i o   = Σ_d x[i, d] · W_self[d, o] + b_self[o]
    nb i o     = Σ_d agg i d · W_nb[d, o] + b_nb[o]
    out i o    = max ((Σ_d self i d · W_comb[d, o] + Σ_d nb i d · W_comb[512 + d, o]) + b_comb[o]) 0
  The two halves of W_comb are summed apart, as the kernel applies them; the reference contracts the concatenation
  [self | nb] against W_comb in one sum of 1024 terms, which is the same number (addition of extended reals is
  commutative and associative, so a finite sum may be cut anywhere).
-/
import Idealize.ShloMosaic.PureOps.Ideal
import Idealize.ShloMosaic.Lib.ValueIdx

noncomputable section

open scoped BigOperators

namespace Cert.Spec

open Idealize.ShloMosaic Idealize.ShloMosaic.ValueIdx

abbrev SNxD : Shape := ⟨2, ![8192, 512]⟩
abbrev SNxN : Shape := ⟨2, ![8192, 8192]⟩
abbrev SDxD : Shape := ⟨2, ![512, 512]⟩
abbrev SD : Shape := ⟨1, ![512]⟩
abbrev S2DxD : Shape := ⟨2, ![1024, 512]⟩

/-- The edge indicator of one adjacency word: 1 if it is positive as a signed integer, else 0. -/
def edge (a : BitVec 32) : EReal := (((Scalar.cmpi .sgt a 0#32).toNat : ℝ) : EReal)

variable (x : SNxD.Idx → EReal) (adj : SNxN.Idx → BitVec 32)
  (Ws : SDxD.Idx → EReal) (bs : SD.Idx → EReal) (Wn : SDxD.Idx → EReal) (bn : SD.Idx → EReal)
  (Wc : S2DxD.Idx → EReal) (bc : SD.Idx → EReal)

/-- The number of neighbours of node `i`. -/
def deg (i : Fin 8192) : EReal := ∑ j : Fin 8192, edge (adj (ix2 i j))

/-- The sum of the neighbours' features. -/
def nbSum (i : Fin 8192) (d : Fin 512) : EReal := ∑ j : Fin 8192, edge (adj (ix2 i j)) * x (ix2 j d)

/-- Their mean (the sum itself for a node without neighbours). -/
def agg (i : Fin 8192) (d : Fin 512) : EReal := Ideal.div (nbSum x adj i d) (max (deg adj i) 1)

/-- The self branch. -/
def selfF (i : Fin 8192) (o : Fin 512) : EReal := (∑ d : Fin 512, x (ix2 i d) * Ws (ix2 d o)) + bs (ix1 o)

/-- The neighbour branch. -/
def nbF (i : Fin 8192) (o : Fin 512) : EReal := (∑ d : Fin 512, agg x adj i d * Wn (ix2 d o)) + bn (ix1 o)

/-- Row `512 + d` of the combining matrix. -/
abbrev lowRow (d : Fin 512) : Fin 1024 := ⟨512 + d.val, by omega⟩
/-- Row `d` of the combining matrix. -/
abbrev topRow (d : Fin 512) : Fin 1024 := ⟨d.val, by omega⟩

/-- The layer's output before the rectifier. -/
def pre (i : Fin 8192) (o : Fin 512) : EReal :=
  ((∑ d : Fin 512, selfF x Ws bs i d * Wc (ix2 (topRow d) o))
    + (∑ d : Fin 512, nbF x adj Wn bn i d * Wc (ix2 (lowRow d) o))) + bc (ix1 o)

/-- The layer. -/
def layer : SNxD.Idx → EReal := fun j => max (pre x adj Ws bs Wn bn Wc bc (j 0) (j 1)) 0

end Cert.Spec

end
-- ==== Proof.Payloads.lean ====
/-
  The body's arithmetic, read one entry at a time on the extended reals (a change of float format is the identity there).
  * The clearing value is 0 everywhere.
  * One accumulation step: entry (r, c) of the new accumulator is the old entry plus the sum over the 2048 columns j of the
    mask block of e(mask word (r, j)) times entry (j, c) of the 2048 x 640 chunk of the augmented features — the matrix
    unit's product into a zero accumulator is the plain sum of products, and the mask entry (a comparison bit widened to a
    word and read as a signed integer) is the edge indicator.
  * The epilogue: entry (r, o) of the stored block is max(·, 0) of
      Σ_d (Σ_e xs(r, e) · Wself(e, d) + bself d) · Wtop(d, o)
      + Σ_d (Σ_e (acc(r, e) / max(acc(r, 512), 1)) · Wnb(e, d) + bnb d) · Wlow(d, o)  + bcomb o,
    where column 512 of the accumulator is the degree.
-/
import proofs.«170365_j773094114149_2_alg».proof.Proof.Gen.KernelIdeal.Skeleton
import proofs.«170365_j773094114149_2_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-- Column `e < 512` of the 640-wide accumulator. -/
abbrev featCol (e : Fin 512) : Fin 640 := ⟨e.val, by omega⟩
/-- The degree column. -/
abbrev degCol : Fin 640 := ⟨512, by omega⟩

/-! ## The two products' operand indices, axis by axis -/

theorem lhs_acc_0 (i : S512x640.Idx) (q : dot_S512x2048_S2048x640_S512x640_1_0_0_1_n_n.contr.Idx) :
    (dot_S512x2048_S2048x640_S512x640_1_0_0_1_n_n.lhsIdx i q 0).val = (i 0).val := by
  unfold DotDims.lhsIdx
  rw [dif_neg (show ¬(0 : Fin S512x2048.rank) ∈ dot_S512x2048_S2048x640_S512x640_1_0_0_1_n_n.lhsBatch by decide), dif_pos (show (0 : Fin S512x2048.rank) ∈ dot_S512x2048_S2048x640_S512x640_1_0_0_1_n_n.lhsNonContracting by decide)]
  rfl
theorem lhs_acc_1 (i : S512x640.Idx) (q : dot_S512x2048_S2048x640_S512x640_1_0_0_1_n_n.contr.Idx) :
    (dot_S512x2048_S2048x640_S512x640_1_0_0_1_n_n.lhsIdx i q 1).val = (q ⟨0, by decide⟩).val :=
  dot_S512x2048_S2048x640_S512x640_1_0_0_1_n_n.lhsIdx_val_of_single rfl i q
theorem rhs_acc_0 (i : S512x640.Idx) (q : dot_S512x2048_S2048x640_S512x640_1_0_0_1_n_n.contr.Idx) :
    (dot_S512x2048_S2048x640_S512x640_1_0_0_1_n_n.rhsIdx i q 0).val = (q ⟨0, by decide⟩).val :=
  dot_S512x2048_S2048x640_S512x640_1_0_0_1_n_n.rhsIdx_val_of_single rfl i q
theorem rhs_acc_1 (i : S512x640.Idx) (q : dot_S512x2048_S2048x640_S512x640_1_0_0_1_n_n.contr.Idx) :
    (dot_S512x2048_S2048x640_S512x640_1_0_0_1_n_n.rhsIdx i q 1).val = (i 1).val := by
  unfold DotDims.rhsIdx
  rw [dif_neg (show ¬(1 : Fin S2048x640.rank) ∈ dot_S512x2048_S2048x640_S512x640_1_0_0_1_n_n.rhsBatch by decide), dif_pos (show (1 : Fin S2048x640.rank) ∈ dot_S512x2048_S2048x640_S512x640_1_0_0_1_n_n.rhsNonContracting by decide)]
  rfl

/-- The 512 x 2048 by 2048 x 640 product into a zero accumulator, at (r, c): the sum over the 2048 inner positions. -/
theorem matmul_acc_apply (a : FVec Ideal S512x2048 .bf16) (b : FVec Ideal S2048x640 .bf16) (r : Fin 512) (c : Fin 640) :
    matmul dot_S512x2048_S2048x640_S512x640_1_0_0_1_n_n none a b (constant (F := Ideal) S512x640 .f32 0x00000000#32) (ix2 r c)
      = ∑ j : Fin 2048, a (ix2 r j) * b (ix2 j c) := by
  simp only [matmul]
  rw [Ideal.matmul_constant_zero_apply, ← Equiv.sum_comp (contrEquiv1 dot_S512x2048_S2048x640_S512x640_1_0_0_1_n_n 2048 rfl rfl).symm]
  refine Finset.sum_congr rfl fun k _ => ?_
  have hk := contrEquiv1_symm_val dot_S512x2048_S2048x640_S512x640_1_0_0_1_n_n 2048 rfl rfl k
  have el : dot_S512x2048_S2048x640_S512x640_1_0_0_1_n_n.lhsIdx (ix2 r c) ((contrEquiv1 dot_S512x2048_S2048x640_S512x640_1_0_0_1_n_n 2048 rfl rfl).symm k) = ix2 r k := funext fun a => Fin.ext (by
    match a with
    | ⟨0, _⟩ => exact lhs_acc_0 _ _
    | ⟨1, _⟩ => exact (lhs_acc_1 _ _).trans hk)
  have er : dot_S512x2048_S2048x640_S512x640_1_0_0_1_n_n.rhsIdx (ix2 r c) ((contrEquiv1 dot_S512x2048_S2048x640_S512x640_1_0_0_1_n_n 2048 rfl rfl).symm k) = ix2 k c := funext fun a => Fin.ext (by
    match a with
    | ⟨0, _⟩ => exact (rhs_acc_0 _ _).trans hk
    | ⟨1, _⟩ => exact rhs_acc_1 _ _)
  rw [el, er]

theorem lhs_sq_0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem lhs_sq_1 (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
theorem rhs_sq_0 (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
theorem rhs_sq_1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- A 512 x 512 by 512 x 512 product into a zero accumulator, at (r, o): the sum over the 512 inner positions. -/
theorem matmul_sq_apply (a : FVec Ideal S512x512 .bf16) (b : FVec Ideal S512x512 .bf16) (r o : Fin 512) :
    matmul dot_S512x512_S512x512_S512x512_1_0_0_1_n_n none a b (constant (F := Ideal) S512x512 .f32 0x00000000#32) (ix2 r o)
      = ∑ e : Fin 512, a (ix2 r e) * b (ix2 e o) := by
  simp only [matmul]
  rw [Ideal.matmul_constant_zero_apply, ← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx (ix2 r o) ((contrEquiv1 dot_S512x512_S512x512_S512x512_1_0_0_1_n_n 512 rfl rfl).symm k) = ix2 r k := funext fun a => Fin.ext (by
    match a with
    | ⟨0, _⟩ => exact lhs_sq_0 _ _
    | ⟨1, _⟩ => exact (lhs_sq_1 _ _).trans hk)
  have er : dot_S512x512_S512x512_S512x512_1_0_0_1_n_n.rhsIdx (ix2 r o) ((contrEquiv1 dot_S512x512_S512x512_S512x512_1_0_0_1_n_n 512 rfl rfl).symm k) = ix2 k o := funext fun a => Fin.ext (by
    match a with
    | ⟨0, _⟩ => exact (rhs_sq_0 _ _).trans hk
    | ⟨1, _⟩ => exact rhs_sq_1 _ _)
  rw [el, er]

theorem pay1_apply (r : Fin 512) (c : Fin 640) : k0_pay1 (F := Ideal) (ix2 r c) = 0 := by
  unfold k0_pay1
  rw [shapeCast_self]
  exact Ideal.ofBits_zero_f32

/-- A bit widened to a word and read as a signed integer is the bit as a number. -/
theorem bit_word_toInt (b : BitVec 1) : (b.setWidth 32).toInt = (b.toNat : ℤ) := by
  rcases BitVec.eq_zero_or_eq_one b with h | h <;> subst h <;> rfl

/-- The mask entry is the edge indicator. -/
theorem mask_entry (a : BitVec 32) :
    FloatOps.sitofp (F := Ideal) .f32 ((Scalar.cmpi .sgt a 0#32).setWidth 32) = Cert.Spec.edge a := by
  show ((((Scalar.cmpi .sgt a 0#32).setWidth 32).toInt : ℝ) : EReal) = (((Scalar.cmpi .sgt a 0#32).toNat : ℝ) : EReal)
  rw [bit_word_toInt]
  norm_cast

theorem pay2_apply (v5 : Vec Ideal S512x2048 .i32) (v12 : Vec Ideal S2048x640 .bf16) (v14 : Vec Ideal S512x640 .f32)
    (r : Fin 512) (c : Fin 640) :
    k0_pay2 v5 v12 v14 (ix2 r c)
      = v14 (ix2 r c) + ∑ j : Fin 2048, Cert.Spec.edge (v5 (ix2 r j)) * v12 (ix2 j c) := by
  unfold k0_pay2
  rw [shapeCast_self, shapeCast_self]
  refine (addf_apply _ _ _).trans ?_
  refine congrArg (v14 (ix2 r c) + ·) ?_
  refine (matmul_acc_apply _ _ r c).trans ?_
  refine Finset.sum_congr rfl fun j _ => ?_
  exact congrArg (· * v12 (ix2 j c)) (mask_entry (v5 (ix2 r j)))

/-! ## The epilogue's layout steps -/

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A bias vector viewed as one row and repeated down the 512 rows reads, at (r, o), its entry o. -/
theorem bias_row_apply (v : FVec Ideal S512 .f32) (h1 : S512.ShapeCasts S1x512) (h2 : S1x512.Broadcasts S512x512)
    (r o : Fin 512) : broadcastTo S512x512 (shapeCast S1x512 v h1) h2 (ix2 r o) = v (ix1 o) :=
  (broadcastTo_1b_ab_apply _ h2 r o).trans (shapeCast_a_1a_apply v h1 0 o)

/-- The mean's entry (r, e): accumulator column e over the larger of the degree column and 1. -/
theorem mean_apply (v25 : FVec Ideal S512x640 .f32) (hs : S512x640.Slices ![0, 0] S512x512)
    (hd : S512x640.Slices ![0, 512] S512x1) (hb : S512x1.Broadcasts S512x512) (r e : Fin 512) :
    divf (extractStridedSlice S512x512 ![0, 0] v25 hs)
        (broadcastTo S512x512 (maximumf (extractStridedSlice S512x1 ![0, 512] v25 hd)
          (broadcast S512x1 (Scalar.ofBits (F := Ideal) .f32 0x3F800000#32))) hb) (ix2 r e)
      = Ideal.div (v25 (ix2 r (featCol e))) (max (v25 (ix2 r degCol)) 1) := by
  refine (divf_apply _ _ _).trans ?_
  refine congrArg₂ Ideal.div (slice2_axis1_apply 0 v25 hs r e (featCol e) (Nat.zero_add _).symm) ?_
  refine (broadcastTo_a1_ab_apply _ hb r e).trans ?_
  refine (maximumf_apply _ _ _).trans ?_
  exact congrArg₂ max (slice2_axis1_apply 512 v25 hd r (0 : Fin 1) degCol rfl) Ideal.ofBits_one_f32

/-- One branch before the combining product, at (r, d): the product's entry plus the bias' entry d. -/
theorem branch_apply (a : FVec Ideal S512x512 .bf16) (w : FVec Ideal S512x512 .f32) (bias : FVec Ideal S512 .f32)
    (hlt : FTy.bits .bf16 < FTy.bits .f32) (h1 : S512.ShapeCasts S1x512) (h2 : S1x512.Broadcasts S512x512) (r d : Fin 512) :
    addf (matmul dot_S512x512_S512x512_S512x512_1_0_0_1_n_n none a (truncf .bf16 w hlt)
        (constant (F := Ideal) S512x512 .f32 0x00000000#32))
      (broadcastTo S512x512 (shapeCast S1x512 bias h1) h2) (ix2 r d)
      = (∑ e : Fin 512, a (ix2 r e) * w (ix2 e d)) + bias (ix1 d) := by
  refine (addf_apply _ _ _).trans ?_
  exact congrArg₂ (· + ·) (matmul_sq_apply a (truncf .bf16 w hlt) r d) (bias_row_apply bias h1 h2 r d)

theorem pay34_apply (v25 : Vec Ideal S512x640 .f32) (v34 : Vec Ideal S512x512 .bf16) (v36 : Vec Ideal S512x512 .f32)
    (v39 : Vec Ideal S512 .f32) (v43 : Vec Ideal S512x512 .f32) (v46 : Vec Ideal S512 .f32) (v50 : Vec Ideal S512x512 .f32)
    (v52 : Vec Ideal S512x512 .f32) (v59 : Vec Ideal S512 .f32) (r o : Fin 512) :
    k0_pay3 (k0_pay4 v25 v34 v36 v39 v43 v46 v50 v52 v59) (ix2 r o)
      = max (((∑ d : Fin 512, ((∑ e : Fin 512, v34 (ix2 r e) * v36 (ix2 e d)) + v39 (ix1 d)) * v50 (ix2 d o))
              + (∑ d : Fin 512, ((∑ e : Fin 512, Ideal.div (v25 (ix2 r (featCol e))) (max (v25 (ix2 r degCol)) 1) * v43 (ix2 e d)) + v46 (ix1 d)) * v52 (ix2 d o)))
             + v59 (ix1 o)) 0 := by
  unfold k0_pay3 k0_pay4
  rw [shapeCast_self]
  refine (maximumf_apply _ _ _).trans ?_
  refine congrArg₂ max ?_ Ideal.ofBits_zero_f32
  refine (addf_apply _ _ _).trans ?_
  refine congrArg₂ (· + ·) ?_ (bias_row_apply v59 _ _ r o)
  refine (addf_apply _ _ _).trans ?_
  refine congrArg₂ (· + ·) ?_ ?_
  · refine (matmul_sq_apply _ _ r o).trans ?_
    refine Finset.sum_congr rfl fun d _ => ?_
    exact congrArg (· * v50 (ix2 d o)) (branch_apply v34 v36 v39 _ _ _ r d)
  · refine (matmul_sq_apply _ _ r o).trans ?_
    refine Finset.sum_congr rfl fun d _ => ?_
    refine congrArg (· * v52 (ix2 d o)) ?_
    refine (branch_apply _ v43 v46 _ _ _ r d).trans ?_
    refine congrArg (· + v46 (ix1 d)) ?_
    refine Finset.sum_congr rfl fun e _ => ?_
    exact congrArg (· * v43 (ix2 e d)) (mean_apply v25 _ _ _ r e)

end Cert.KernelIdeal.Pay

end
-- ==== Proof.Algebra.lean ====
/-
  Two ways of cutting a finite sum, in any commutative additive monoid (the extended reals are one: their addition is
  commutative and associative, so a finite sum may be cut anywhere; no cancellation is used).
  * A sum of 1024 terms is the sum of its first 512 and its last 512.
  * A sum of 8192 terms taken in four consecutive blocks of 2048: the partial sum `upTo g n` of the terms with index
    below `n` starts at 0, grows by one block at a time, and is the whole sum at 8192.
-/
import Mathlib.Algebra.BigOperators.Fin
import Mathlib.Algebra.BigOperators.Intervals
import Mathlib.Data.Fintype.BigOperators

open scoped BigOperators

namespace Cert.Algebra

variable {M : Type*} [AddCommMonoid M]

/-- A sum of 1024 terms, cut in the middle. -/
theorem sum_halves (f : Fin 1024 → M) :
    ∑ k : Fin 1024, f k = (∑ d : Fin 512, f ⟨d.val, by omega⟩) + ∑ d : Fin 512, f ⟨512 + d.val, by omega⟩ := by
  -- 1024 = 512 + 512; the first 512 indices are the values `d`, the last 512 are the values `512 + d`.
  exact Fin.sum_univ_add (a := 512) (b := 512) f

/-- The sum of the terms of `g` with index below `n`. -/
def upTo (g : Fin 8192 → M) (n : ℕ) : M := ∑ j : Fin 8192, if j.val < n then g j else 0

/-- For `n ≤ 8192` the partial sum is a sum over the natural numbers below `n`, where `g` is continued by `0`
beyond its domain (the continuation is never reached; it only makes the summand a function on `ℕ`). -/
theorem upTo_eq_sum_range (g : Fin 8192 → M) (n : ℕ) (hn : n ≤ 8192) :
    upTo g n = ∑ i ∈ Finset.range n, (if h : i < 8192 then g ⟨i, h⟩ else 0) := by
  calc upTo g n
      = ∑ i ∈ Finset.range 8192, (if h : i < 8192 then (if i < n then g ⟨i, h⟩ else 0) else 0) :=
        Finset.sum_fin_eq_sum_range _
    _ = ∑ i ∈ Finset.range n, (if h : i < 8192 then (if i < n then g ⟨i, h⟩ else 0) else 0) := by
        -- the terms with `n ≤ i` are all `0`
        symm
        apply Finset.sum_subset (Finset.range_subset_range.2 hn)
        intro i _ hi
        have hlt : ¬ i < n := by simpa using hi
        simp [hlt]
    _ = ∑ i ∈ Finset.range n, (if h : i < 8192 then g ⟨i, h⟩ else 0) := by
        apply Finset.sum_congr rfl
        intro i hi
        have hlt : i < n := Finset.mem_range.1 hi
        simp [hlt]

theorem upTo_zero (g : Fin 8192 → M) : upTo g 0 = 0 := by
  -- no index is below 0, so every term is 0
  unfold upTo
  apply Finset.sum_eq_zero
  intro j _
  exact if_neg (Nat.not_lt_zero _)

/-- One more block of 2048 terms. -/
theorem upTo_block (g : Fin 8192 → M) (k : ℕ) (hk : k < 4) :
    upTo g (2048 * (k + 1)) = upTo g (2048 * k) + ∑ j : Fin 2048, g ⟨2048 * k + j.val, by omega⟩ := by
  -- the indices below `2048 * k + 2048` are those below `2048 * k` followed by `2048 * k + i` for `i < 2048`
  rw [upTo_eq_sum_range g _ (by omega), upTo_eq_sum_range g _ (by omega), Nat.mul_succ,
    Finset.sum_range_add, Finset.sum_fin_eq_sum_range]
  congr 1
  apply Finset.sum_congr rfl
  intro i hi
  have hi' : i < 2048 := Finset.mem_range.1 hi
  have hlt : 2048 * k + i < 8192 := by omega
  rw [dif_pos hlt, dif_pos hi']

theorem upTo_all (g : Fin 8192 → M) : upTo g 8192 = ∑ j : Fin 8192, g j := by
  -- every index is below 8192, so every term is kept
  unfold upTo
  apply Finset.sum_congr rfl
  intro j _
  exact if_pos j.isLt

end Cert.Algebra
-- ==== Proof.KI.Value.lean ====
/-
  The value of the pipelined call on the extended reals.

  Write g(row, col, j) = e(adj[row, j]) · aug[j, col] for the augmented features aug = [x | 1 | 0].  By induction on the
  point t = (i, k): after point t, entry (r, col) of the accumulator is the sum of g(512 i + r, col, j) over j < 2048 (k + 1)
  — a point with k = 0 starts from the cleared value 0, any other continues from the point before (same i) and adds its
  block of 2048 terms.  After k = 3 this is the whole sum over the 8192 nodes: in a feature column the neighbours' feature
  sum, in column 512 (where aug is 1) the degree.  The epilogue then computes exactly the layer at rows 512 i .. 512 i + 511,
  and the blocks written back at the sixteen points with k = 3 tile the result array.
-/
import proofs.«170365_j773094114149_2_alg».proof.Proof.KI.Blocks
import proofs.«170365_j773094114149_2_alg».proof.Proof.KI.Aug
import proofs.«170365_j773094114149_2_alg».proof.Proof.Payloads
import proofs.«170365_j773094114149_2_alg».proof.Proof.Algebra
import proofs.«170365_j773094114149_2_alg».proof.Proof.Spec
import Idealize.ShloMosaic.Lib.Pipeline.Value

-- membership in a rectangle of these extents recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Spec Cert.KernelIdeal.Pay
open scoped BigOperators

variable (m : (ℓ : Loc nD τ sig) → Buf (Elt Ideal) ℓ) (ρ : Dev nD → PrngReg)

/-- The adjacency matrix as launched. -/
abbrev adjArr (c : Dev nD) : S8192x8192.Idx → BitVec 32 := m ((c : Thread nD τ).loc main_arg1)

/-- The layer of the launch arguments. -/
abbrev layerOf (c : Dev nD) : S8192x512.Idx → EReal :=
  Cert.Spec.layer (xArr m c) (adjArr m c) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))

/-- The node of row `r` of the block of point `t`. -/
abbrev nodeRow (t : Fin cfg0.N) (r : Fin 512) : Fin 8192 := ⟨512 * (t.val / 4) + r.val, by have := t.isLt; have : cfg0.N = 64 := N_0; omega⟩
/-- The neighbour of column `j` of the mask block of point `t`. -/
abbrev nbCol (t : Fin cfg0.N) (j : Fin 2048) : Fin 8192 := ⟨2048 * (t.val % 4) + j.val, by omega⟩

/-- One term of the aggregation: the edge indicator times the augmented feature. -/
def term (c : Dev nD) (row : Fin 8192) (col : Fin 640) (j : Fin 8192) : EReal :=
  edge (adjArr m c (ix2 row j)) * augArr m c (ix2 j col)

/-- One accumulation step at point `t`, entry by entry: the previous entry plus this point's 2048 terms. -/
theorem step_apply (c : Dev nD) (t : Fin cfg0.N) (r : Fin 512) (col : Fin 640) (prev : Vec Ideal S512x640 .f32) :
    k0_pay2 (blockAt m c 0 t) (chunk (blockAt m c 1 t) (grid0.coords t)) prev (ix2 r col)
      = prev (ix2 r col) + ∑ j : Fin 2048, term m c (nodeRow t r) col (nbCol t j) := by
  refine (pay2_apply _ _ _ r col).trans ?_
  refine congrArg (fun s => prev (ix2 r col) + s) (Finset.sum_congr rfl fun j _ => ?_)
  have e1 : (blockAt m c 0 t : S512x2048.Idx → BitVec 32) (ix2 r j) = adjArr m c (ix2 (nodeRow t r) (nbCol t j)) :=
    (block0_apply m c t r j).trans (congrFun (entry_arg1 m c) _)
  have e2 : chunk (blockAt m c 1 t) (grid0.coords t) (ix2 j col) = augArr m c (ix2 (nbCol t j) col) :=
    (chunk_apply (blockAt m c 1 t) t j col).trans (congrFun (block1_eq m c t) _)
  exact congrArg₂ (fun a b => edge a * b) e1 e2

/-- The same, on partial sums: if the previous entry is the sum of the terms below `2048 k`, the new one is the sum below `2048 (k + 1)`. -/
theorem step_upTo (c : Dev nD) (t : Fin cfg0.N) (r : Fin 512) (col : Fin 640) (prev : Vec Ideal S512x640 .f32)
    (hprev : prev (ix2 r col) = Cert.Algebra.upTo (term m c (nodeRow t r) col) (2048 * (t.val % 4))) :
    k0_pay2 (blockAt m c 0 t) (chunk (blockAt m c 1 t) (grid0.coords t)) prev (ix2 r col)
      = Cert.Algebra.upTo (term m c (nodeRow t r) col) (2048 * (t.val % 4 + 1)) := by
  rw [step_apply, hprev, Cert.Algebra.upTo_block _ (t.val % 4) (by omega)]

/-- THE ACCUMULATOR after point `n`: the sum of the terms of its block's rows over the neighbours below `2048 (k + 1)`. -/
theorem acc_at (c : Dev nD) (n : ℕ) : ∀ (hn : n < cfg0.N) (r : Fin 512) (col : Fin 640),
    (outsAt m c n hn).2 (ix2 r col) = Cert.Algebra.upTo (term m c (nodeRow ⟨n, hn⟩ r) col) (2048 * (n % 4 + 1)) := by
  induction n with
  | zero =>
    intro hn r col
    rw [outsAt_first m c ⟨0, hn⟩ (Nat.zero_mod 4) (by show ¬(0 : ℕ) % 4 = 3; decide)]
    dsimp only
    rw [accAfter_first_eq]
    refine step_upTo m c ⟨0, hn⟩ r col _ ?_
    rw [pay1_apply]
    exact (Cert.Algebra.upTo_zero _).symm
  | succ n ih =>
    intro hn r col
    by_cases h0 : (n + 1) % 4 = 0
    · rw [outsAt_first m c ⟨n + 1, hn⟩ h0 (by show ¬(n + 1) % 4 = 3; omega)]
      dsimp only
      rw [accAfter_first_eq]
      refine step_upTo m c ⟨n + 1, hn⟩ r col _ ?_
      rw [pay1_apply]
      show (0 : EReal) = Cert.Algebra.upTo _ (2048 * ((n + 1) % 4))
      rw [h0]
      exact (Cert.Algebra.upTo_zero _).symm
    · have hrow : nodeRow ⟨n, Nat.lt_of_succ_lt hn⟩ r = nodeRow ⟨n + 1, hn⟩ r := Fin.ext (by show 512 * (n / 4) + r.val = 512 * ((n + 1) / 4) + r.val; omega)
      have hcnt : 2048 * (n % 4 + 1) = 2048 * ((n + 1) % 4) := by omega
      have hprev : (outsAt m c n (Nat.lt_of_succ_lt hn)).2 (ix2 r col)
          = Cert.Algebra.upTo (term m c (nodeRow ⟨n + 1, hn⟩ r) col) (2048 * ((n + 1) % 4)) := by
        rw [ih (Nat.lt_of_succ_lt hn) r col, hrow, hcnt]
      by_cases h1 : (n + 1) % 4 = 3
      · rw [outsAt_last m c ⟨n + 1, hn⟩ h0 h1]
        dsimp only
        rw [accAfter_last_eq]
        exact step_upTo m c ⟨n + 1, hn⟩ r col _ hprev
      · rw [outsAt_mid m c ⟨n + 1, hn⟩ h0 h1]
        dsimp only
        rw [accAfter_mid_eq]
        exact step_upTo m c ⟨n + 1, hn⟩ r col _ hprev

/-- A whole sum of terms in a feature column is the neighbours' feature sum, -/
theorem sum_feat (c : Dev nD) (row : Fin 8192) (e : Fin 512) :
    ∑ j : Fin 8192, term m c row (featCol e) j = nbSum (xArr m c) (adjArr m c) row e := by
  unfold nbSum
  refine Finset.sum_congr rfl fun j _ => ?_
  unfold term
  rw [aug_feat m c j (featCol e) e.isLt]

/-- and in the column of ones the degree. -/
theorem sum_deg (c : Dev nD) (row : Fin 8192) :
    ∑ j : Fin 8192, term m c row degCol j = deg (adjArr m c) row := by
  unfold deg
  refine Finset.sum_congr rfl fun j _ => ?_
  unfold term
  rw [aug_one m c j degCol rfl, mul_one]

/-- Where an entry of the output block of point `t` sits in the result array. -/
theorem out_emb (t : Fin cfg0.N) (r o : Fin 512) :
    ((cfg0.win 8).blk t).view.emb (ix2 r o) = (ix2 (nodeRow t r) o : S8192x512.Idx) := by
  obtain ⟨-, -, -, -, -, -, -, -, -, -, -, -, -, -, -, e0, e1⟩ := grid_facts t
  funext a; apply Fin.ext
  match a with
  | ⟨0, _⟩ => show win0_8.index t (0 : Fin 2) * 512 + 1 * r.val = 512 * (t.val / 4) + r.val; omega
  | ⟨1, _⟩ => show win0_8.index t (1 : Fin 2) * 512 + 1 * o.val = o.val; omega

/-- WHAT A POINT WITH k = 3 WRITES BACK is its block of the layer. -/
theorem flushed_eq (c : Dev nD) (t : Fin cfg0.N) (hf : (cfg0.win 8).flush t = true) :
    (dats m 0 c).flushed 8 t = ((cfg0.win 8).blk t).view.read (Elt Ideal) (layerOf m c) := by
  have h1 : t.val % 4 = 3 := (flush0_8 t).mp hf
  have h0 : ¬t.val % 4 = 0 := by omega
  have hlast : isLast (grid0.coords t) := (isLast_iff t).mpr h1
  show (cfg0.win 8).cut (grid0.coords t) ((dats m 0 c).after 8 t) = _
  rw [after8, outsAt_last m c t h0 h1]
  dsimp only
  rw [outAfter_last_eq]
  funext y
  obtain ⟨r, o, rfl⟩ : ∃ (r : Fin 512) (o : Fin 512), y = ix2 r o := ⟨y 0, y 1, eq_ix2 y⟩
  -- the accumulator after this point, entry by entry: the whole sums
  have hA : ∀ col : Fin 640, k0_pay2 (blockAt m c 0 t) (chunk (blockAt m c 1 t) (grid0.coords t))
      (outsAt m c (t.val - 1) (Nat.lt_of_le_of_lt (Nat.sub_le _ _) t.isLt)).2 (ix2 r col) = ∑ j : Fin 8192, term m c (nodeRow t r) col j := by
    intro col
    have h := acc_at m c t.val t.isLt r col
    rw [outsAt_last m c t h0 h1] at h
    dsimp only at h
    rw [accAfter_last_eq] at h
    rw [h, h1]
    exact Cert.Algebra.upTo_all _
  refine (pay34_apply _ _ _ _ _ _ _ _ _ r o).trans ?_
  show _ = layerOf m c (((cfg0.win 8).blk t).view.emb (ix2 r o))
  rw [out_emb]
  show _ = max (pre (xArr m c) (adjArr m c) _ _ _ _ _ _ (nodeRow t r) o) 0
  -- the inputs' blocks are the whole arrays, as launched
  have e2 : (blockAt m c 2 t : S512x512.Idx → EReal) = m ((c : Thread nD τ).loc main_arg2) := (block2_eq m c t).trans (entry_arg2 m c)
  have e3 : (blockAt m c 3 t : S512.Idx → EReal) = m ((c : Thread nD τ).loc main_arg3) := (block3_eq m c t).trans (entry_arg3 m c)
  have e4 : (blockAt m c 4 t : S512x512.Idx → EReal) = m ((c : Thread nD τ).loc main_arg4) := (block4_eq m c t).trans (entry_arg4 m c)
  have e5 : (blockAt m c 5 t : S512.Idx → EReal) = m ((c : Thread nD τ).loc main_arg5) := (block5_eq m c t).trans (entry_arg5 m c)
  have e6 : (blockAt m c 6 t : S1024x512.Idx → EReal) = m ((c : Thread nD τ).loc main_arg6) := (block6_eq m c t).trans (entry_arg6 m c)
  have e7 : (blockAt m c 7 t : S512.Idx → EReal) = m ((c : Thread nD τ).loc main_arg7) := (block7_eq m c t).trans (entry_arg7 m c)
  -- the block's own features
  have hx : ∀ e : Fin 512, selfRows (blockAt m c 1 t) (grid0.coords t) hlast (ix2 r e) = xArr m c (ix2 (nodeRow t r) e) := fun e =>
    ((selfRows_apply (blockAt m c 1 t) t hlast r e).trans (congrFun (block1_eq m c t) _)).trans (aug_feat m c (nodeRow t r) ⟨e.val, by omega⟩ e.isLt)
  -- the self branch
  have hself : ∀ d : Fin 512, (∑ e : Fin 512, selfRows (blockAt m c 1 t) (grid0.coords t) hlast (ix2 r e) * (blockAt m c 2 t : S512x512.Idx → EReal) (ix2 e d))
      + (blockAt m c 3 t : S512.Idx → EReal) (ix1 d)
      = selfF (xArr m c) (m ((c : Thread nD τ).loc main_arg2)) (m ((c : Thread nD τ).loc main_arg3)) (nodeRow t r) d := fun d => by
    unfold selfF
    rw [e2, e3]
    exact congrArg (fun s => s + _) (Finset.sum_congr rfl fun e _ => by rw [hx e])
  -- the neighbour branch
  have hnb : ∀ d : Fin 512, (∑ e : Fin 512, Ideal.div (k0_pay2 (blockAt m c 0 t) (chunk (blockAt m c 1 t) (grid0.coords t))
        (outsAt m c (t.val - 1) (Nat.lt_of_le_of_lt (Nat.sub_le _ _) t.isLt)).2 (ix2 r (featCol e)))
        (max (k0_pay2 (blockAt m c 0 t) (chunk (blockAt m c 1 t) (grid0.coords t))
          (outsAt m c (t.val - 1) (Nat.lt_of_le_of_lt (Nat.sub_le _ _) t.isLt)).2 (ix2 r degCol)) 1) * (blockAt m c 4 t : S512x512.Idx → EReal) (ix2 e d))
      + (blockAt m c 5 t : S512.Idx → EReal) (ix1 d)
      = nbF (xArr m c) (adjArr m c) (m ((c : Thread nD τ).loc main_arg4)) (m ((c : Thread nD τ).loc main_arg5)) (nodeRow t r) d := fun d => by
    unfold nbF agg
    rw [e4, e5, hA degCol, sum_deg]
    refine congrArg₂ (· + ·) (Finset.sum_congr rfl fun e _ => ?_) rfl
    rw [hA (featCol e), sum_feat]
  unfold pre
  rw [e7]
  refine congrArg (fun s => max (s + _) 0) ?_
  refine congrArg₂ (· + ·) (Finset.sum_congr rfl fun d _ => ?_) (Finset.sum_congr rfl fun d _ => ?_)
  · rw [hself d, topHalf_apply, e6]
  · rw [hnb d, lowHalf_apply, e6]

/-- An index of the result array is in point `t`'s block iff each coordinate is in the block's range. -/
theorem mem_out_blk (t : Fin cfg0.N) (i : S8192x512.Idx) :
    i ∈ ((cfg0.win 8).blk t).view.set ↔ ∀ a : Fin 2, win0_8.index t a * S512x512.size a ≤ (i a).val ∧ (i a).val < win0_8.index t a * S512x512.size a + S512x512.size a := by
  show i ∈ ((View.whole main_v4).slice (win0_8.rect t)).set ↔ _
  rw [View.set_slice_whole, Rect.mem_set_unit]
  exact Iff.rfl

/-- Every index of the result array is in the block written back at the point (i, 3) of its row block. -/
theorem out_cover (i : S8192x512.Idx) :
    ∃ t : Fin cfg0.N, (cfg0.win 8).flush t = true ∧ i ∈ ((cfg0.win 8).blk t).view.set := by
  have hi0 : (i 0).val < 8192 := (i 0).isLt
  have hi1 : (i 1).val < 512 := (i 1).isLt
  have hN : cfg0.N = 64 := N_0
  let t : Fin cfg0.N := ⟨4 * ((i 0).val / 512) + 3, by omega⟩
  have ht : t.val = 4 * ((i 0).val / 512) + 3 := rfl
  refine ⟨t, (flush0_8 t).mpr (by rw [ht]; omega), ?_⟩
  rw [mem_out_blk]
  obtain ⟨-, -, -, -, -, -, -, -, -, -, -, -, -, -, -, e0, e1⟩ := grid_facts t
  intro a
  match a with
  | ⟨0, _⟩ => show win0_8.index t (0 : Fin 2) * 512 ≤ (i 0).val ∧ (i 0).val < win0_8.index t (0 : Fin 2) * 512 + 512; rw [e0, ht]; omega
  | ⟨1, _⟩ => show win0_8.index t (1 : Fin 2) * 512 ≤ (i 1).val ∧ (i 1).val < win0_8.index t (1 : Fin 2) * 512 + 512; rw [e1]; omega

/-- THE RESULT ARRAY after the call is the layer of the launch arguments. -/
theorem result_eq (c : Dev nD) : (dats m 0 c).arrAt 8 cfg0.N = layerOf m c :=
  (dats m 0 c).arrAt_eq_of_cover 8 (layerOf m c) (fun t hf => flushed_eq m c t hf) out_cover

/-- The run of the idealized kernel program: it terminates with the result array at the layer and the arguments as launched. -/
theorem run_layer : θ_run defs (onTc (τ := τ) (main (F := Ideal))) ⟨m, fun _ => 0, ρ⟩ (fun r => ∀ c : Dev nD,
      r.2.mem ((c.tc : Thread nD τ).loc main_v4) = layerOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m c), (h c).2⟩) (run_named m ρ)

end Cert.KernelIdeal.Fr

end
-- ==== Proof.RefIsLayer.lean ====
/-
  The idealized reference program computes the layer of the specification, index by index.

  Each stage of the reference is read at an index with explicit coordinates (p, q):
    the mask entry is the edge indicator; the row sum of the mask is the degree; the clamped degree is max (deg) 1;
    the masked contraction is the neighbours' feature sum; their quotient is the mean; the two affine branches are
    the self and the neighbour features; the concatenation [self | nb] contracted against the combining matrix over
    1024 terms is cut in the middle into the two sums of 512 terms of the specification; the bias and the rectifier
    are read last.  On the extended reals only the cut of a finite sum is used.
-/
import proofs.«170365_j773094114149_2_alg».proof.Proof.Gen.ReferenceIdeal.Run
import proofs.«170365_j773094114149_2_alg».proof.Proof.Gen.ReferenceIdeal.Read
import proofs.«170365_j773094114149_2_alg».proof.Proof.Spec
import proofs.«170365_j773094114149_2_alg».proof.Proof.Algebra
import Idealize.ShloMosaic.Lib.ValueIdx
import Idealize.ShloMosaic.Lib.Pipeline.Value
import Idealize.ShloMosaic.PureOps.Ideal.Laws
import Idealize.ShloMosaic.Lib.IdealHost

noncomputable section

open scoped BigOperators

namespace Cert.ReferenceIdeal.RefLayer

open Cert.ReferenceIdeal Cert.ReferenceIdeal.Gen Cert.ReferenceIdeal.Read Idealize.ShloMosaic Idealize.ShloMosaic.ValueIdx

variable (x0 : (⟨S8192x512, .f32⟩ : BufTy).Contents (Elt Ideal)) (x1 : (⟨S8192x8192, .i32⟩ : BufTy).Contents (Elt Ideal))
  (x2 : (⟨S512x512, .f32⟩ : BufTy).Contents (Elt Ideal)) (x3 : (⟨S512, .f32⟩ : BufTy).Contents (Elt Ideal))
  (x4 : (⟨S512x512, .f32⟩ : BufTy).Contents (Elt Ideal)) (x5 : (⟨S512, .f32⟩ : BufTy).Contents (Elt Ideal))
  (x6 : (⟨S1024x512, .f32⟩ : BufTy).Contents (Elt Ideal)) (x7 : (⟨S512, .f32⟩ : BufTy).Contents (Elt Ideal))

/-! ## The mask, the degree and the mean -/

/-- A mask entry is the edge indicator of the adjacency word. -/
theorem mask_at (i : S8192x8192.Idx) :
    val_main_v2 (F := Ideal) x1 i = Cert.Spec.edge (x1 i) := by
  rw [val_main_v2_apply, val_main_v1_apply, val_main_v0_apply, val_main_c_apply]
  rfl

theorem idx_v3 (p k : Fin 8192) : idx_main_v3 (ix1 p) k = ix2 p k :=
  funext fun a => by match a with | ⟨0, _⟩ => rfl | ⟨1, _⟩ => rfl

/-- The row sum of the mask is the degree. -/
theorem deg_at (p : Fin 8192) :
    val_main_v3 (F := Ideal) x1 (ix1 p) = Cert.Spec.deg x1 p := by
  rw [val_main_v3_apply, val_main_cst_apply]
  show Ideal.ofBits .f32 0x00000000#32 + _ = _
  rw [Ideal.ofBits_zero_f32, zero_add]
  unfold Cert.Spec.deg
  refine Finset.sum_congr rfl fun k _ => ?_
  rw [idx_v3, mask_at]

theorem idx_v8_v4 (p : Fin 8192) (q : Fin 512) : idx_main_v4 (idx_main_v8 (ix2 p q)) = ix1 p :=
  funext fun a => by match a with | ⟨0, _⟩ => rfl

/-- The divisor is the degree clamped below by one. -/
theorem den_at (p : Fin 8192) (q : Fin 512) :
    val_main_v8 (F := Ideal) x1 (ix2 p q) = max (Cert.Spec.deg x1 p) 1 := by
  rw [val_main_v8_apply, val_main_v7_apply, val_main_v4_apply, val_main_v6_apply, val_main_cst_0_apply,
    idx_v8_v4, deg_at]
  show max _ (Ideal.ofBits .f32 0x3F800000#32) = _
  rw [Ideal.ofBits_one_f32]

theorem lidx_v5 (p : Fin 8192) (q : Fin 512) (k : Fin 8192) : lidx_main_v5 (ix2 p q) k = ix2 p k :=
  funext fun a => by match a with | ⟨0, _⟩ => rfl | ⟨1, _⟩ => rfl
theorem ridx_v5 (p : Fin 8192) (q : Fin 512) (k : Fin 8192) : ridx_main_v5 (ix2 p q) k = ix2 k q :=
  funext fun a => by match a with | ⟨0, _⟩ => rfl | ⟨1, _⟩ => rfl

/-- The masked contraction is the sum of the neighbours' features. -/
theorem num_at (p : Fin 8192) (q : Fin 512) :
    val_main_v5 (F := Ideal) x0 x1 (ix2 p q) = Cert.Spec.nbSum x0 x1 p q := by
  rw [val_main_v5_apply]
  unfold Cert.Spec.nbSum
  refine Finset.sum_congr rfl fun k _ => ?_
  rw [lidx_v5, ridx_v5, mask_at]

/-- The quotient is the neighbours' mean. -/
theorem agg_at (p : Fin 8192) (q : Fin 512) :
    val_main_v9 (F := Ideal) x0 x1 (ix2 p q) = Cert.Spec.agg x0 x1 p q := by
  rw [val_main_v9_apply, num_at, den_at]
  rfl

/-! ## The two affine branches -/

theorem lidx_v10 (p : Fin 8192) (q : Fin 512) (k : Fin 512) : lidx_main_v10 (ix2 p q) k = ix2 p k :=
  funext fun a => by match a with | ⟨0, _⟩ => rfl | ⟨1, _⟩ => rfl
theorem ridx_v10 (p : Fin 8192) (q : Fin 512) (k : Fin 512) : ridx_main_v10 (ix2 p q) k = ix2 k q :=
  funext fun a => by match a with | ⟨0, _⟩ => rfl | ⟨1, _⟩ => rfl
theorem idx_v12_v11 (p : Fin 8192) (q : Fin 512) : idx_main_v11 (idx_main_v12 (ix2 p q)) = ix1 q :=
  funext fun a => by match a with | ⟨0, _⟩ => rfl

/-- The self branch. -/
theorem self_at (p : Fin 8192) (o : Fin 512) :
    val_main_v13 (F := Ideal) x0 x2 x3 (ix2 p o) = Cert.Spec.selfF x0 x2 x3 p o := by
  rw [val_main_v13_apply, val_main_v10_apply, val_main_v12_apply, val_main_v11_apply, idx_v12_v11]
  unfold Cert.Spec.selfF
  refine congrArg (· + x3 (ix1 o)) (Finset.sum_congr rfl fun k _ => ?_)
  rw [lidx_v10, ridx_v10]

theorem lidx_v14 (p : Fin 8192) (q : Fin 512) (k : Fin 512) : lidx_main_v14 (ix2 p q) k = ix2 p k :=
  funext fun a => by match a with | ⟨0, _⟩ => rfl | ⟨1, _⟩ => rfl
theorem ridx_v14 (p : Fin 8192) (q : Fin 512) (k : Fin 512) : ridx_main_v14 (ix2 p q) k = ix2 k q :=
  funext fun a => by match a with | ⟨0, _⟩ => rfl | ⟨1, _⟩ => rfl
theorem idx_v16_v15 (p : Fin 8192) (q : Fin 512) : idx_main_v15 (idx_main_v16 (ix2 p q)) = ix1 q :=
  funext fun a => by match a with | ⟨0, _⟩ => rfl

/-- The neighbour branch. -/
theorem nb_at (p : Fin 8192) (o : Fin 512) :
    val_main_v17 (F := Ideal) x0 x1 x4 x5 (ix2 p o) = Cert.Spec.nbF x0 x1 x4 x5 p o := by
  rw [val_main_v17_apply, val_main_v14_apply, val_main_v16_apply, val_main_v15_apply, idx_v16_v15]
  unfold Cert.Spec.nbF
  refine congrArg (· + x5 (ix1 o)) (Finset.sum_congr rfl fun k _ => ?_)
  rw [lidx_v14, ridx_v14, agg_at]

/-! ## The concatenation and its contraction -/

/-- A column of the first half of the concatenation is that column of the self branch. -/
theorem cat_top (p : Fin 8192) (d : Fin 512) :
    val_main_v18 (F := Ideal) x0 x1 x2 x3 x4 x5 (ix2 p (Cert.Spec.topRow d))
      = val_main_v13 (F := Ideal) x0 x2 x3 (ix2 p d) := by
  unfold val_main_v18
  generalize val_main_v13 (F := Ideal) x0 x2 x3 = y1
  generalize val_main_v17 (F := Ideal) x0 x1 x4 x5 = y2
  exact concatenate_pair_apply_left (1 : Fin S8192x1024.rank) y1 y2
    concatenates_S8192x512_S8192x512_S8192x1024_d1 (ix2 p (Cert.Spec.topRow d)) rfl (ix2 p d)
    (fun b => by match b with | ⟨0, _⟩ => rfl | ⟨1, _⟩ => rfl)

/-- A column of the second half of the concatenation is that column, 512 less, of the neighbour branch. -/
theorem cat_low (p : Fin 8192) (d : Fin 512) :
    val_main_v18 (F := Ideal) x0 x1 x2 x3 x4 x5 (ix2 p (Cert.Spec.lowRow d))
      = val_main_v17 (F := Ideal) x0 x1 x4 x5 (ix2 p d) := by
  unfold val_main_v18
  generalize val_main_v13 (F := Ideal) x0 x2 x3 = y1
  generalize val_main_v17 (F := Ideal) x0 x1 x4 x5 = y2
  exact concatenate_pair_apply_right (1 : Fin S8192x1024.rank) y1 y2
    concatenates_S8192x512_S8192x512_S8192x1024_d1 (ix2 p (Cert.Spec.lowRow d)) rfl rfl (ix2 p d)
    (fun b hb => by
      match b, hb with
      | ⟨0, _⟩, _ => rfl
      | ⟨1, _⟩, hb => exact absurd rfl hb)
    (by show d.val + 512 = 512 + d.val; omega)

theorem lidx_v19 (p : Fin 8192) (q : Fin 512) (k : Fin 1024) : lidx_main_v19 (ix2 p q) k = ix2 p k :=
  funext fun a => by match a with | ⟨0, _⟩ => rfl | ⟨1, _⟩ => rfl
theorem ridx_v19 (p : Fin 8192) (q : Fin 512) (k : Fin 1024) : ridx_main_v19 (ix2 p q) k = ix2 k q :=
  funext fun a => by match a with | ⟨0, _⟩ => rfl | ⟨1, _⟩ => rfl

/-- The contraction of the concatenation against the combining matrix, cut in the middle. -/
theorem comb_at (p : Fin 8192) (q : Fin 512) :
    val_main_v19 (F := Ideal) x0 x1 x2 x3 x4 x5 x6 (ix2 p q)
      = (∑ d : Fin 512, Cert.Spec.selfF x0 x2 x3 p d * x6 (ix2 (Cert.Spec.topRow d) q))
        + ∑ d : Fin 512, Cert.Spec.nbF x0 x1 x4 x5 p d * x6 (ix2 (Cert.Spec.lowRow d) q) := by
  rw [val_main_v19_apply, Cert.Algebra.sum_halves]
  refine congrArg₂ (· + ·) (Finset.sum_congr rfl fun d _ => ?_) (Finset.sum_congr rfl fun d _ => ?_)
  · rw [lidx_v19, ridx_v19]
    exact congrArg (· * x6 (ix2 (Cert.Spec.topRow d) q)) ((cat_top x0 x1 x2 x3 x4 x5 p d).trans (self_at x0 x2 x3 p d))
  · rw [lidx_v19, ridx_v19]
    exact congrArg (· * x6 (ix2 (Cert.Spec.lowRow d) q)) ((cat_low x0 x1 x2 x3 x4 x5 p d).trans (nb_at x0 x1 x4 x5 p d))

theorem idx_v21_v20 (p : Fin 8192) (q : Fin 512) : idx_main_v20 (idx_main_v21 (ix2 p q)) = ix1 q :=
  funext fun a => by match a with | ⟨0, _⟩ => rfl

/-! ## The reference is the layer -/

theorem ref_is_layer (x0 : (⟨S8192x512, .f32⟩ : BufTy).Contents (Elt Ideal)) (x1 : (⟨S8192x8192, .i32⟩ : BufTy).Contents (Elt Ideal)) (x2 : (⟨S512x512, .f32⟩ : BufTy).Contents (Elt Ideal)) (x3 : (⟨S512, .f32⟩ : BufTy).Contents (Elt Ideal)) (x4 : (⟨S512x512, .f32⟩ : BufTy).Contents (Elt Ideal)) (x5 : (⟨S512, .f32⟩ : BufTy).Contents (Elt Ideal)) (x6 : (⟨S1024x512, .f32⟩ : BufTy).Contents (Elt Ideal)) (x7 : (⟨S512, .f32⟩ : BufTy).Contents (Elt Ideal)) :
    Cert.ReferenceIdeal.Read.val_main_v23 (F := Ideal) x0 x1 x2 x3 x4 x5 x6 x7 = Cert.Spec.layer x0 x1 x2 x3 x4 x5 x6 x7 := by
  funext i
  obtain ⟨p, q, rfl⟩ : ∃ (p : Fin 8192) (q : Fin 512), i = ix2 p q := ⟨i 0, i 1, eq_ix2 i⟩
  rw [val_main_v23_apply, val_main_v22_apply, val_main_call0_v0_apply, val_main_call0_cst_apply, comb_at,
    val_main_v21_apply, val_main_v20_apply, idx_v21_v20]
  show max (_ + x7 (ix1 q)) (Ideal.ofBits .f32 0x00000000#32) = _
  rw [Ideal.ofBits_zero_f32]
  rfl

end Cert.ReferenceIdeal.RefLayer

end
-- ==== Proof.lean ====
/-
  The certificate of the fused GraphSAGE layer against its jnp reference.

  Both programs compute, for every node i and output feature o,
      max ((Σ_d self i d · W_comb[d, o] + Σ_d nb i d · W_comb[512 + d, o]) + b_comb[o]) 0,
  with self = x · W_self + b_self, nb = agg · W_nb + b_nb and agg the neighbours' feature sum divided by max(degree, 1),
  the neighbours of i being the j with adj[i, j] > 0.  The kernel gathers the feature sums and the degree in one product of
  the 0/1 mask with the augmented features [x | 1 | 0], accumulated over four column blocks per row block; the reference
  takes the degree by a separate row sum and contracts the concatenation [self | nb] against W_comb in one sum.  On the
  extended reals these are the same finite sums taken in another order, so the two results agree entry by entry; no
  cancellation or distributivity is used, and the finiteness of the inputs is never opened.

  The three frames: each kernel program's from its run through the pipelined call (the arguments are only read); the
  reference's from its run as a straight line of host operations.  The idealization rewrote nothing, so `preserves` is trivial.
-/
import proofs.«170365_j773094114149_2_alg».proof.Defs
import proofs.«170365_j773094114149_2_alg».proof.Proof.Gen.Kernel
import proofs.«170365_j773094114149_2_alg».proof.Proof.Gen.KernelIdeal
import proofs.«170365_j773094114149_2_alg».proof.Proof.Gen.ReferenceIdeal
import proofs.«170365_j773094114149_2_alg».proof.Proof.Gen.Pre_finite_inputs
import proofs.«170365_j773094114149_2_alg».proof.Proof.K.Frame
import proofs.«170365_j773094114149_2_alg».proof.Proof.KI.Value
import proofs.«170365_j773094114149_2_alg».proof.Proof.RefIsLayer
import Idealize.ShloMosaic.Adequacy
import Idealize.ShloMosaic.Init

noncomputable section

namespace Cert.Proof

open Idealize.ShloMosaic Idealize.SL.Sem

theorem frame_k : Cert.frame_Kernel := fun m ρ _ => Cert.Kernel.Fr.frame m ρ

theorem frame_ki : Cert.frame_KernelIdeal := fun m ρ _ => Cert.KernelIdeal.Fr.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end at the layer of those arguments. -/
theorem algebraic : Cert.algebraic_KernelIdeal_ReferenceIdeal := by
  intro m ρ m' ρ' _ hagree
  refine ⟨fun c => Cert.KernelIdeal.Fr.layerOf m c, Cert.KernelIdeal.Fr.run_layer m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2]
  exact Cert.ReferenceIdeal.RefLayer.ref_is_layer _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
